-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S9216x1024 : S_.BroadcastsInDim S9216x1024 (![] : Fin 0 → Fin S9216x1024.rank)
  reducesTo_S9216x1024_S_d0_1 : S9216x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S9216x1024 .f32) (main_arg2 : FVec F S1024x1024 .f32) (main_arg3 : FVec F S1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S9216x1024 .f32 := Host.absf main_arg1
  let main_cst_0 : FVec F S_ .f32 := constant S_ .f32 0x7F800000#32
  let main_v5 : FVec F S9216x1024 .f32 := broadcastInDim S9216x1024 ![] bcast_S_S9216x1024 main_cst_0
  let main_v6 : IVec S9216x1024 1 := cmpf .olt main_v4 main_v5
  let main_c_1 : IVec S_ 1 := constantI S_ 1 1#1
  let main_v7 : IVec S_ 1 := (fun x v => Host.reduce IntOp.andi x v reducesTo_S9216x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S1024x9216 : Shape := ⟨2, ![1024, 9216]⟩
abbrev S1x512x1024 : Shape := ⟨3, ![1, 512, 1024]⟩
abbrev S512x1024 : Shape := ⟨2, ![512, 1024]⟩
abbrev S4x32x1024 : Shape := ⟨3, ![4, 32, 1024]⟩
abbrev S4x4160x1024 : Shape := ⟨3, ![4, 4160, 1024]⟩
abbrev S1x1024 : Shape := ⟨2, ![1, 1024]⟩
abbrev S1x128x1024 : Shape := ⟨3, ![1, 128, 1024]⟩
abbrev S4160x1024 : Shape := ⟨2, ![4160, 1024]⟩
abbrev S_ : Shape := ⟨0, ![]⟩
abbrev S1x4160x1024 : Shape := ⟨3, ![1, 4160, 1024]⟩
abbrev S128x1024 : Shape := ⟨2, ![128, 1024]⟩
abbrev S128x9216 : Shape := ⟨2, ![128, 9216]⟩
abbrev S128 : Shape := ⟨1, ![128]⟩
abbrev S128x1 : Shape := ⟨2, ![128, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S9216x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x9216, .f32⟩
  | .hbm, ⟨8, _⟩ => ⟨S1024x9216, .bf16⟩
  | .hbm, ⟨9, _⟩ => ⟨S4x4096x1024, .bf16⟩
  | .hbm, ⟨10, _⟩ => ⟨S4x32x1024, .bf16⟩
  | .hbm, ⟨11, _⟩ => ⟨S4x32x1024, .bf16⟩
  | .hbm, ⟨12, _⟩ => ⟨S4x4160x1024, .bf16⟩
  | .hbm, ⟨13, _⟩ => ⟨S1x1024, .f32⟩
  | .hbm, ⟨14, _⟩ => ⟨S1x1024, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x128x1024, .f32⟩
  | .local _ .vmem, ⟨6, _⟩ => ⟨S1x128x1024, .f32⟩
  | .local _ .vmem, ⟨7, _⟩ => ⟨S1x1024, .f32⟩
  | .local _ .vmem, ⟨8, _⟩ => ⟨S1x1024, .f32⟩
  | .local _ .vmem, ⟨9, _⟩ => ⟨S1x128x1024, .f32⟩
  | .local _ .vmem, ⟨10, _⟩ => ⟨S1x128x1024, .f32⟩
  | .local _ .vmem, ⟨11, _⟩ => ⟨S1024x9216, .bf16⟩
  | .local _ .vmem, ⟨12, _⟩ => ⟨S4160x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 32], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c0_i32_45 : BitVec 32 := 0#32
  let c0_i32_46 : BitVec 32 := 0#32
  ![arg0.toNat, 0, 0]
def k1_off2 (i : grid1.Coords) (c0_i32_6 : BitVec 32) : Fin 2 → Nat :=
  let c32_i32 : BitVec 32 := 32#32
  let arg1 : BitVec 32 := BitVec.ofNat 32 (i 1).val
  let c128_i32 : BitVec 32 := 128#32
  let v10 : BitVec 32 := Scalar.muli arg1 c128_i32
  let v11 : BitVec 32 := Scalar.addi c32_i32 v10
  let v12 : BitVec 32 := Scalar.addi v11 c0_i32_6
  let v13 : Index := Scalar.indexCast v12
  let c0_7 : Index := 0#32
  ![v13.toNat, 0]
def k1_off2_at (r : Fin 9) : BitVec 32 :=
  if r.val < 4 then
    if r.val < 2 then
      if r.val < 1 then
        0#32
      else
        4294967264#32
    else
      if r.val < 3 then
        4294967280#32
      else
        4294967292#32
  else
    if r.val < 6 then
      if r.val < 5 then
        4294967295#32
      else
        1#32
    else
      if r.val < 7 then
        4#32
      else
        if r.val < 8 then
          16#32
        else
          32#32
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  transposes_S9216x1024_S1024x9216_1_0 : S9216x1024.Transposes [1, 0] S1024x9216
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S4x4096x1024_S4x32x1024_0_4064_0 : S4x4096x1024.Slices ![0, 4064, 0] S4x32x1024
  slices_S4x4096x1024_S4x32x1024_0_0_0 : S4x4096x1024.Slices ![0, 0, 0] S4x32x1024
  concatenates_S4x32x1024_S4x4096x1024_S4x32x1024_S4x4160x1024_d1 : Shape.Concatenates [S4x32x1024, S4x4096x1024, S4x32x1024] S4x4160x1024 1
  shapeCasts_S1024_S1x1024 : S1024.ShapeCasts S1x1024
  squeezes_S1x4160x1024_S4160x1024 : S1x4160x1024.Squeezes S4160x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x9216_S1024x9216_0_0 : ∀ a, (![0, 0] : Fin 2 → Nat) a + S1024x9216.size a ≤ S1024x9216.size a
  h_S1024x9216 : 0 < S1024x9216.numel
  h_S128x1024 : 0 < S128x1024.numel
  slices_S128x9216_o0_0_S128x1024 : S128x9216.Slices ![0, 0] S128x1024
  slices_S128x9216_o0_1024_S128x1024 : S128x9216.Slices ![0, 1024] S128x1024
  slices_S128x9216_o0_2048_S128x1024 : S128x9216.Slices ![0, 2048] S128x1024
  slices_S128x9216_o0_3072_S128x1024 : S128x9216.Slices ![0, 3072] S128x1024
  slices_S128x9216_o0_4096_S128x1024 : S128x9216.Slices ![0, 4096] S128x1024
  slices_S128x9216_o0_5120_S128x1024 : S128x9216.Slices ![0, 5120] S128x1024
  slices_S128x9216_o0_6144_S128x1024 : S128x9216.Slices ![0, 6144] S128x1024
  slices_S128x9216_o0_7168_S128x1024 : S128x9216.Slices ![0, 7168] S128x1024
  slices_S128x9216_o0_8192_S128x1024 : S128x9216.Slices ![0, 8192] S128x1024
  reduces_S128x1024_S128 : S128x1024.Reduces [1] S128
  shapeCasts_S128_S128x1 : S128.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S128x1024 : S1x1024.Broadcasts S128x1024
  shapeCasts_S128x1024_S1x128x1024 : S128x1024.ShapeCasts S1x128x1024
  dot_S512x1024_S1024x1024_S512x1024_1_0_0_1_n_n_wf : DotDims.WF S512x1024 S1024x1024 S512x1024 [1] [0] [0] [1] [] []
  dot_S128x1024_S1024x9216_S128x9216_1_0_0_1_n_n_wf : DotDims.WF S128x1024 S1024x9216 S128x9216 [1] [0] [0] [1] [] []
  hcc1_scratch2 : 11 + S_.numel ≤ 13
  hcc1_scratch3 : 12 + S_.numel ≤ 13
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .bf16 = 32 ∨ (Rect.block (s := S4x4096x1024) S1x512x1024.size (cc0_transform_2 i) (hinb0_2 i)).WholeWords (EltTy.packing .bf16)
  hrank1 : 0 < grid1.rank
  k1_off1_inb : ∀ i : grid1.Coords, ∀ (k1_h1 : k1_cond1 i = 1#1), ∀ a, (k1_off1 i) a + S1x4160x1024.size a ≤ S4x4160x1024.size a
  k1_off1_wordsbf16 : ∀ i : grid1.Coords, ∀ (k1_h1 : k1_cond1 i = 1#1), (Rect.unit (s := S4x4160x1024) (k1_off1 i) S1x4160x1024.size (k1_off1_inb i k1_h1)).WholeWords (EltTy.packing .bf16)
  k1_off2_inb : ∀ i : grid1.Coords, ∀ (r : Fin 9), ∀ a, (k1_off2 i (k1_off2_at r)) a + S128x1024.size a ≤ S4160x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S4x4096x1024.size a
  hwx1_0 : ∀ i : grid1.Coords, EltTy.bits .f32 = 32 ∨ (Rect.block (s := S4x4096x1024) S1x128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_3 i = cc1_transform_3 i'
  hinb1_1 : ∀ (i : grid1.Coords) a, (cc1_transform_3 i a + 1) * S1x1024.size a ≤ S1x1024.size a
  hwx1_1 : ∀ i : grid1.Coords, EltTy.bits .f32 = 32 ∨ (Rect.block (s := S1x1024) S1x1024.size (cc1_transform_3 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_4 i = cc1_transform_4 i'
  hinb1_2 : ∀ (i : grid1.Coords) a, (cc1_transform_4 i a + 1) * S1x1024.size a ≤ S1x1024.size a
  hwx1_2 : ∀ i : grid1.Coords, EltTy.bits .f32 = 32 ∨ (Rect.block (s := S1x1024) S1x1024.size (cc1_transform_4 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_5 i = cc1_transform_5 i'
  hinb1_3 : ∀ (i : grid1.Coords) a, (cc1_transform_5 i a + 1) * S1x128x1024.size a ≤ S4x4096x1024.size a
  hwx1_3 : ∀ i : grid1.Coords, EltTy.bits .f32 = 32 ∨ (Rect.block (s := S4x4096x1024) S1x128x1024.size (cc1_transform_5 i) (hinb1_3 i)).WholeWords (EltTy.packing .f32)

variable [Facts₀]

abbrev cc1_scratch2 : DmaSems sig S_ := SemArray.consecutive 11 S_ hcc1_scratch2
abbrev cc1_scratch3 : DmaSems sig S_ := SemArray.consecutive 12 S_ hcc1_scratch3
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x1024_S1024x9216_S128x9216_1_0_0_1_n_n : DotDims S128x1024 S1024x9216 S128x9216 where
  lhsContracting := [1]
  rhsContracting := [0]
  lhsNonContracting := [0]
  rhsNonContracting := [1]
  lhsBatch := []
  rhsBatch := []
  wf := dot_S128x1024_S1024x9216_S128x9216_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024.size cc1_transform_3 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_4 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128x1024.size cc1_transform_5 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S9216x1024 : Shape := ⟨2, ![9216, 1024]⟩
abbrev S1024x1024 : Shape := ⟨2, ![1024, 1024]⟩
abbrev S1024 : Shape := ⟨1, ![1024]⟩
abbrev S4x32x1024 : Shape := ⟨3, ![4, 32, 1024]⟩
abbrev S4x4064x1024 : Shape := ⟨3, ![4, 4064, 1024]⟩
abbrev S4x16x1024 : Shape := ⟨3, ![4, 16, 1024]⟩
abbrev S4x4080x1024 : Shape := ⟨3, ![4, 4080, 1024]⟩
abbrev S4x4x1024 : Shape := ⟨3, ![4, 4, 1024]⟩
abbrev S4x4092x1024 : Shape := ⟨3, ![4, 4092, 1024]⟩
abbrev S4x1x1024 : Shape := ⟨3, ![4, 1, 1024]⟩
abbrev S4x4095x1024 : Shape := ⟨3, ![4, 4095, 1024]⟩
abbrev S4x4096x1x1024 : Shape := ⟨4, ![4, 4096, 1, 1024]⟩
abbrev S4x4096x9x1024 : Shape := ⟨4, ![4, 4096, 9, 1024]⟩
abbrev S4x4096x9216 : Shape := ⟨3, ![4, 4096, 9216]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S9216x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x4096x1024, .f32⟩
  | .hbm, ⟨6, _⟩ => ⟨S4x32x1024, .f32⟩
  | .hbm, ⟨7, _⟩ => ⟨S4x4064x1024, .f32⟩
  | .hbm, ⟨8, _⟩ => ⟨S4x4096x1024, .f32⟩
  | .hbm, ⟨9, _⟩ => ⟨S4x16x1024, .f32⟩
  | .hbm, ⟨10, _⟩ => ⟨S4x4080x1024, .f32⟩
  | .hbm, ⟨11, _⟩ => ⟨S4x4096x1024, .f32⟩
  | .hbm, ⟨12, _⟩ => ⟨S4x4x1024, .f32⟩
  | .hbm, ⟨13, _⟩ => ⟨S4x4092x1024, .f32⟩
  | .hbm, ⟨14, _⟩ => ⟨S4x4096x1024, .f32⟩
  | .hbm, ⟨15, _⟩ => ⟨S4x1x1024, .f32⟩
  | .hbm, ⟨16, _⟩ => ⟨S4x4095x1024, .f32⟩
  | .hbm, ⟨17, _⟩ => ⟨S4x4096x1024, .f32⟩
  | .hbm, ⟨18, _⟩ => ⟨S4x4095x1024, .f32⟩
  | .hbm, ⟨19, _⟩ => ⟨S4x1x1024, .f32⟩
  | .hbm, ⟨20, _⟩ => ⟨S4x4096x1024, .f32⟩
  | .hbm, ⟨21, _⟩ => ⟨S4x4092x1024, .f32⟩
  | .hbm, ⟨22, _⟩ => ⟨S4x4x1024, .f32⟩
  | .hbm, ⟨23, _⟩ => ⟨S4x4096x1024, .f32⟩
  | .hbm, ⟨24, _⟩ => ⟨S4x4080x1024, .f32⟩
  | .hbm, ⟨25, _⟩ => ⟨S4x16x1024, .f32⟩
  | .hbm, ⟨26, _⟩ => ⟨S4x4096x1024, .f32⟩
  | .hbm, ⟨27, _⟩ => ⟨S4x4064x1024, .f32⟩
  | .hbm, ⟨28, _⟩ => ⟨S4x32x1024, .f32⟩
  | .hbm, ⟨29, _⟩ => ⟨S4x4096x1024, .f32⟩
  | .hbm, ⟨30, _⟩ => ⟨S4x4096x1x1024, .f32⟩
  | .hbm, ⟨31, _⟩ => ⟨S4x4096x1x1024, .f32⟩
  | .hbm, ⟨32, _⟩ => ⟨S4x4096x1x1024, .f32⟩
  | .hbm, ⟨33, _⟩ => ⟨S4x4096x1x1024, .f32⟩
  | .hbm, ⟨34, _⟩ => ⟨S4x4096x1x1024, .f32⟩
  | .hbm, ⟨35, _⟩ => ⟨S4x4096x1x1024, .f32⟩
  | .hbm, ⟨36, _⟩ => ⟨S4x4096x1x1024, .f32⟩
  | .hbm, ⟨37, _⟩ => ⟨S4x4096x1x1024, .f32⟩
  | .hbm, ⟨38, _⟩ => ⟨S4x4096x1x1024, .f32⟩
  | .hbm, ⟨39, _⟩ => ⟨S4x4096x9x1024, .f32⟩
  | .hbm, ⟨40, _⟩ => ⟨S4x4096x9216, .f32⟩
  | .hbm, ⟨41, _⟩ => ⟨S4x4096x9216, .f32⟩
  | .hbm, ⟨42, _⟩ => ⟨S4x4096x9216, .f32⟩
  | .hbm, ⟨43, _⟩ => ⟨S_, .f32⟩
  | .hbm, ⟨44, _⟩ => ⟨S4x4096x9216, .f32⟩
  | .hbm, ⟨45, _⟩ => ⟨S4x4096x9216, .f32⟩
  | .hbm, ⟨46, _⟩ => ⟨S_, .f32⟩
  | .hbm, ⟨47, _⟩ => ⟨S4x4096x9216, .f32⟩
  | .hbm, ⟨48, _⟩ => ⟨S4x4096x9216, .f32⟩
  | .hbm, ⟨49, _⟩ => ⟨S4x4096x9x1024, .f32⟩
  | .hbm, ⟨50, _⟩ => ⟨S4x4096x9x1024, .f32⟩
  | .hbm, ⟨51, _⟩ => ⟨S_, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_call2_v0 : Ref sig .tc := ⟨.hbm, 12, rfl⟩
abbrev main_call2_v1 : Ref sig .tc := ⟨.hbm, 13, rfl⟩
abbrev main_v3 : Ref sig .tc := ⟨.hbm, 14, rfl⟩
abbrev main_call3_v0 : Ref sig .tc := ⟨.hbm, 15, rfl⟩
abbrev main_call3_v1 : Ref sig .tc := ⟨.hbm, 16, rfl⟩
abbrev main_v4 : Ref sig .tc := ⟨.hbm, 17, rfl⟩
abbrev main_call4_v0 : Ref sig .tc := ⟨.hbm, 18, rfl⟩
abbrev main_call4_v1 : Ref sig .tc := ⟨.hbm, 19, rfl⟩
abbrev main_v5 : Ref sig .tc := ⟨.hbm, 20, rfl⟩
abbrev main_call5_v0 : Ref sig .tc := ⟨.hbm, 21, rfl⟩
abbrev main_call5_v1 : Ref sig .tc := ⟨.hbm, 22, rfl⟩
abbrev main_v6 : Ref sig .tc := ⟨.hbm, 23, rfl⟩
abbrev main_call6_v0 : Ref sig .tc := ⟨.hbm, 24, rfl⟩
abbrev main_call6_v1 : Ref sig .tc := ⟨.hbm, 25, rfl⟩
abbrev main_v7 : Ref sig .tc := ⟨.hbm, 26, rfl⟩
abbrev main_call7_v0 : Ref sig .tc := ⟨.hbm, 27, rfl⟩
abbrev main_call7_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S4x4096x1024_S4x32x1024_0_4064_0 : S4x4096x1024.Slices ![0, 4064, 0] S4x32x1024
  slices_S4x4096x1024_S4x4064x1024_0_0_0 : S4x4096x1024.Slices ![0, 0, 0] S4x4064x1024
  concatenates_S4x32x1024_S4x4064x1024_S4x4096x1024_d1 : Shape.Concatenates [S4x32x1024, S4x4064x1024] S4x4096x1024 1
  slices_S4x4096x1024_S4x16x1024_0_4080_0 : S4x4096x1024.Slices ![0, 4080, 0] S4x16x1024
  slices_S4x4096x1024_S4x4080x1024_0_0_0 : S4x4096x1024.Slices ![0, 0, 0] S4x4080x1024
  concatenates_S4x16x1024_S4x4080x1024_S4x4096x1024_d1 : Shape.Concatenates [S4x16x1024, S4x4080x1024] S4x4096x1024 1
  slices_S4x4096x1024_S4x4x1024_0_4092_0 : S4x4096x1024.Slices ![0, 4092, 0] S4x4x1024
  slices_S4x4096x1024_S4x4092x1024_0_0_0 : S4x4096x1024.Slices ![0, 0, 0] S4x4092x1024
  concatenates_S4x4x1024_S4x4092x1024_S4x4096x1024_d1 : Shape.Concatenates [S4x4x1024, S4x4092x1024] S4x4096x1024 1
  slices_S4x4096x1024_S4x1x1024_0_4095_0 : S4x4096x1024.Slices ![0, 4095, 0] S4x1x1024
  slices_S4x4096x1024_S4x4095x1024_0_0_0 : S4x4096x1024.Slices ![0, 0, 0] S4x4095x1024
  concatenates_S4x1x1024_S4x4095x1024_S4x4096x1024_d1 : Shape.Concatenates [S4x1x1024, S4x4095x1024] S4x4096x1024 1
  slices_S4x4096x1024_S4x4095x1024_0_1_0 : S4x4096x1024.Slices ![0, 1, 0] S4x4095x1024
  slices_S4x4096x1024_S4x1x1024_0_0_0 : S4x4096x1024.Slices ![0, 0, 0] S4x1x1024
  concatenates_S4x4095x1024_S4x1x1024_S4x4096x1024_d1 : Shape.Concatenates [S4x4095x1024, S4x1x1024] S4x4096x1024 1
  slices_S4x4096x1024_S4x4092x1024_0_4_0 : S4x4096x1024.Slices ![0, 4, 0] S4x4092x1024
  slices_S4x4096x1024_S4x4x1024_0_0_0 : S4x4096x1024.Slices ![0, 0, 0] S4x4x1024
  concatenates_S4x4092x1024_S4x4x1024_S4x4096x1024_d1 : Shape.Concatenates [S4x4092x1024, S4x4x1024] S4x4096x1024 1
  slices_S4x4096x1024_S4x4080x1024_0_16_0 : S4x4096x1024.Slices ![0, 16, 0] S4x4080x1024
  slices_S4x4096x1024_S4x16x1024_0_0_0 : S4x4096x1024.Slices ![0, 0, 0] S4x16x1024
  concatenates_S4x4080x1024_S4x16x1024_S4x4096x1024_d1 : Shape.Concatenates [S4x4080x1024, S4x16x1024] S4x4096x1024 1
  slices_S4x4096x1024_S4x4064x1024_0_32_0 : S4x4096x1024.Slices ![0, 32, 0] S4x4064x1024
  slices_S4x4096x1024_S4x32x1024_0_0_0 : S4x4096x1024.Slices ![0, 0, 0] S4x32x1024
  concatenates_S4x4064x1024_S4x32x1024_S4x4096x1024_d1 : Shape.Concatenates [S4x4064x1024, S4x32x1024] S4x4096x1024 1
  bcast_S4x4096x1024_S4x4096x1x1024_0_1_3 : S4x4096x1024.BroadcastsInDim S4x4096x1x1024 (![0, 1, 3] : Fin 3 → Fin S4x4096x1x1024.rank)
  concatenates_S4x4096x1x1024_S4x4096x1x1024_S4x4096x1x1024_S4x4096x1x1024_S4x4096x1x1024_S4x4096x1x1024_S4x4096x1x1024_S4x4096x1x1024_S4x4096x1x1024_S4x4096x9x1024_d2 : Shape.Concatenates [S4x4096x1x1024, S4x4096x1x1024, S4x4096x1x1024, S4x4096x1x1024, S4x4096x1x1024, S4x4096x1x1024, S4x4096x1x1024, S4x4096x1x1024, S4x4096x1x1024] S4x4096x9x1024 2
  bcast_S_S4x4096x9216 : S_.BroadcastsInDim S4x4096x9216 (![] : Fin 0 → Fin S4x4096x9216.rank)
  shapeCasts_S4x4096x9216_S4x4096x9x1024 : S4x4096x9216.ShapeCasts S4x4096x9x1024
  reducesTo_S4x4096x9x1024_S4x4096x1024_d2 : S4x4096x9x1024.ReducesTo [2] S4x4096x1024
  h_S_ : 0 < S_.numel
  reducesTo_S4x4096x1024_S4x4096_d2 : S4x4096x1024.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S9216x1024_S4x4096x9216_2_1_01_0_n_n_wf : DotDims.WF S4x4096x1024 S9216x1024 S4x4096x9216 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S9216x1024_S4x4096x9216_2_1_01_0_n_n : DotDims S4x4096x1024 S9216x1024 S4x4096x9216 where
  lhsContracting := [2]
  rhsContracting := [1]
  lhsNonContracting := [0, 1]
  rhsNonContracting := [0]
  lhsBatch := []
  rhsBatch := []
  wf := dot_S4x4096x1024_S9216x1024_S4x4096x9216_2_1_01_0_n_n_wf

class Facts : Prop extends Facts₀ where

variable [Facts]
-- ==== Proof.KB.Common.lean ====
/-
  What the second kernel region's proof modules share: the closed forms of the row offsets of its nine loads
  from the padded-sequence scratch, the operands it copies itself (the transposed gate weights, whole, and one
  batch entry of the padded projected sequence), its two scratch buffers and its two transfer semaphores, and the
  block it leaves in the output window as ONE function of what its loads read.
-/
import proofs.«126410_j30434138259751_1_alg».proof.Proof.Gen.Kernel.Launch
import proofs.«126410_j30434138259751_1_alg».proof.Proof.Gen.Kernel.Skeleton
import proofs.«126410_j30434138259751_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The nine loads' row offsets in closed form: 128 · (tile index) + 32 + shift -/

theorem k1_off2_eq_0 : ∀ i : grid1.Coords, k1_off2 i 0#32 = ![128 * (i 1).val + 32, 0] := by decide +kernel
instance closedOff_k1_off2_0 (i : grid1.Coords) : ClosedOff (k1_off2 i 0#32) := ⟨![128 * (i 1).val + 32, 0], k1_off2_eq_0 i⟩
theorem k1_off2_eq_1 : ∀ i : grid1.Coords, k1_off2 i 4294967264#32 = ![128 * (i 1).val + 0, 0] := by decide +kernel
instance closedOff_k1_off2_1 (i : grid1.Coords) : ClosedOff (k1_off2 i 4294967264#32) := ⟨![128 * (i 1).val + 0, 0], k1_off2_eq_1 i⟩
theorem k1_off2_eq_2 : ∀ i : grid1.Coords, k1_off2 i 4294967280#32 = ![128 * (i 1).val + 16, 0] := by decide +kernel
instance closedOff_k1_off2_2 (i : grid1.Coords) : ClosedOff (k1_off2 i 4294967280#32) := ⟨![128 * (i 1).val + 16, 0], k1_off2_eq_2 i⟩
theorem k1_off2_eq_3 : ∀ i : grid1.Coords, k1_off2 i 4294967292#32 = ![128 * (i 1).val + 28, 0] := by decide +kernel
instance closedOff_k1_off2_3 (i : grid1.Coords) : ClosedOff (k1_off2 i 4294967292#32) := ⟨![128 * (i 1).val + 28, 0], k1_off2_eq_3 i⟩
theorem k1_off2_eq_4 : ∀ i : grid1.Coords, k1_off2 i 4294967295#32 = ![128 * (i 1).val + 31, 0] := by decide +kernel
instance closedOff_k1_off2_4 (i : grid1.Coords) : ClosedOff (k1_off2 i 4294967295#32) := ⟨![128 * (i 1).val + 31, 0], k1_off2_eq_4 i⟩
theorem k1_off2_eq_5 : ∀ i : grid1.Coords, k1_off2 i 1#32 = ![128 * (i 1).val + 33, 0] := by decide +kernel
instance closedOff_k1_off2_5 (i : grid1.Coords) : ClosedOff (k1_off2 i 1#32) := ⟨![128 * (i 1).val + 33, 0], k1_off2_eq_5 i⟩
theorem k1_off2_eq_6 : ∀ i : grid1.Coords, k1_off2 i 4#32 = ![128 * (i 1).val + 36, 0] := by decide +kernel
instance closedOff_k1_off2_6 (i : grid1.Coords) : ClosedOff (k1_off2 i 4#32) := ⟨![128 * (i 1).val + 36, 0], k1_off2_eq_6 i⟩
theorem k1_off2_eq_7 : ∀ i : grid1.Coords, k1_off2 i 16#32 = ![128 * (i 1).val + 48, 0] := by decide +kernel
instance closedOff_k1_off2_7 (i : grid1.Coords) : ClosedOff (k1_off2 i 16#32) := ⟨![128 * (i 1).val + 48, 0], k1_off2_eq_7 i⟩
theorem k1_off2_eq_8 : ∀ i : grid1.Coords, k1_off2 i 32#32 = ![128 * (i 1).val + 64, 0] := by decide +kernel
instance closedOff_k1_off2_8 (i : grid1.Coords) : ClosedOff (k1_off2 i 32#32) := ⟨![128 * (i 1).val + 64, 0], k1_off2_eq_8 i⟩

/-! ## The operands the body moves itself, its scratch buffers, its semaphores -/

/-- A memref's buffer on core `c`, and that buffer held whole at contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The transposed gate weights and the padded projected sequence, left in HBM. -/
abbrev hbM3 : Memref sig .tc .hbm S1024x9216 .bf16 := Memref.whole main_v3
abbrev hbM7 : Memref sig .tc .hbm S4x4160x1024 .bf16 := Memref.whole main_v7
/-- The two scratch buffers: the gate weights' copy and one batch entry's padded sequence. -/
abbrev scM8 : Memref sig .tc .vmem S1024x9216 .bf16 := Memref.whole cc1_scratch0
abbrev scM9 : Memref sig .tc .vmem S4160x1024 .bf16 := Memref.whole cc1_scratch1

/-- The body's own transfer semaphores. -/
abbrev osem1 : Fin 2 → SemLoc sig := fun j => (![SemLoc.dma 11, SemLoc.dma 12] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 11) 0 ∗ semVal ((c : Thread nD τ), SemLoc.dma 12) 0) := by
  rw [Pipeline.ownSems0_eq_of_list c osem1 [0, 1] (by decide) (by decide)]; rfl
/-- The operands it moves, as references: unscoped, no window's array. -/
def H1 : Finset (Ref sig .tc) := {main_v3, main_v7}
theorem H1_sub : H1 ⊆ Pipeline.restRefs sig spec1 := by decide

/-! ## What the loads read, and the block the body stores -/

abbrev r1x : Rect S1x128x1024 := Rect.unit (s := S1x128x1024) ![0, 0, 0] S1x128x1024.size inb_S1x128x1024_S1x128x1024_0_0_0
abbrev r1g : Rect S1024x9216 := Rect.unit (s := S1024x9216) ![0, 0] S1024x9216.size inb_S1024x9216_S1024x9216_0_0
abbrev r1v : Rect S1x1024 := Rect.unit (s := S1x1024) ![0, 0] S1x1024.size inb_S1x1024_S1x1024_0_0
/-- The g-th load's rectangle of the padded-sequence scratch: 128 rows from row 128 · tile + 32 + shift. -/
abbrev r1s (i : grid1.Coords) (g : Fin 9) : Rect S4160x1024 := Rect.unit (s := S4160x1024) (k1_off2 i (k1_off2_at g)) S128x1024.size (k1_off2_inb i g)

/-- The 128 rows the g-th load reads of scratch contents `s9`. -/
def rows (i : grid1.Coords) (g : Fin 9) (s9 : Vec F S4160x1024 .bf16) : Vec F S128x1024 .bf16 := View.ld s9 (r1s i g)

/-- The block the body stores into the output window at tile `i`: the body's arithmetic over the tile's rows `x0`, the
    gate weights' copy `s8`, the padded sequence's copy `s9`, and the scale and shift rows `x5`, `x6`. -/
def out1 (i : grid1.Coords) (x0 : Vec F S1x128x1024 .f32) (s8 : Vec F S1024x9216 .bf16) (s9 : Vec F S4160x1024 .bf16)
    (x5 x6 : Vec F S1x1024 .f32) : Vec F S1x128x1024 .f32 :=
  k1_pay1 (k1_pay6 (k1_pay2 x0 s8)
    (k1_pay5 (k1_pay2 x0 s8) (k1_pay3 x0 s8 (rows i 0 s9) (rows i 1 s9)) (k1_pay4 x0 s8 (rows i 2 s9))
      (rows i 3 s9) (rows i 4 s9) (rows i 5 s9) (rows i 6 s9))
    (rows i 7 s9) (rows i 8 s9) x5 x6)

end Cert.Kernel.Hand
end
-- ==== Proof.KB.Region0.lean ====
/-
  The first kernel region (the value projection) at the entry contents V of the core's buffers: what each window's
  block is at a grid point, what the body finds in its two input windows (the tile of x, fetched at every point, and
  the transposed value weights, fetched once and left in place), what its one store leaves in the output window as a
  function of the two input blocks, and the body's obligation to the pipeline at every point.
-/
import proofs.«126410_j30434138259751_1_alg».proof.Proof.Gen.Kernel.Launch
import proofs.«126410_j30434138259751_1_alg».proof.Proof.Gen.Kernel.Skeleton
import proofs.«126410_j30434138259751_1_alg».proof.Proof.Gen.Kernel.Points
import proofs.«126410_j30434138259751_1_alg».proof.Proof.KB.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x: the window's current buffer holds its block at every point, for any proof data whose array is
    the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The value weights: fetched at the first point only, their block index never moves, so the buffer holds the
    (one) block at every point all the same. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of its three buffers, whole -/

abbrev r0_x : Rect S1x512x1024 := Rect.unit (s := S1x512x1024) ![0, 0, 0] S1x512x1024.size inb_S1x512x1024_S1x512x1024_0_0_0
abbrev r0_w : Rect S1024x1024 := Rect.unit (s := S1024x1024) ![0, 0] S1024x1024.size inb_S1024x1024_S1024x1024_0_0
abbrev r0_o : Rect S1x512x1024 := Rect.unit (s := S1x512x1024) ![0, 0, 0] S1x512x1024.size inb_S1x512x1024_S1x512x1024_0_0_0

/-! ## What the body leaves in the output window's buffer -/

/-- The output window's buffer after the body, from the two input blocks: its one store, whole. -/
def out0_2 (x0 : Vec F S1x512x1024 .f32) (x1 : Vec F S1024x1024 .bf16) : Vec F S1x512x1024 .bf16 :=
  View.canon [⟨r0_o, k0_pay1 (View.ld x0 r0_x) (View.ld x1 r0_w)⟩]

/-- The one store covers the buffer. -/
theorem cover0_2 (p0 : Vec F S1x512x1024 .bf16) (y : S1x512x1024.Idx) :
    ∃ pc ∈ ([⟨r0_o, p0⟩] : List (View.Piece (Elt F) S1x512x1024 .bf16)), y ∈ pc.1.set :=
  View.cover_of_tiled [⟨r0_o, p0⟩] S1x512x1024.size (by rfl) y

/-! ## The body's triple -/

set_option maxHeartbeats 1000000 in
/-- The body on whole staging memrefs, the inputs' at read contents `x0`, `x1` and the output's at anything, runs to
    the continuation holding the inputs' as they were and the output's at `out0_2 x0 x1`. (It reads the output's
    buffer once before its store and drops what it read.) -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x512x1024 .bf16) (harg4 : arg4.IsWhole)
    (x0 : Vec F S1x512x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__value_kernel i arg2 harg2 arg3 harg3 arg4 harg4) K := by
  simp only [cc0__value_kernel_eq_skeleton]; unfold cc0__value_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.KB.Run1.lean ====
/-
  The second kernel region's body run once, in its two cases.

  At a tile with index 0 along the sequence axis the body first copies the gate weights (whole) and the tile's batch
  entry of the padded projected sequence from HBM into its two scratch buffers, each copy on a semaphore of its own and
  waited for before anything is read; at every other tile it finds the scratch buffers as the last such tile left them.
  Either way it then stores, into the output window's buffer, the block `out1` of what its loads read. Stated for
  scratch contents `s8`, `s9` in the second case, and delivering the HBM arrays' contents in the first.
-/
import proofs.«126410_j30434138259751_1_alg».proof.Proof.KB.Common
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The batch coordinate of a tile. -/
def bOf (i : grid1.Coords) : Fin 4 := ⟨(i 0).val, (i 0).isLt⟩

/-- Batch entry `b` of the padded sequence `X7`: the [4160, 1024] matrix a copy of that entry delivers. -/
def p7 (b : Fin 4) (X7 : Vec F S4x4160x1024 .bf16) : Vec F S4160x1024 .bf16 := fun y => X7 (ValueIdx.ix3 b (y 0) (y 1))

/-- The one store of the body covers the output window's buffer. -/
theorem cover1 (w : Vec F S1x128x1024 .f32) (y : S1x128x1024.Idx) :
    ∃ pc ∈ ([⟨r1x, w⟩] : List (View.Piece (Elt F) S1x128x1024 .f32)), y ∈ pc.1.set :=
  ⟨_, List.mem_singleton_self _, View.mem_set_unit_zero hz3 inb_S1x128x1024_S1x128x1024_0_0_0 y⟩

set_option maxHeartbeats 4000000 in
/-- A tile past the first of its batch entry: the scratch buffers are read, nothing is copied. -/
theorem kernelRun1_B (c : Dev nD) (i : grid1.Coords) (hi : ¬ k1_cond1 i = 1#1)
    (arg2 : Memref sig .tc .vmem S1x128x1024 .f32) (harg2 : arg2.IsWhole)
    (arg5 : Memref sig .tc .vmem S1x1024 .f32) (harg5 : arg5.IsWhole) (arg6 : Memref sig .tc .vmem S1x1024 .f32) (harg6 : arg6.IsWhole)
    (arg7 : Memref sig .tc .vmem S1x128x1024 .f32) (harg7 : arg7.IsWhole)
    (arg8 : Memref sig .tc .vmem S1024x9216 .bf16) (harg8 : arg8.IsWhole) (arg9 : Memref sig .tc .vmem S4160x1024 .bf16) (harg9 : arg9.IsWhole)
    (x0 : Vec F S1x128x1024 .f32) (x5 : Vec F S1x1024 .f32) (x6 : Vec F S1x1024 .f32)
    (s8 : Vec F S1024x9216 .bf16) (s9 : Vec F S4160x1024 .bf16)
    (K : PUnit → sProp 𝕄) :
        iprop(owns (c : Thread nD τ) arg2 fullShare x0 ∗ owns (c : Thread nD τ) arg5 fullShare x5 ∗ owns (c : Thread nD τ) arg6 fullShare x6
            ∗ (∃ d, owns (c : Thread nD τ) arg7 fullShare d) ∗ owns (c : Thread nD τ) arg8 fullShare s8 ∗ owns (c : Thread nD τ) arg9 fullShare s9
            ∗ (iprop(owns (c : Thread nD τ) arg2 fullShare x0 ∗ owns (c : Thread nD τ) arg5 fullShare x5 ∗ owns (c : Thread nD τ) arg6 fullShare x6
                ∗ owns (c : Thread nD τ) arg7 fullShare (out1 i x0 s8 s9 x5 x6) ∗ owns (c : Thread nD τ) arg8 fullShare s8 ∗ owns (c : Thread nD τ) arg9 fullShare s9) -∗ K ⟨⟩))
          ⊢ wp frame (wpE (defs₀ (F := F)) Variants.none c none) Set.univ (cc1__mixer_kernel i arg2 harg2 (Memref.whole main_v3) (Memref.isWhole_whole _) (Memref.whole main_v7) (Memref.isWhole_whole _) arg5 harg5 arg6 harg6 arg7 harg7 arg8 harg8 arg9 harg9 cc1_scratch2 cc1_scratch3) K := by
  simp only [cc1__mixer_kernel_eq_skeleton]; unfold cc1__mixer_kernel_skel
  unfold owns
  iintro ⟨⟨%f2, %hf2, H2⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf2
  obtain rfl := harg5.eq_unread hf5
  obtain rfl := harg6.eq_unread hf6
  obtain rfl := harg8.eq_unread hf8
  obtain rfl := harg9.eq_unread hf9
  sl_exec (disch := exact hi)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (cover1 _)]
    sl_unfold_run_names
    rw [View.canon_unit_zero hz3]
    unfold out1 rows
    simp only [View.readAt_eq_ld, harg2.read_unread, harg5.read_unread, harg6.read_unread, harg8.read_unread, harg9.read_unread,
      View.ld_unit_zero (S := S1x128x1024) hz3, View.ld_unit_zero (S := S1024x9216) hz2, View.ld_unit_zero (S := S1x1024) hz2]
    rfl
  isplitl [H8]
  · iexists _; isplitr; · ipureintro; exact harg8.read_unread _
    iexact H8
  iexists _; isplitr; · ipureintro; exact harg9.read_unread _
  iexact H9

/-- One store through the whole rectangle leaves its payload. -/
theorem canon_whole {S : Shape} {e : EltTy} (w : S.Idx → Elt F e) :
    View.canon [(⟨Rect.whole S, w⟩ : View.Piece (Elt F) S e)] = w := by
  funext y
  have e := View.canon_cons_emb (Val := Elt F) (Rect.whole S) w [] y
  rw [Rect.emb_whole_apply] at e
  exact e

theorem cover_whole {S : Shape} {e : EltTy} (w : S.Idx → Elt F e) (y : S.Idx) :
    ∃ pc ∈ ([⟨Rect.whole S, w⟩] : List (View.Piece (Elt F) S e)), y ∈ pc.1.set :=
  ⟨_, List.mem_singleton_self _, by show y ∈ (Rect.whole S).set; rw [Rect.set_whole]; exact Finset.mem_univ y⟩

/-- A buffer written whole reads back what was written, -/
theorem read_writes_whole {sp : Space} {S : Shape} {e : EltTy} (v : View sig .tc sp S e) (f : v.ty.Contents (Elt F)) (w : S.Idx → Elt F e) :
    v.read (Elt F) (v.writes (Elt F) f [⟨Rect.whole S, w⟩]) = w := by
  rw [View.read_writes_eq_canon _ _ _ (cover_whole w), canon_whole]

/-- and so does a load of the whole of it. -/
theorem readCov_whole_unit {sp : Space} {S : Shape} {e : EltTy} (v : View sig .tc sp S e) {off : Fin S.rank → Nat} (h : off = fun _ => 0)
    (inb : ∀ a, off a + S.size a ≤ S.size a) (w : S.Idx → Elt F e) :
    v.readCov [(⟨Rect.whole S, w⟩ : View.Piece (Elt F) S e)] (Rect.unit off S.size inb).toLoadRect = w := by
  subst h
  rw [View.readCov_eq_canon_ld _ _ _ (cover_whole w), canon_whole, View.ld_unit_zero rfl]

/-- What the copy of a tile's batch entry delivers: that entry of the padded sequence, row by row. -/
theorem copy7_eq (c : Dev nD) (i : grid1.Coords) (hi : k1_cond1 i = 1#1) (fh7 : HbBuf (F := F) c hbM7) :
    View.read (Elt F) (((Memref.whole main_v7 : Memref sig .tc .hbm S4x4160x1024 .bf16).slice (Rect.unit (s := S4x4160x1024) (k1_off1 i) S1x4160x1024.size (k1_off1_inb i hi)) (fun _ => rfl)).squeeze S4160x1024 squeezes_S1x4160x1024_S4160x1024).view fh7
      = p7 (bOf i) (hbM7.view.read (Elt F) fh7) := by
  funext y
  refine (congrFun (Memref.read_squeeze_slice (Val := Elt F) (Memref.whole main_v7 : Memref sig .tc .hbm S4x4160x1024 .bf16)
    (Rect.unit (s := S4x4160x1024) (k1_off1 i) S1x4160x1024.size (k1_off1_inb i hi)) (fun _ => rfl)
    squeezes_S1x4160x1024_S4160x1024 squeezes_S1x4160x1024_S4160x1024.numel_eq fh7) y).trans ?_
  refine (shapeCast_dropUnit_apply (n := 2) ![4160, 1024] _ _ y).trans ?_
  rw [View.readAt_eq_ld]
  unfold p7
  show (hbM7.view.read (Elt F) fh7) _ = (hbM7.view.read (Elt F) fh7) _
  refine congrArg _ (funext fun a => Fin.ext ?_)
  have h := k1_off1_eq i
  match a with
  | ⟨0, _⟩ => show k1_off1 i 0 + 1 * 0 = (i 0).val; rw [h]; simp
  | ⟨1, _⟩ => show k1_off1 i 1 + 1 * (y 0).val = (y 0).val; rw [h]; simp
  | ⟨2, _⟩ => show k1_off1 i 2 + 1 * (y 1).val = (y 1).val; rw [h]; simp

/-- The same, with the copy's source spelt as the view it is. -/
theorem copy7_eq' (c : Dev nD) (i : grid1.Coords) (hi : k1_cond1 i = 1#1) (fh7 : HbBuf (F := F) c hbM7) :
    View.read (Elt F) (((View.whole main_v7 : View sig .tc .hbm S4x4160x1024 .bf16).slice (Rect.unit (s := S4x4160x1024) (k1_off1 i) S1x4160x1024.size (k1_off1_inb i hi))).reshape S4160x1024 squeezes_S1x4160x1024_S4160x1024.numel_eq) fh7
      = p7 (bOf i) (hbM7.view.read (Elt F) fh7) := copy7_eq c i hi fh7

set_option maxHeartbeats 4000000 in
/-- The first tile of a batch entry: both copies are started, both are waited for, then the body reads what they
    delivered. -/
theorem kernelRun1_A (c : Dev nD) (i : grid1.Coords) (hi : k1_cond1 i = 1#1)
    (arg2 : Memref sig .tc .vmem S1x128x1024 .f32) (harg2 : arg2.IsWhole)
    (arg5 : Memref sig .tc .vmem S1x1024 .f32) (harg5 : arg5.IsWhole) (arg6 : Memref sig .tc .vmem S1x1024 .f32) (harg6 : arg6.IsWhole)
    (arg7 : Memref sig .tc .vmem S1x128x1024 .f32) (harg7 : arg7.IsWhole)
    (arg8 : Memref sig .tc .vmem S1024x9216 .bf16) (harg8 : arg8.IsWhole) (arg9 : Memref sig .tc .vmem S4160x1024 .bf16) (harg9 : arg9.IsWhole)
    (x0 : Vec F S1x128x1024 .f32) (x5 : Vec F S1x1024 .f32) (x6 : Vec F S1x1024 .f32)
    (fh3 : HbBuf (F := F) c hbM3) (fh7 : HbBuf (F := F) c hbM7)
    (W : Waits sig Unit) (K : PUnit → sProp 𝕄) :
        iprop(owns (c : Thread nD τ) arg2 fullShare x0 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ semVal ((c : Thread nD τ), SemLoc.dma 11) 0 ∗ semVal ((c : Thread nD τ), SemLoc.dma 12) 0 ∗ hbPt c hbM3 fh3 ∗ hbPt c hbM7 fh7 ∗ owes (c : Thread nD τ) 0 W
            ∗ (iprop(owns (c : Thread nD τ) arg2 fullShare x0 ∗ owns (c : Thread nD τ) arg5 fullShare x5 ∗ owns (c : Thread nD τ) arg6 fullShare x6
                ∗ owns (c : Thread nD τ) arg7 fullShare (out1 i x0 (hbM3.view.read (Elt F) fh3) (p7 (bOf i) (hbM7.view.read (Elt F) fh7)) x5 x6)
                ∗ owns (c : Thread nD τ) arg8 fullShare (hbM3.view.read (Elt F) fh3) ∗ owns (c : Thread nD τ) arg9 fullShare (p7 (bOf i) (hbM7.view.read (Elt F) fh7))
                ∗ semVal ((c : Thread nD τ), SemLoc.dma 11) 0 ∗ semVal ((c : Thread nD τ), SemLoc.dma 12) 0 ∗ hbPt c hbM3 fh3 ∗ hbPt c hbM7 fh7 ∗ (∃ W', owes (c : Thread nD τ) 0 W')) -∗ K ⟨⟩))
          ⊢ wp frame (wpE (defs₀ (F := F)) Variants.none c none) Set.univ (cc1__mixer_kernel i arg2 harg2 (Memref.whole main_v3) (Memref.isWhole_whole _) (Memref.whole main_v7) (Memref.isWhole_whole _) arg5 harg5 arg6 harg6 arg7 harg7 arg8 harg8 arg9 harg9 cc1_scratch2 cc1_scratch3) K := by
  simp only [cc1__mixer_kernel_eq_skeleton]; unfold cc1__mixer_kernel_skel
  unfold owns
  iintro ⟨⟨%f2, %hf2, H2⟩, ⟨%f5, %hf5, H5⟩, ⟨%f6, %hf6, H6⟩, ⟨%d7, %f7, -, H7⟩, ⟨%d8, %f8, -, H8⟩, ⟨%d9, %f9, -, H9⟩, Hq0, Hq1, Hh3, Hh7, HW, Hk⟩
  obtain rfl := harg2.eq_unread hf2
  obtain rfl := harg5.eq_unread hf5
  obtain rfl := harg6.eq_unread hf6
  sl_exec (disch := exact hi)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (cover1 _)]
    sl_unfold_run_names
    rw [View.canon_unit_zero hz3]
    unfold out1 rows
    simp only [View.readAt_eq_ld, harg2.read_unread, harg5.read_unread, harg6.read_unread, read_writes_whole,
      readCov_whole_unit (S := S1024x9216) _ hz2, ReadAs.apply, copy7_eq c i hi fh7, copy7_eq' c i hi fh7,
      View.ld_unit_zero (S := S1x128x1024) hz3, View.ld_unit_zero (S := S1024x9216) hz2, View.ld_unit_zero (S := S1x1024) hz2]
    rfl
  isplitl [H8]
  · iexists _; isplitr
    swap; · iexact H8
    ipureintro
    rw [View.read_writes_eq_canon _ _ _ (cover_whole _)]
    sl_unfold_run_names
    rw [canon_whole]
  isplitl [H9]
  · iexists _; isplitr
    swap; · iexact H9
    ipureintro
    rw [View.read_writes_eq_canon _ _ _ (cover_whole _)]
    sl_unfold_run_names
    rw [canon_whole]
    exact copy7_eq c i hi fh7
  isplitl [Hq0]; · iexact Hq0
  isplitl [Hq1]; · iexact Hq1
  isplitl [Hh3]; · iexact Hh3
  isplitl [Hh7]; · iexact Hh7
  iexists _; iexact HW

end Cert.Kernel.Hand
end
-- ==== Proof.KB.Region1.lean ====
/-
  The second kernel region's proof data and body obligation.

  Between two tiles the region keeps, besides its windows: its two scratch buffers — after any tile they hold the gate
  weights and the padded projected sequence of the batch entry that tile belongs to, which is what a tile past the
  first of its entry needs to find there —, its two transfer semaphores at zero, and the two HBM arrays it copies from,
  untouched. The block a tile leaves in the output window is `out1` of its row tile of x, those two scratch contents
  and the scale and shift rows.
-/
import proofs.«126410_j30434138259751_1_alg».proof.Proof.KB.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not (the scale and shift rows
    are fetched once and their block index never moves). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The grid: which tiles copy, and which batch entry a tile belongs to -/

/-- The body copies exactly at the tiles whose number is a multiple of 32 (32 tiles per batch entry). -/
theorem hcond1 : ∀ t : Fin cfg1.N, k1_cond1 (grid1.coords t) = 1#1 ↔ t.val % 32 = 0 :=
  (by decide +kernel : ∀ t : Fin grid1.N, k1_cond1 (grid1.coords t) = 1#1 ↔ t.val % 32 = 0)
/-- Tile `t` belongs to batch entry `t / 32`. -/
theorem hbatch1 : ∀ t : Fin cfg1.N, (grid1.coords t 0).val = t.val / 32 :=
  (by decide +kernel : ∀ t : Fin grid1.N, (grid1.coords t 0).val = t.val / 32)

/-- The batch entry the tiles before point `k` last copied. -/
def bIdx (k : ℕ) : Fin 4 := ⟨k / 32 % 4, Nat.mod_lt _ (by norm_num)⟩

theorem bOf_coords (t : Fin cfg1.N) : bOf (grid1.coords t) = bIdx t.val := by
  have h : t.val < 128 := Nat.lt_of_lt_of_eq t.isLt N_1
  refine Fin.ext ?_
  show (grid1.coords t 0).val = t.val / 32 % 4
  rw [hbatch1 t]; omega

theorem bIdx_succ (k : ℕ) (h : (k + 1) % 32 ≠ 0) : bIdx (k + 1) = bIdx k := by
  refine Fin.ext ?_
  show (k + 1) / 32 % 4 = k / 32 % 4
  omega

/-! ## What the region keeps between tiles -/

/-- The gate weights and the padded projected sequence as the region finds them in HBM. -/
def G3 (c : Dev nD) : Vec F S1024x9216 .bf16 := hbM3.view.read (Elt F) (V c main_v3)
def X7 (c : Dev nD) : Vec F S4x4160x1024 .bf16 := hbM7.view.read (Elt F) (V c main_v7)

/-- The first region's staging buffers: scoped buffers this region never touches. -/
def stgRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The gate-weight scratch before point `k`: anything before the first tile of a batch entry, the weights after it. -/
def scr8 (c : Dev nD) (k : ℕ) : sProp 𝕄 :=
  iprop(∃ d, owns (c : Thread nD τ) scM8 fullShare d ∗ ⌜k % 32 ≠ 0 → d = G3 V c⌝)
/-- The sequence scratch before point `k`: past the first tile of a batch entry, that entry of the padded sequence. -/
def scr9 (c : Dev nD) (k : ℕ) : sProp 𝕄 :=
  iprop(∃ d, owns (c : Thread nD τ) scM9 fullShare d ∗ ⌜k % 32 ≠ 0 → d = p7 (bIdx k) (X7 V c)⌝)

/-- The region's invariant before point `k`. -/
def Φ1 (c : Dev nD) (k : ℕ) : sProp 𝕄 :=
  iprop(stgRest c ∗ scr8 V c k ∗ scr9 V c k ∗ (∃ r, prngReg c r)
    ∗ iprop(semVal ((c : Thread nD τ), SemLoc.dma 11) 0 ∗ semVal ((c : Thread nD τ), SemLoc.dma 12) 0)
    ∗ iprop(hbPt c hbM3 (V c main_v3) ∗ hbPt c hbM7 (V c main_v7)))

/-- The two HBM arrays' points-tos, listed. -/
theorem hbmPts1_eq (c : Dev nD) :
    (bigSep H1 (fun b => ((c : Thread nD τ).loc b) ↦{fullShare} V c b) : sProp 𝕄) = iprop(hbPt c hbM3 (V c main_v3) ∗ hbPt c hbM7 (V c main_v7)) := by
  rw [BI.bigSep_eq_bigSepL_of_eq [main_v3, main_v7] (by decide) (by decide)]; rfl

/-- What the launch hands a region that moves the operands `H1` itself, conjunct by conjunct. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM8 fullShare d) ∗ (∃ d, owns (c : Thread nD τ) scM9 fullShare d))
        ∗ (∃ r, prngReg c r)
        ∗ iprop(semVal ((c : Thread nD τ), SemLoc.dma 11) 0 ∗ semVal ((c : Thread nD τ), SemLoc.dma 12) 0)
        ∗ iprop(hbPt c hbM3 (V c main_v3) ∗ hbPt c hbM7 (V c main_v7))) := by
  rw [Pipeline.ΦD_eq, scopedRest1_eq, ownSems01_eq, hbmPts1_eq]; simp only [scM8, scM9, owns_whole]; try rfl

/-- Entering: nothing is known of the scratch buffers, and nothing is asked (point 0 starts a batch entry). -/
theorem Φ1_of_ΦD (c : Dev nD) (k : ℕ) (hk : k % 32 = 0) : (Pipeline.ΦD osem1 spec1 H1 V c : sProp 𝕄) ⊢ Φ1 V c k := by
  rw [PhiD1_eq]; unfold Φ1 stgRest scr8 scr9
  iintro ⟨⟨A1, A2, A3, A4, A5, ⟨%d8, S8⟩, ⟨%d9, S9⟩⟩, P, Q, H⟩
  isplitl [A1 A2 A3 A4 A5]
  · isplitl [A1]; · iexact A1
    isplitl [A2]; · iexact A2
    isplitl [A3]; · iexact A3
    isplitl [A4]; · iexact A4
    iexact A5
  isplitl [S8]
  · iexists d8; isplitl [S8]; · iexact S8
    ipureintro; exact fun h => absurd hk h
  isplitl [S9]
  · iexists d9; isplitl [S9]; · iexact S9
    ipureintro; exact fun h => absurd hk h
  isplitl [P]; · iexact P
  isplitl [Q]; · iexact Q
  iexact H

/-- Leaving: the scratch contents are forgotten. -/
theorem ΦD_of_Φ1 (c : Dev nD) (k : ℕ) : Φ1 V c k ⊢ (Pipeline.ΦD osem1 spec1 H1 V c : sProp 𝕄) := by
  rw [PhiD1_eq]; unfold Φ1 stgRest scr8 scr9
  iintro ⟨⟨A1, A2, A3, A4, A5⟩, ⟨%d8, S8, -⟩, ⟨%d9, S9, -⟩, P, Q, H⟩
  isplitl [A1 A2 A3 A4 A5 S8 S9]
  · isplitl [A1]; · iexact A1
    isplitl [A2]; · iexact A2
    isplitl [A3]; · iexact A3
    isplitl [A4]; · iexact A4
    isplitl [A5]; · iexact A5
    isplitl [S8]; · iexists d8; iexact S8
    iexists d9; iexact S9
  isplitl [P]; · iexact P
  isplitl [Q]; · iexact Q
  iexact H

/-! ## The pipeline's proof data -/

/-- What the output window's buffer holds after the body at point `t`. -/
def outsAt1 (c : Dev nD) (t : Fin cfg1.N) : Vec F S1x128x1024 .f32 :=
  out1 (grid1.coords t) (iblk1 V c 0 t) (G3 V c) (p7 (bOf (grid1.coords t)) (X7 V c)) (iblk1 V c 1 t) (iblk1 V c 2 t)

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ k := Φ1 V c k.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point, by the two cases of its one conditional. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [after1_0, after1_1, after1_2, after1_3]
  rw [show (dat1 V c).Φ t.castSucc = Φ1 V c t.val from rfl, show (dat1 V c).Φ t.succ = Φ1 V c (t.val + 1) from rfl]
  unfold Dat.owesAt Pipeline.owesWithin
  rw [show (dat1 V c).owed t.castSucc = 0 from rfl, show (dat1 V c).owed t.succ = 0 from rfl]
  unfold Φ1 scr8 scr9 outsAt1
  by_cases hc : k1_cond1 (grid1.coords t) = 1#1
  · -- the first tile of a batch entry: both copies, then the arithmetic
    have ht : t.val % 32 = 0 := (hcond1 t).mp hc
    iintro ⟨⟨HR, ⟨%d8, S8, -⟩, ⟨%d9, S9, -⟩, Hg, ⟨Hq0, Hq1⟩, ⟨Hh3, Hh7⟩⟩, ⟨%W, -, HW⟩, ⟨%d0, H0⟩, ⟨%d1, H1⟩, ⟨%d2, H2⟩, ⟨%d3, H3⟩⟩
    iapply (kernelRun1_A c (grid1.coords t) hc _ _ _ _ _ _ _ _ _ _ _ _ (iblk1 V c 0 t) (iblk1 V c 1 t) (iblk1 V c 2 t) (V c main_v3) (V c main_v7) W _)
    isplitl [H0]; · iexact H0
    isplitl [H1]; · iexact H1
    isplitl [H2]; · iexact H2
    isplitl [H3]; · iexists _; iexact H3
    isplitl [S8]; · iexists _; iexact S8
    isplitl [S9]; · iexists _; iexact S9
    isplitl [Hq0]; · iexact Hq0
    isplitl [Hq1]; · iexact Hq1
    isplitl [Hh3]; · iexact Hh3
    isplitl [Hh7]; · iexact Hh7
    isplitl [HW]; · iexact HW
    iintro ⟨H0, H1, H2, H3, S8, S9, Hq0, Hq1, Hh3, Hh7, ⟨%W', HW'⟩⟩
    isplitl [HR S8 S9 Hg Hq0 Hq1 Hh3 Hh7]
    · isplitl [HR]; · iexact HR
      isplitl [S8]
      · iexists _; isplitl [S8]; · iexact S8
        ipureintro; exact fun _ => rfl
      isplitl [S9]
      · iexists _; isplitl [S9]; · iexact S9
        ipureintro; intro h
        rw [bIdx_succ t.val h, ← bOf_coords t]; rfl
      isplitl [Hg]; · iexact Hg
      isplitl [Hq0 Hq1]
      · isplitl [Hq0]; · iexact Hq0
        iexact Hq1
      isplitl [Hh3]; · iexact Hh3
      iexact Hh7
    isplitl [HW']
    · iexists W'; isplitr; · ipureintro; exact fun _ _ => Or.inl trivial
      iexact HW'
    isplitl [H0]; · iexact H0
    isplitl [H1]; · iexact H1
    isplitl [H2]; · iexact H2
    iexact H3
  · -- a later tile of the entry: the scratch buffers hold what the entry's first tile copied
    have ht : t.val % 32 ≠ 0 := fun h => hc ((hcond1 t).mpr h)
    iintro ⟨⟨HR, ⟨%d8, S8, %h8⟩, ⟨%d9, S9, %h9⟩, Hg, ⟨Hq0, Hq1⟩, ⟨Hh3, Hh7⟩⟩, ⟨%W, -, HW⟩, ⟨%d0, H0⟩, ⟨%d1, H1⟩, ⟨%d2, H2⟩, ⟨%d3, H3⟩⟩
    obtain rfl := h8 ht
    obtain rfl := h9 ht
    rw [← bOf_coords t]
    iapply (kernelRun1_B c (grid1.coords t) hc _ _ _ _ _ _ _ _ _ _ _ _ (iblk1 V c 0 t) (iblk1 V c 1 t) (iblk1 V c 2 t) (G3 V c) (p7 (bOf (grid1.coords t)) (X7 V c)) _)
    isplitl [H0]; · iexact H0
    isplitl [H1]; · iexact H1
    isplitl [H2]; · iexact H2
    isplitl [H3]; · iexists _; iexact H3
    isplitl [S8]; · iexact S8
    isplitl [S9]; · iexact S9
    iintro ⟨H0, H1, H2, H3, S8, S9⟩
    isplitl [HR S8 S9 Hg Hq0 Hq1 Hh3 Hh7]
    · isplitl [HR]; · iexact HR
      isplitl [S8]
      · iexists _; isplitl [S8]; · iexact S8
        ipureintro; exact fun _ => rfl
      isplitl [S9]
      · iexists _; isplitl [S9]; · iexact S9
        ipureintro; intro h
        rw [bIdx_succ t.val h, ← bOf_coords t]
      isplitl [Hg]; · iexact Hg
      isplitl [Hq0 Hq1]
      · isplitl [Hq0]; · iexact Hq0
        iexact Hq1
      isplitl [Hh3]; · iexact Hh3
      iexact Hh7
    isplitl [HW]
    · iexists W; isplitr; · ipureintro; exact fun _ _ => Or.inl trivial
      iexact HW
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.KB.Frame.lean ====
/-
  The program's run, from the launch to the return: two stretches of host operations and the two kernel regions, in
  @main's order, over the library's several-region launch. Between two items every unscoped buffer of the core is
  held at contents NAMED by a fold from the launch memory — a host stretch's operations applied, a region's arrays
  at what its write-backs leave — so that the final state gives back every buffer's contents as a term: the argument
  arrays as launched (the frame claim), and the result array at what the second region's write-backs leave (what a
  value claim reads).
-/
import proofs.«126410_j30434138259751_1_alg».proof.Proof.KB.Region0
import proofs.«126410_j30434138259751_1_alg».proof.Proof.KB.Region1
import proofs.«126410_j30434138259751_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (the weights transposed and narrowed): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the circular padding, the scale and shift as rows): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region only reads it -/

/-- x is an input window's array of both regions. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-- The result array ends at what the second region's write-backs leave. -/
theorem W4_main_v10 (c : Dev nD) : W4 m ρ c (Proc.devRef .tc main_v10) = (dat1 (V3 m ρ) c).arrAt 3 cfg1.N :=
  W4_arr m ρ c 3

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`; the generator register into the
    invariant and out; nothing owed; no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`; beside the generator register its
    own two semaphores (at zero from the boundary and back) and the two HBM arrays it copies from itself (split out
    of the buffers that bypass the pipeline and rejoined, unchanged); nothing owed. -/
def reg1 : Pipeline.RegionSeg (pcfgs (F := F)) adm' (pdats m ρ) () defs₀ 𝒱₀ L lv 1 where
  win := launch1.win.to₀
  block_pos := launch1.block_pos
  stage_whole := launch1.stage_whole
  K := Fin 2
  osem := osem1
  ho := ownSemFacts1
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V3 m ρ c b
  hentry c := by
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    refine .trans ?_ (show (Pipeline.ΦD osem1 spec1 H1 (V3 m ρ) c : sProp 𝕄) ⊢ (pdats m ρ 1 c).Φ 0 from Φ1_of_ΦD (V3 m ρ) c 0 rfl)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    refine .trans (show (pdats m ρ 1 c).Φ (Fin.last _) ⊢ (Pipeline.ΦD osem1 spec1 H1 (V3 m ρ) c : sProp 𝕄) from ΦD_of_Φ1 (V3 m ρ) c _) ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds every unscoped buffer of each core at the last boundary's contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm' (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand
end
-- ==== Proof.KI.Common.lean ====
/-
  What the second kernel region's proof modules share: the closed forms of the row offsets of its nine loads
  from the padded-sequence scratch, the operands it copies itself (the transposed gate weights, whole, and one
  batch entry of the padded projected sequence), its two scratch buffers and its two transfer semaphores, and the
  block it leaves in the output window as ONE function of what its loads read.
-/
import proofs.«126410_j30434138259751_1_alg».proof.Proof.Gen.KernelIdeal.Launch
import proofs.«126410_j30434138259751_1_alg».proof.Proof.Gen.KernelIdeal.Skeleton
import proofs.«126410_j30434138259751_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The nine loads' row offsets in closed form: 128 · (tile index) + 32 + shift -/

theorem k1_off2_eq_0 : ∀ i : grid1.Coords, k1_off2 i 0#32 = ![128 * (i 1).val + 32, 0] := by decide +kernel
instance closedOff_k1_off2_0 (i : grid1.Coords) : ClosedOff (k1_off2 i 0#32) := ⟨![128 * (i 1).val + 32, 0], k1_off2_eq_0 i⟩
theorem k1_off2_eq_1 : ∀ i : grid1.Coords, k1_off2 i 4294967264#32 = ![128 * (i 1).val + 0, 0] := by decide +kernel
instance closedOff_k1_off2_1 (i : grid1.Coords) : ClosedOff (k1_off2 i 4294967264#32) := ⟨![128 * (i 1).val + 0, 0], k1_off2_eq_1 i⟩
theorem k1_off2_eq_2 : ∀ i : grid1.Coords, k1_off2 i 4294967280#32 = ![128 * (i 1).val + 16, 0] := by decide +kernel
instance closedOff_k1_off2_2 (i : grid1.Coords) : ClosedOff (k1_off2 i 4294967280#32) := ⟨![128 * (i 1).val + 16, 0], k1_off2_eq_2 i⟩
theorem k1_off2_eq_3 : ∀ i : grid1.Coords, k1_off2 i 4294967292#32 = ![128 * (i 1).val + 28, 0] := by decide +kernel
instance closedOff_k1_off2_3 (i : grid1.Coords) : ClosedOff (k1_off2 i 4294967292#32) := ⟨![128 * (i 1).val + 28, 0], k1_off2_eq_3 i⟩
theorem k1_off2_eq_4 : ∀ i : grid1.Coords, k1_off2 i 4294967295#32 = ![128 * (i 1).val + 31, 0] := by decide +kernel
instance closedOff_k1_off2_4 (i : grid1.Coords) : ClosedOff (k1_off2 i 4294967295#32) := ⟨![128 * (i 1).val + 31, 0], k1_off2_eq_4 i⟩
theorem k1_off2_eq_5 : ∀ i : grid1.Coords, k1_off2 i 1#32 = ![128 * (i 1).val + 33, 0] := by decide +kernel
instance closedOff_k1_off2_5 (i : grid1.Coords) : ClosedOff (k1_off2 i 1#32) := ⟨![128 * (i 1).val + 33, 0], k1_off2_eq_5 i⟩
theorem k1_off2_eq_6 : ∀ i : grid1.Coords, k1_off2 i 4#32 = ![128 * (i 1).val + 36, 0] := by decide +kernel
instance closedOff_k1_off2_6 (i : grid1.Coords) : ClosedOff (k1_off2 i 4#32) := ⟨![128 * (i 1).val + 36, 0], k1_off2_eq_6 i⟩
theorem k1_off2_eq_7 : ∀ i : grid1.Coords, k1_off2 i 16#32 = ![128 * (i 1).val + 48, 0] := by decide +kernel
instance closedOff_k1_off2_7 (i : grid1.Coords) : ClosedOff (k1_off2 i 16#32) := ⟨![128 * (i 1).val + 48, 0], k1_off2_eq_7 i⟩
theorem k1_off2_eq_8 : ∀ i : grid1.Coords, k1_off2 i 32#32 = ![128 * (i 1).val + 64, 0] := by decide +kernel
instance closedOff_k1_off2_8 (i : grid1.Coords) : ClosedOff (k1_off2 i 32#32) := ⟨![128 * (i 1).val + 64, 0], k1_off2_eq_8 i⟩

/-! ## The operands the body moves itself, its scratch buffers, its semaphores -/

/-- A memref's buffer on core `c`, and that buffer held whole at contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
/-- The transposed gate weights and the padded projected sequence, left in HBM. -/
abbrev hbM3 : Memref sig .tc .hbm S1024x9216 .bf16 := Memref.whole main_v3
abbrev hbM7 : Memref sig .tc .hbm S4x4160x1024 .bf16 := Memref.whole main_v7
/-- The two scratch buffers: the gate weights' copy and one batch entry's padded sequence. -/
abbrev scM8 : Memref sig .tc .vmem S1024x9216 .bf16 := Memref.whole cc1_scratch0
abbrev scM9 : Memref sig .tc .vmem S4160x1024 .bf16 := Memref.whole cc1_scratch1

/-- The body's own transfer semaphores. -/
abbrev osem1 : Fin 2 → SemLoc sig := fun j => (![SemLoc.dma 11, SemLoc.dma 12] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 11) 0 ∗ semVal ((c : Thread nD τ), SemLoc.dma 12) 0) := by
  rw [Pipeline.ownSems0_eq_of_list c osem1 [0, 1] (by decide) (by decide)]; rfl
/-- The operands it moves, as references: unscoped, no window's array. -/
def H1 : Finset (Ref sig .tc) := {main_v3, main_v7}
theorem H1_sub : H1 ⊆ Pipeline.restRefs sig spec1 := by decide

/-! ## What the loads read, and the block the body stores -/

abbrev r1x : Rect S1x128x1024 := Rect.unit (s := S1x128x1024) ![0, 0, 0] S1x128x1024.size inb_S1x128x1024_S1x128x1024_0_0_0
abbrev r1g : Rect S1024x9216 := Rect.unit (s := S1024x9216) ![0, 0] S1024x9216.size inb_S1024x9216_S1024x9216_0_0
abbrev r1v : Rect S1x1024 := Rect.unit (s := S1x1024) ![0, 0] S1x1024.size inb_S1x1024_S1x1024_0_0
/-- The g-th load's rectangle of the padded-sequence scratch: 128 rows from row 128 · tile + 32 + shift. -/
abbrev r1s (i : grid1.Coords) (g : Fin 9) : Rect S4160x1024 := Rect.unit (s := S4160x1024) (k1_off2 i (k1_off2_at g)) S128x1024.size (k1_off2_inb i g)

/-- The 128 rows the g-th load reads of scratch contents `s9`. -/
def rows (i : grid1.Coords) (g : Fin 9) (s9 : Vec F S4160x1024 .bf16) : Vec F S128x1024 .bf16 := View.ld s9 (r1s i g)

/-- The block the body stores into the output window at tile `i`: the body's arithmetic over the tile's rows `x0`, the
    gate weights' copy `s8`, the padded sequence's copy `s9`, and the scale and shift rows `x5`, `x6`. -/
def out1 (i : grid1.Coords) (x0 : Vec F S1x128x1024 .f32) (s8 : Vec F S1024x9216 .bf16) (s9 : Vec F S4160x1024 .bf16)
    (x5 x6 : Vec F S1x1024 .f32) : Vec F S1x128x1024 .f32 :=
  k1_pay1 (k1_pay6 (k1_pay2 x0 s8)
    (k1_pay5 (k1_pay2 x0 s8) (k1_pay3 x0 s8 (rows i 0 s9) (rows i 1 s9)) (k1_pay4 x0 s8 (rows i 2 s9))
      (rows i 3 s9) (rows i 4 s9) (rows i 5 s9) (rows i 6 s9))
    (rows i 7 s9) (rows i 8 s9) x5 x6)

end Cert.KernelIdeal.Hand
end
-- ==== Proof.KI.Region0.lean ====
/-
  The first kernel region (the value projection) at the entry contents V of the core's buffers: what each window's
  block is at a grid point, what the body finds in its two input windows (the tile of x, fetched at every point, and
  the transposed value weights, fetched once and left in place), what its one store leaves in the output window as a
  function of the two input blocks, and the body's obligation to the pipeline at every point.
-/
import proofs.«126410_j30434138259751_1_alg».proof.Proof.Gen.KernelIdeal.Launch
import proofs.«126410_j30434138259751_1_alg».proof.Proof.Gen.KernelIdeal.Skeleton
import proofs.«126410_j30434138259751_1_alg».proof.Proof.Gen.KernelIdeal.Points
import proofs.«126410_j30434138259751_1_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x: the window's current buffer holds its block at every point, for any proof data whose array is
    the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The value weights: fetched at the first point only, their block index never moves, so the buffer holds the
    (one) block at every point all the same. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of its three buffers, whole -/

abbrev r0_x : Rect S1x512x1024 := Rect.unit (s := S1x512x1024) ![0, 0, 0] S1x512x1024.size inb_S1x512x1024_S1x512x1024_0_0_0
abbrev r0_w : Rect S1024x1024 := Rect.unit (s := S1024x1024) ![0, 0] S1024x1024.size inb_S1024x1024_S1024x1024_0_0
abbrev r0_o : Rect S1x512x1024 := Rect.unit (s := S1x512x1024) ![0, 0, 0] S1x512x1024.size inb_S1x512x1024_S1x512x1024_0_0_0

/-! ## What the body leaves in the output window's buffer -/

/-- The output window's buffer after the body, from the two input blocks: its one store, whole. -/
def out0_2 (x0 : Vec F S1x512x1024 .f32) (x1 : Vec F S1024x1024 .bf16) : Vec F S1x512x1024 .bf16 :=
  View.canon [⟨r0_o, k0_pay1 (View.ld x0 r0_x) (View.ld x1 r0_w)⟩]

/-- The one store covers the buffer. -/
theorem cover0_2 (p0 : Vec F S1x512x1024 .bf16) (y : S1x512x1024.Idx) :
    ∃ pc ∈ ([⟨r0_o, p0⟩] : List (View.Piece (Elt F) S1x512x1024 .bf16)), y ∈ pc.1.set :=
  View.cover_of_tiled [⟨r0_o, p0⟩] S1x512x1024.size (by rfl) y

/-! ## The body's triple -/

set_option maxHeartbeats 1000000 in
/-- The body on whole staging memrefs, the inputs' at read contents `x0`, `x1` and the output's at anything, runs to
    the continuation holding the inputs' as they were and the output's at `out0_2 x0 x1`. (It reads the output's
    buffer once before its store and drops what it read.) -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x512x1024 .bf16) (harg4 : arg4.IsWhole)
    (x0 : Vec F S1x512x1024 .f32) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__value_kernel i arg2 harg2 arg3 harg3 arg4 harg4) K := by
  simp only [cc0__value_kernel_eq_skeleton]; unfold cc0__value_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.Run1.lean ====
/-
  The second kernel region's body run once, in its two cases.

  At a tile with index 0 along the sequence axis the body first copies the gate weights (whole) and the tile's batch
  entry of the padded projected sequence from HBM into its two scratch buffers, each copy on a semaphore of its own and
  waited for before anything is read; at every other tile it finds the scratch buffers as the last such tile left them.
  Either way it then stores, into the output window's buffer, the block `out1` of what its loads read. Stated for
  scratch contents `s8`, `s9` in the second case, and delivering the HBM arrays' contents in the first.
-/
import proofs.«126410_j30434138259751_1_alg».proof.Proof.KI.Common
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The batch coordinate of a tile. -/
def bOf (i : grid1.Coords) : Fin 4 := ⟨(i 0).val, (i 0).isLt⟩

/-- Batch entry `b` of the padded sequence `X7`: the [4160, 1024] matrix a copy of that entry delivers. -/
def p7 (b : Fin 4) (X7 : Vec F S4x4160x1024 .bf16) : Vec F S4160x1024 .bf16 := fun y => X7 (ValueIdx.ix3 b (y 0) (y 1))

/-- The one store of the body covers the output window's buffer. -/
theorem cover1 (w : Vec F S1x128x1024 .f32) (y : S1x128x1024.Idx) :
    ∃ pc ∈ ([⟨r1x, w⟩] : List (View.Piece (Elt F) S1x128x1024 .f32)), y ∈ pc.1.set :=
  ⟨_, List.mem_singleton_self _, View.mem_set_unit_zero hz3 inb_S1x128x1024_S1x128x1024_0_0_0 y⟩

set_option maxHeartbeats 4000000 in
/-- A tile past the first of its batch entry: the scratch buffers are read, nothing is copied. -/
theorem kernelRun1_B (c : Dev nD) (i : grid1.Coords) (hi : ¬ k1_cond1 i = 1#1)
    (arg2 : Memref sig .tc .vmem S1x128x1024 .f32) (harg2 : arg2.IsWhole)
    (arg5 : Memref sig .tc .vmem S1x1024 .f32) (harg5 : arg5.IsWhole) (arg6 : Memref sig .tc .vmem S1x1024 .f32) (harg6 : arg6.IsWhole)
    (arg7 : Memref sig .tc .vmem S1x128x1024 .f32) (harg7 : arg7.IsWhole)
    (arg8 : Memref sig .tc .vmem S1024x9216 .bf16) (harg8 : arg8.IsWhole) (arg9 : Memref sig .tc .vmem S4160x1024 .bf16) (harg9 : arg9.IsWhole)
    (x0 : Vec F S1x128x1024 .f32) (x5 : Vec F S1x1024 .f32) (x6 : Vec F S1x1024 .f32)
    (s8 : Vec F S1024x9216 .bf16) (s9 : Vec F S4160x1024 .bf16)
    (K : PUnit → sProp 𝕄) :
        iprop(owns (c : Thread nD τ) arg2 fullShare x0 ∗ owns (c : Thread nD τ) arg5 fullShare x5 ∗ owns (c : Thread nD τ) arg6 fullShare x6
            ∗ (∃ d, owns (c : Thread nD τ) arg7 fullShare d) ∗ owns (c : Thread nD τ) arg8 fullShare s8 ∗ owns (c : Thread nD τ) arg9 fullShare s9
            ∗ (iprop(owns (c : Thread nD τ) arg2 fullShare x0 ∗ owns (c : Thread nD τ) arg5 fullShare x5 ∗ owns (c : Thread nD τ) arg6 fullShare x6
                ∗ owns (c : Thread nD τ) arg7 fullShare (out1 i x0 s8 s9 x5 x6) ∗ owns (c : Thread nD τ) arg8 fullShare s8 ∗ owns (c : Thread nD τ) arg9 fullShare s9) -∗ K ⟨⟩))
          ⊢ wp frame (wpE (defs₀ (F := F)) Variants.none c none) Set.univ (cc1__mixer_kernel i arg2 harg2 (Memref.whole main_v3) (Memref.isWhole_whole _) (Memref.whole main_v7) (Memref.isWhole_whole _) arg5 harg5 arg6 harg6 arg7 harg7 arg8 harg8 arg9 harg9 cc1_scratch2 cc1_scratch3) K := by
  simp only [cc1__mixer_kernel_eq_skeleton]; unfold cc1__mixer_kernel_skel
  unfold owns
  iintro ⟨⟨%f2, %hf2, H2⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf2
  obtain rfl := harg5.eq_unread hf5
  obtain rfl := harg6.eq_unread hf6
  obtain rfl := harg8.eq_unread hf8
  obtain rfl := harg9.eq_unread hf9
  sl_exec (disch := exact hi)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (cover1 _)]
    sl_unfold_run_names
    rw [View.canon_unit_zero hz3]
    unfold out1 rows
    simp only [View.readAt_eq_ld, harg2.read_unread, harg5.read_unread, harg6.read_unread, harg8.read_unread, harg9.read_unread,
      View.ld_unit_zero (S := S1x128x1024) hz3, View.ld_unit_zero (S := S1024x9216) hz2, View.ld_unit_zero (S := S1x1024) hz2]
    rfl
  isplitl [H8]
  · iexists _; isplitr; · ipureintro; exact harg8.read_unread _
    iexact H8
  iexists _; isplitr; · ipureintro; exact harg9.read_unread _
  iexact H9

/-- One store through the whole rectangle leaves its payload. -/
theorem canon_whole {S : Shape} {e : EltTy} (w : S.Idx → Elt F e) :
    View.canon [(⟨Rect.whole S, w⟩ : View.Piece (Elt F) S e)] = w := by
  funext y
  have e := View.canon_cons_emb (Val := Elt F) (Rect.whole S) w [] y
  rw [Rect.emb_whole_apply] at e
  exact e

theorem cover_whole {S : Shape} {e : EltTy} (w : S.Idx → Elt F e) (y : S.Idx) :
    ∃ pc ∈ ([⟨Rect.whole S, w⟩] : List (View.Piece (Elt F) S e)), y ∈ pc.1.set :=
  ⟨_, List.mem_singleton_self _, by show y ∈ (Rect.whole S).set; rw [Rect.set_whole]; exact Finset.mem_univ y⟩

/-- A buffer written whole reads back what was written, -/
theorem read_writes_whole {sp : Space} {S : Shape} {e : EltTy} (v : View sig .tc sp S e) (f : v.ty.Contents (Elt F)) (w : S.Idx → Elt F e) :
    v.read (Elt F) (v.writes (Elt F) f [⟨Rect.whole S, w⟩]) = w := by
  rw [View.read_writes_eq_canon _ _ _ (cover_whole w), canon_whole]

/-- and so does a load of the whole of it. -/
theorem readCov_whole_unit {sp : Space} {S : Shape} {e : EltTy} (v : View sig .tc sp S e) {off : Fin S.rank → Nat} (h : off = fun _ => 0)
    (inb : ∀ a, off a + S.size a ≤ S.size a) (w : S.Idx → Elt F e) :
    v.readCov [(⟨Rect.whole S, w⟩ : View.Piece (Elt F) S e)] (Rect.unit off S.size inb).toLoadRect = w := by
  subst h
  rw [View.readCov_eq_canon_ld _ _ _ (cover_whole w), canon_whole, View.ld_unit_zero rfl]

/-- What the copy of a tile's batch entry delivers: that entry of the padded sequence, row by row. -/
theorem copy7_eq (c : Dev nD) (i : grid1.Coords) (hi : k1_cond1 i = 1#1) (fh7 : HbBuf (F := F) c hbM7) :
    View.read (Elt F) (((Memref.whole main_v7 : Memref sig .tc .hbm S4x4160x1024 .bf16).slice (Rect.unit (s := S4x4160x1024) (k1_off1 i) S1x4160x1024.size (k1_off1_inb i hi)) (fun _ => rfl)).squeeze S4160x1024 squeezes_S1x4160x1024_S4160x1024).view fh7
      = p7 (bOf i) (hbM7.view.read (Elt F) fh7) := by
  funext y
  refine (congrFun (Memref.read_squeeze_slice (Val := Elt F) (Memref.whole main_v7 : Memref sig .tc .hbm S4x4160x1024 .bf16)
    (Rect.unit (s := S4x4160x1024) (k1_off1 i) S1x4160x1024.size (k1_off1_inb i hi)) (fun _ => rfl)
    squeezes_S1x4160x1024_S4160x1024 squeezes_S1x4160x1024_S4160x1024.numel_eq fh7) y).trans ?_
  refine (shapeCast_dropUnit_apply (n := 2) ![4160, 1024] _ _ y).trans ?_
  rw [View.readAt_eq_ld]
  unfold p7
  show (hbM7.view.read (Elt F) fh7) _ = (hbM7.view.read (Elt F) fh7) _
  refine congrArg _ (funext fun a => Fin.ext ?_)
  have h := k1_off1_eq i
  match a with
  | ⟨0, _⟩ => show k1_off1 i 0 + 1 * 0 = (i 0).val; rw [h]; simp
  | ⟨1, _⟩ => show k1_off1 i 1 + 1 * (y 0).val = (y 0).val; rw [h]; simp
  | ⟨2, _⟩ => show k1_off1 i 2 + 1 * (y 1).val = (y 1).val; rw [h]; simp

/-- The same, with the copy's source spelt as the view it is. -/
theorem copy7_eq' (c : Dev nD) (i : grid1.Coords) (hi : k1_cond1 i = 1#1) (fh7 : HbBuf (F := F) c hbM7) :
    View.read (Elt F) (((View.whole main_v7 : View sig .tc .hbm S4x4160x1024 .bf16).slice (Rect.unit (s := S4x4160x1024) (k1_off1 i) S1x4160x1024.size (k1_off1_inb i hi))).reshape S4160x1024 squeezes_S1x4160x1024_S4160x1024.numel_eq) fh7
      = p7 (bOf i) (hbM7.view.read (Elt F) fh7) := copy7_eq c i hi fh7

set_option maxHeartbeats 4000000 in
/-- The first tile of a batch entry: both copies are started, both are waited for, then the body reads what they
    delivered. -/
theorem kernelRun1_A (c : Dev nD) (i : grid1.Coords) (hi : k1_cond1 i = 1#1)
    (arg2 : Memref sig .tc .vmem S1x128x1024 .f32) (harg2 : arg2.IsWhole)
    (arg5 : Memref sig .tc .vmem S1x1024 .f32) (harg5 : arg5.IsWhole) (arg6 : Memref sig .tc .vmem S1x1024 .f32) (harg6 : arg6.IsWhole)
    (arg7 : Memref sig .tc .vmem S1x128x1024 .f32) (harg7 : arg7.IsWhole)
    (arg8 : Memref sig .tc .vmem S1024x9216 .bf16) (harg8 : arg8.IsWhole) (arg9 : Memref sig .tc .vmem S4160x1024 .bf16) (harg9 : arg9.IsWhole)
    (x0 : Vec F S1x128x1024 .f32) (x5 : Vec F S1x1024 .f32) (x6 : Vec F S1x1024 .f32)
    (fh3 : HbBuf (F := F) c hbM3) (fh7 : HbBuf (F := F) c hbM7)
    (W : Waits sig Unit) (K : PUnit → sProp 𝕄) :
        iprop(owns (c : Thread nD τ) arg2 fullShare x0 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ semVal ((c : Thread nD τ), SemLoc.dma 11) 0 ∗ semVal ((c : Thread nD τ), SemLoc.dma 12) 0 ∗ hbPt c hbM3 fh3 ∗ hbPt c hbM7 fh7 ∗ owes (c : Thread nD τ) 0 W
            ∗ (iprop(owns (c : Thread nD τ) arg2 fullShare x0 ∗ owns (c : Thread nD τ) arg5 fullShare x5 ∗ owns (c : Thread nD τ) arg6 fullShare x6
                ∗ owns (c : Thread nD τ) arg7 fullShare (out1 i x0 (hbM3.view.read (Elt F) fh3) (p7 (bOf i) (hbM7.view.read (Elt F) fh7)) x5 x6)
                ∗ owns (c : Thread nD τ) arg8 fullShare (hbM3.view.read (Elt F) fh3) ∗ owns (c : Thread nD τ) arg9 fullShare (p7 (bOf i) (hbM7.view.read (Elt F) fh7))
                ∗ semVal ((c : Thread nD τ), SemLoc.dma 11) 0 ∗ semVal ((c : Thread nD τ), SemLoc.dma 12) 0 ∗ hbPt c hbM3 fh3 ∗ hbPt c hbM7 fh7 ∗ (∃ W', owes (c : Thread nD τ) 0 W')) -∗ K ⟨⟩))
          ⊢ wp frame (wpE (defs₀ (F := F)) Variants.none c none) Set.univ (cc1__mixer_kernel i arg2 harg2 (Memref.whole main_v3) (Memref.isWhole_whole _) (Memref.whole main_v7) (Memref.isWhole_whole _) arg5 harg5 arg6 harg6 arg7 harg7 arg8 harg8 arg9 harg9 cc1_scratch2 cc1_scratch3) K := by
  simp only [cc1__mixer_kernel_eq_skeleton]; unfold cc1__mixer_kernel_skel
  unfold owns
  iintro ⟨⟨%f2, %hf2, H2⟩, ⟨%f5, %hf5, H5⟩, ⟨%f6, %hf6, H6⟩, ⟨%d7, %f7, -, H7⟩, ⟨%d8, %f8, -, H8⟩, ⟨%d9, %f9, -, H9⟩, Hq0, Hq1, Hh3, Hh7, HW, Hk⟩
  obtain rfl := harg2.eq_unread hf2
  obtain rfl := harg5.eq_unread hf5
  obtain rfl := harg6.eq_unread hf6
  sl_exec (disch := exact hi)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (cover1 _)]
    sl_unfold_run_names
    rw [View.canon_unit_zero hz3]
    unfold out1 rows
    simp only [View.readAt_eq_ld, harg2.read_unread, harg5.read_unread, harg6.read_unread, read_writes_whole,
      readCov_whole_unit (S := S1024x9216) _ hz2, ReadAs.apply, copy7_eq c i hi fh7, copy7_eq' c i hi fh7,
      View.ld_unit_zero (S := S1x128x1024) hz3, View.ld_unit_zero (S := S1024x9216) hz2, View.ld_unit_zero (S := S1x1024) hz2]
    rfl
  isplitl [H8]
  · iexists _; isplitr
    swap; · iexact H8
    ipureintro
    rw [View.read_writes_eq_canon _ _ _ (cover_whole _)]
    sl_unfold_run_names
    rw [canon_whole]
  isplitl [H9]
  · iexists _; isplitr
    swap; · iexact H9
    ipureintro
    rw [View.read_writes_eq_canon _ _ _ (cover_whole _)]
    sl_unfold_run_names
    rw [canon_whole]
    exact copy7_eq c i hi fh7
  isplitl [Hq0]; · iexact Hq0
  isplitl [Hq1]; · iexact Hq1
  isplitl [Hh3]; · iexact Hh3
  isplitl [Hh7]; · iexact Hh7
  iexists _; iexact HW

end Cert.KernelIdeal.Hand
end
-- ==== Proof.KI.Region1.lean ====
/-
  The second kernel region's proof data and body obligation.

  Between two tiles the region keeps, besides its windows: its two scratch buffers — after any tile they hold the gate
  weights and the padded projected sequence of the batch entry that tile belongs to, which is what a tile past the
  first of its entry needs to find there —, its two transfer semaphores at zero, and the two HBM arrays it copies from,
  untouched. The block a tile leaves in the output window is `out1` of its row tile of x, those two scratch contents
  and the scale and shift rows.
-/
import proofs.«126410_j30434138259751_1_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not (the scale and shift rows
    are fetched once and their block index never moves). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The grid: which tiles copy, and which batch entry a tile belongs to -/

/-- The body copies exactly at the tiles whose number is a multiple of 32 (32 tiles per batch entry). -/
theorem hcond1 : ∀ t : Fin cfg1.N, k1_cond1 (grid1.coords t) = 1#1 ↔ t.val % 32 = 0 :=
  (by decide +kernel : ∀ t : Fin grid1.N, k1_cond1 (grid1.coords t) = 1#1 ↔ t.val % 32 = 0)
/-- Tile `t` belongs to batch entry `t / 32`. -/
theorem hbatch1 : ∀ t : Fin cfg1.N, (grid1.coords t 0).val = t.val / 32 :=
  (by decide +kernel : ∀ t : Fin grid1.N, (grid1.coords t 0).val = t.val / 32)

/-- The batch entry the tiles before point `k` last copied. -/
def bIdx (k : ℕ) : Fin 4 := ⟨k / 32 % 4, Nat.mod_lt _ (by norm_num)⟩

theorem bOf_coords (t : Fin cfg1.N) : bOf (grid1.coords t) = bIdx t.val := by
  have h : t.val < 128 := Nat.lt_of_lt_of_eq t.isLt N_1
  refine Fin.ext ?_
  show (grid1.coords t 0).val = t.val / 32 % 4
  rw [hbatch1 t]; omega

theorem bIdx_succ (k : ℕ) (h : (k + 1) % 32 ≠ 0) : bIdx (k + 1) = bIdx k := by
  refine Fin.ext ?_
  show (k + 1) / 32 % 4 = k / 32 % 4
  omega

/-! ## What the region keeps between tiles -/

/-- The gate weights and the padded projected sequence as the region finds them in HBM. -/
def G3 (c : Dev nD) : Vec F S1024x9216 .bf16 := hbM3.view.read (Elt F) (V c main_v3)
def X7 (c : Dev nD) : Vec F S4x4160x1024 .bf16 := hbM7.view.read (Elt F) (V c main_v7)

/-- The first region's staging buffers: scoped buffers this region never touches. -/
def stgRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The gate-weight scratch before point `k`: anything before the first tile of a batch entry, the weights after it. -/
def scr8 (c : Dev nD) (k : ℕ) : sProp 𝕄 :=
  iprop(∃ d, owns (c : Thread nD τ) scM8 fullShare d ∗ ⌜k % 32 ≠ 0 → d = G3 V c⌝)
/-- The sequence scratch before point `k`: past the first tile of a batch entry, that entry of the padded sequence. -/
def scr9 (c : Dev nD) (k : ℕ) : sProp 𝕄 :=
  iprop(∃ d, owns (c : Thread nD τ) scM9 fullShare d ∗ ⌜k % 32 ≠ 0 → d = p7 (bIdx k) (X7 V c)⌝)

/-- The region's invariant before point `k`. -/
def Φ1 (c : Dev nD) (k : ℕ) : sProp 𝕄 :=
  iprop(stgRest c ∗ scr8 V c k ∗ scr9 V c k ∗ (∃ r, prngReg c r)
    ∗ iprop(semVal ((c : Thread nD τ), SemLoc.dma 11) 0 ∗ semVal ((c : Thread nD τ), SemLoc.dma 12) 0)
    ∗ iprop(hbPt c hbM3 (V c main_v3) ∗ hbPt c hbM7 (V c main_v7)))

/-- The two HBM arrays' points-tos, listed. -/
theorem hbmPts1_eq (c : Dev nD) :
    (bigSep H1 (fun b => ((c : Thread nD τ).loc b) ↦{fullShare} V c b) : sProp 𝕄) = iprop(hbPt c hbM3 (V c main_v3) ∗ hbPt c hbM7 (V c main_v7)) := by
  rw [BI.bigSep_eq_bigSepL_of_eq [main_v3, main_v7] (by decide) (by decide)]; rfl

/-- What the launch hands a region that moves the operands `H1` itself, conjunct by conjunct. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM8 fullShare d) ∗ (∃ d, owns (c : Thread nD τ) scM9 fullShare d))
        ∗ (∃ r, prngReg c r)
        ∗ iprop(semVal ((c : Thread nD τ), SemLoc.dma 11) 0 ∗ semVal ((c : Thread nD τ), SemLoc.dma 12) 0)
        ∗ iprop(hbPt c hbM3 (V c main_v3) ∗ hbPt c hbM7 (V c main_v7))) := by
  rw [Pipeline.ΦD_eq, scopedRest1_eq, ownSems01_eq, hbmPts1_eq]; simp only [scM8, scM9, owns_whole]; try rfl

/-- Entering: nothing is known of the scratch buffers, and nothing is asked (point 0 starts a batch entry). -/
theorem Φ1_of_ΦD (c : Dev nD) (k : ℕ) (hk : k % 32 = 0) : (Pipeline.ΦD osem1 spec1 H1 V c : sProp 𝕄) ⊢ Φ1 V c k := by
  rw [PhiD1_eq]; unfold Φ1 stgRest scr8 scr9
  iintro ⟨⟨A1, A2, A3, A4, A5, ⟨%d8, S8⟩, ⟨%d9, S9⟩⟩, P, Q, H⟩
  isplitl [A1 A2 A3 A4 A5]
  · isplitl [A1]; · iexact A1
    isplitl [A2]; · iexact A2
    isplitl [A3]; · iexact A3
    isplitl [A4]; · iexact A4
    iexact A5
  isplitl [S8]
  · iexists d8; isplitl [S8]; · iexact S8
    ipureintro; exact fun h => absurd hk h
  isplitl [S9]
  · iexists d9; isplitl [S9]; · iexact S9
    ipureintro; exact fun h => absurd hk h
  isplitl [P]; · iexact P
  isplitl [Q]; · iexact Q
  iexact H

/-- Leaving: the scratch contents are forgotten. -/
theorem ΦD_of_Φ1 (c : Dev nD) (k : ℕ) : Φ1 V c k ⊢ (Pipeline.ΦD osem1 spec1 H1 V c : sProp 𝕄) := by
  rw [PhiD1_eq]; unfold Φ1 stgRest scr8 scr9
  iintro ⟨⟨A1, A2, A3, A4, A5⟩, ⟨%d8, S8, -⟩, ⟨%d9, S9, -⟩, P, Q, H⟩
  isplitl [A1 A2 A3 A4 A5 S8 S9]
  · isplitl [A1]; · iexact A1
    isplitl [A2]; · iexact A2
    isplitl [A3]; · iexact A3
    isplitl [A4]; · iexact A4
    isplitl [A5]; · iexact A5
    isplitl [S8]; · iexists d8; iexact S8
    iexists d9; iexact S9
  isplitl [P]; · iexact P
  isplitl [Q]; · iexact Q
  iexact H

/-! ## The pipeline's proof data -/

/-- What the output window's buffer holds after the body at point `t`. -/
def outsAt1 (c : Dev nD) (t : Fin cfg1.N) : Vec F S1x128x1024 .f32 :=
  out1 (grid1.coords t) (iblk1 V c 0 t) (G3 V c) (p7 (bOf (grid1.coords t)) (X7 V c)) (iblk1 V c 1 t) (iblk1 V c 2 t)

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ k := Φ1 V c k.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point, by the two cases of its one conditional. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [after1_0, after1_1, after1_2, after1_3]
  rw [show (dat1 V c).Φ t.castSucc = Φ1 V c t.val from rfl, show (dat1 V c).Φ t.succ = Φ1 V c (t.val + 1) from rfl]
  unfold Dat.owesAt Pipeline.owesWithin
  rw [show (dat1 V c).owed t.castSucc = 0 from rfl, show (dat1 V c).owed t.succ = 0 from rfl]
  unfold Φ1 scr8 scr9 outsAt1
  by_cases hc : k1_cond1 (grid1.coords t) = 1#1
  · -- the first tile of a batch entry: both copies, then the arithmetic
    have ht : t.val % 32 = 0 := (hcond1 t).mp hc
    iintro ⟨⟨HR, ⟨%d8, S8, -⟩, ⟨%d9, S9, -⟩, Hg, ⟨Hq0, Hq1⟩, ⟨Hh3, Hh7⟩⟩, ⟨%W, -, HW⟩, ⟨%d0, H0⟩, ⟨%d1, H1⟩, ⟨%d2, H2⟩, ⟨%d3, H3⟩⟩
    iapply (kernelRun1_A c (grid1.coords t) hc _ _ _ _ _ _ _ _ _ _ _ _ (iblk1 V c 0 t) (iblk1 V c 1 t) (iblk1 V c 2 t) (V c main_v3) (V c main_v7) W _)
    isplitl [H0]; · iexact H0
    isplitl [H1]; · iexact H1
    isplitl [H2]; · iexact H2
    isplitl [H3]; · iexists _; iexact H3
    isplitl [S8]; · iexists _; iexact S8
    isplitl [S9]; · iexists _; iexact S9
    isplitl [Hq0]; · iexact Hq0
    isplitl [Hq1]; · iexact Hq1
    isplitl [Hh3]; · iexact Hh3
    isplitl [Hh7]; · iexact Hh7
    isplitl [HW]; · iexact HW
    iintro ⟨H0, H1, H2, H3, S8, S9, Hq0, Hq1, Hh3, Hh7, ⟨%W', HW'⟩⟩
    isplitl [HR S8 S9 Hg Hq0 Hq1 Hh3 Hh7]
    · isplitl [HR]; · iexact HR
      isplitl [S8]
      · iexists _; isplitl [S8]; · iexact S8
        ipureintro; exact fun _ => rfl
      isplitl [S9]
      · iexists _; isplitl [S9]; · iexact S9
        ipureintro; intro h
        rw [bIdx_succ t.val h, ← bOf_coords t]; rfl
      isplitl [Hg]; · iexact Hg
      isplitl [Hq0 Hq1]
      · isplitl [Hq0]; · iexact Hq0
        iexact Hq1
      isplitl [Hh3]; · iexact Hh3
      iexact Hh7
    isplitl [HW']
    · iexists W'; isplitr; · ipureintro; exact fun _ _ => Or.inl trivial
      iexact HW'
    isplitl [H0]; · iexact H0
    isplitl [H1]; · iexact H1
    isplitl [H2]; · iexact H2
    iexact H3
  · -- a later tile of the entry: the scratch buffers hold what the entry's first tile copied
    have ht : t.val % 32 ≠ 0 := fun h => hc ((hcond1 t).mpr h)
    iintro ⟨⟨HR, ⟨%d8, S8, %h8⟩, ⟨%d9, S9, %h9⟩, Hg, ⟨Hq0, Hq1⟩, ⟨Hh3, Hh7⟩⟩, ⟨%W, -, HW⟩, ⟨%d0, H0⟩, ⟨%d1, H1⟩, ⟨%d2, H2⟩, ⟨%d3, H3⟩⟩
    obtain rfl := h8 ht
    obtain rfl := h9 ht
    rw [← bOf_coords t]
    iapply (kernelRun1_B c (grid1.coords t) hc _ _ _ _ _ _ _ _ _ _ _ _ (iblk1 V c 0 t) (iblk1 V c 1 t) (iblk1 V c 2 t) (G3 V c) (p7 (bOf (grid1.coords t)) (X7 V c)) _)
    isplitl [H0]; · iexact H0
    isplitl [H1]; · iexact H1
    isplitl [H2]; · iexact H2
    isplitl [H3]; · iexists _; iexact H3
    isplitl [S8]; · iexact S8
    isplitl [S9]; · iexact S9
    iintro ⟨H0, H1, H2, H3, S8, S9⟩
    isplitl [HR S8 S9 Hg Hq0 Hq1 Hh3 Hh7]
    · isplitl [HR]; · iexact HR
      isplitl [S8]
      · iexists _; isplitl [S8]; · iexact S8
        ipureintro; exact fun _ => rfl
      isplitl [S9]
      · iexists _; isplitl [S9]; · iexact S9
        ipureintro; intro h
        rw [bIdx_succ t.val h, ← bOf_coords t]
      isplitl [Hg]; · iexact Hg
      isplitl [Hq0 Hq1]
      · isplitl [Hq0]; · iexact Hq0
        iexact Hq1
      isplitl [Hh3]; · iexact Hh3
      iexact Hh7
    isplitl [HW]
    · iexists W; isplitr; · ipureintro; exact fun _ _ => Or.inl trivial
      iexact HW
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KI.Frame.lean ====
/-
  The program's run, from the launch to the return: two stretches of host operations and the two kernel regions, in
  @main's order, over the library's several-region launch. Between two items every unscoped buffer of the core is
  held at contents NAMED by a fold from the launch memory — a host stretch's operations applied, a region's arrays
  at what its write-backs leave — so that the final state gives back every buffer's contents as a term: the argument
  arrays as launched (the frame claim), and the result array at what the second region's write-backs leave (what a
  value claim reads).
-/
import proofs.«126410_j30434138259751_1_alg».proof.Proof.KI.Region0
import proofs.«126410_j30434138259751_1_alg».proof.Proof.KI.Region1
import proofs.«126410_j30434138259751_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (the weights transposed and narrowed): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the circular padding, the scale and shift as rows): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region only reads it -/

/-- x is an input window's array of both regions. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-- The result array ends at what the second region's write-backs leave. -/
theorem W4_main_v10 (c : Dev nD) : W4 m ρ c (Proc.devRef .tc main_v10) = (dat1 (V3 m ρ) c).arrAt 3 cfg1.N :=
  W4_arr m ρ c 3

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`; the generator register into the
    invariant and out; nothing owed; no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`; beside the generator register its
    own two semaphores (at zero from the boundary and back) and the two HBM arrays it copies from itself (split out
    of the buffers that bypass the pipeline and rejoined, unchanged); nothing owed. -/
def reg1 : Pipeline.RegionSeg (pcfgs (F := F)) adm' (pdats m ρ) () defs₀ 𝒱₀ L lv 1 where
  win := launch1.win.to₀
  block_pos := launch1.block_pos
  stage_whole := launch1.stage_whole
  K := Fin 2
  osem := osem1
  ho := ownSemFacts1
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m ρ c b))
  Y c := iprop((∃ r, prngReg c r) ∗ (bigSep H1 fun b => (((c : Thread nD τ)).loc b) ↦{fullShare} V3 m ρ c b))
  Z c := bigSep (Pipeline.restRefs sig spec1 \ H1) fun b => (((c : Thread nD τ)).loc b) ↦{fullShare} V3 m ρ c b
  hentry c := by
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    refine .trans ?_ (show (Pipeline.ΦD osem1 spec1 H1 (V3 m ρ) c : sProp 𝕄) ⊢ (pdats m ρ 1 c).Φ 0 from Φ1_of_ΦD (V3 m ρ) c 0 rfl)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    refine .trans (show (pdats m ρ 1 c).Φ (Fin.last _) ⊢ (Pipeline.ΦD osem1 spec1 H1 (V3 m ρ) c : sProp 𝕄) from ΦD_of_Φ1 (V3 m ρ) c _) ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm' (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hH : (Pipeline.unscopedRest (Ix := Unit) (Name := ℕ) (U := Pipeline.UD sig nD τ) (Lvl := ℕ) spec1 c (V3 m ρ c) : sProp 𝕄)
        = iprop((bigSep H1 fun b => (((c : Thread nD τ)).loc b) ↦{fullShare} V3 m ρ c b) ∗ (bigSep (Pipeline.restRefs sig spec1 \ H1) fun b => (((c : Thread nD τ)).loc b) ↦{fullShare} V3 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds every unscoped buffer of each core at the last boundary's contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm' (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand
end
-- ==== Proof.Spec.lean ====
/-
  The mathematics of the gated shift mixer, over the extended reals, index by index.

  For a batch entry b, a position l and a channel q:
    * the value projection        v(b,l,e)   = Σ_d x(b,l,d) · Wv(e,d);
    * the nine gates              σ(b,l,j)   = logistic (Σ_d x(b,l,d) · Wg(j,d)),  j < 9·1024;
    * the mixture                 y(b,l,q)   = Σ_g σ(b,l, g·1024 + q) · v(b, (l + off g + 4064) mod 4096, q),
      where off g = 32 + s_g for the shifts s = (0, -32, -16, -4, -1, 1, 4, 16, 32): the row l + off g of the
      sequence padded circularly by 32 rows on each side, which is row (l + s_g) mod 4096 of the sequence itself;
    * the layer norm of each row  (y - μ) · rsqrt (var + ε) · γ + β, with μ the row's mean and var the mean of the
      squared deviations, both quotients by the word 1024.0.
  Both programs compute this function; nothing here mentions either of them.
-/
import Idealize.ShloMosaic.PureOps.Ideal
import Idealize.ShloMosaic.Lib.ValueIdx

noncomputable section

namespace Cert.MixerSpec

open Idealize.ShloMosaic Idealize.ShloMosaic.ValueIdx

abbrev SX : Shape := ⟨3, ![4, 4096, 1024]⟩
abbrev SGW : Shape := ⟨2, ![9216, 1024]⟩
abbrev SVW : Shape := ⟨2, ![1024, 1024]⟩
abbrev SVec : Shape := ⟨1, ![1024]⟩

/-- The divisor of both means: the f32 word of 1024. -/
abbrev c1024 : EReal := Ideal.ofBits .f32 0x44800000#32
/-- The variance's offset: the f32 word nearest 1e-5. -/
abbrev ceps : EReal := Ideal.ofBits .f32 0x3727C5AC#32

/-- The value projection: row (b,l) of x against row e of the value weights. -/
def proj (x : SX.Idx → EReal) (vw : SVW.Idx → EReal) (b : Fin 4) (l : Fin 4096) (e : Fin 1024) : EReal :=
  ∑ d : Fin 1024, x (ix3 b l d) * vw (ix2 e d)

/-- The gates: the logistic of row (b,l) of x against row j of the gate weights. -/
def gate (x : SX.Idx → EReal) (gw : SGW.Idx → EReal) (b : Fin 4) (l : Fin 4096) (j : Fin 9216) : EReal :=
  Ideal.logistic (∑ d : Fin 1024, x (ix3 b l d) * gw (ix2 j d))

/-- Where the g-th shifted copy starts in the sequence padded by 32 rows: 32 + s_g. -/
def off : Fin 9 → ℕ := ![32, 0, 16, 28, 31, 33, 36, 48, 64]

theorem off_le (g : Fin 9) : off g ≤ 64 := by
  revert g; decide

/-- Row p of the circularly padded sequence is row (p + 4064) mod 4096 of the sequence. -/
def unpad (p : ℕ) : Fin 4096 := ⟨(p + 4064) % 4096, Nat.mod_lt _ (by norm_num)⟩

/-- Channel q of the g-th group of 1024 gate channels. -/
def gch (g : Fin 9) (q : Fin 1024) : Fin 9216 := ⟨g.val * 1024 + q.val, by have := g.isLt; have := q.isLt; omega⟩

/-- The mixture of the nine shifted copies of the projected sequence, each weighted by its gate. -/
def mix (x : SX.Idx → EReal) (gw : SGW.Idx → EReal) (vw : SVW.Idx → EReal) (b : Fin 4) (l : Fin 4096) (q : Fin 1024) : EReal :=
  ∑ g : Fin 9, gate x gw b l (gch g q) * proj x vw b (unpad (l.val + off g)) q

/-- A row's mean. -/
def mean (r : Fin 1024 → EReal) : EReal := Ideal.div (∑ q : Fin 1024, r q) c1024

/-- The mean of a row's squared deviations from its mean. -/
def var (r : Fin 1024 → EReal) : EReal := Ideal.div (∑ q : Fin 1024, (r q - mean r) * (r q - mean r)) c1024

/-- The layer norm of a row, scaled and shifted channel by channel. -/
def lnorm (r : Fin 1024 → EReal) (γ β : Fin 1024 → EReal) (q : Fin 1024) : EReal :=
  (r q - mean r) * Ideal.rsqrt (var r + ceps) * γ q + β q

/-- The whole function: the layer norm of each row of the mixture. -/
def out (x : SX.Idx → EReal) (gw : SGW.Idx → EReal) (vw : SVW.Idx → EReal) (γ β : SVec.Idx → EReal) : SX.Idx → EReal :=
  fun i => lnorm (fun q => mix x gw vw (i 0) (i 1) q) (fun q => γ (ix1 q)) (fun q => β (ix1 q)) (i 2)

end Cert.MixerSpec

end
-- ==== Proof.Val.Pay0.lean ====
/-
  The first kernel region's stored block at the extended reals, entry by entry: entry (0, p, e) of what the body
  leaves in the output window is the sum over d of the tile's entry (0, p, d) times entry (d, e) of the transposed
  value weights. The format changes are the identity, the accumulator is the zero splat, and the two shape casts only
  add or drop the tile's unit batch axis.
-/
import proofs.«126410_j30434138259751_1_alg».proof.Proof.KI.Region0
import proofs.«126410_j30434138259751_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Mathlib.Tactic.FinCases

set_option maxRecDepth 16384

noncomputable section

namespace Cert.KernelIdeal.Val

open Cert.KernelIdeal Cert.KernelIdeal.Gen
open Idealize.ShloMosaic Idealize.ShloMosaic.TcCoe Idealize.ShloMosaic.ValueIdx

/-! ## The matmul's index maps, axis by axis -/

theorem lhs_k0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_k0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_k0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_k0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matmul into the zero accumulator at (p, e): row p of the left operand against column e of the right. -/
theorem matmul0_apply (l : FVec Ideal S512x1024 .bf16) (r : FVec Ideal S1024x1024 .bf16) (p : Fin 512) (e : Fin 1024) :
    matmul dot_S512x1024_S1024x1024_S512x1024_1_0_0_1_n_n none l r (constant (F := Ideal) S512x1024 .f32 0x00000000#32) (ix2 p e)
      = ∑ d : Fin 1024, l (ix2 p d) * r (ix2 d e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p e) ((ValueIdx.contrEquiv1 dot_S512x1024_S1024x1024_S512x1024_1_0_0_1_n_n 1024 rfl rfl).symm k) = ix2 p k := funext fun a => Fin.ext (by
    match a with
    | ⟨0, _⟩ => exact lhs_k0_0 _ _
    | ⟨1, _⟩ => exact (lhs_k0_1 _ _).trans hk)
  have er : dot_S512x1024_S1024x1024_S512x1024_1_0_0_1_n_n.rhsIdx (ix2 p e) ((ValueIdx.contrEquiv1 dot_S512x1024_S1024x1024_S512x1024_1_0_0_1_n_n 1024 rfl rfl).symm k) = ix2 k e := funext fun a => Fin.ext (by
    match a with
    | ⟨0, _⟩ => exact (rhs_k0_0 _ _).trans hk
    | ⟨1, _⟩ => exact rhs_k0_1 _ _)
  rw [el, er]

/-! ## The two casts between the tile and its one-entry batch -/

/-- Dropping the unit batch axis: entry (p, d) of the matrix is entry (0, p, d) of the tile (both sit at
    p · 1024 + d in row-major order). -/
theorem drop_apply (x : Vec Ideal S1x512x1024 .f32) (h : S1x512x1024.ShapeCasts S512x1024) (p : Fin 512) (d : Fin 1024) :
    shapeCast S512x1024 x h (ix2 p d) = x (ix3 0 p d) :=
  shapeCast_apply x h (ix2 p d) (ix3 0 p d) (by
    rw [Shape.rowMajor_val_three, Shape.rowMajor_val_two]
    show ((0 : Fin 1).val * 512 + p.val) * 1024 + d.val = p.val * 1024 + d.val
    simp)

/-- Adding it back. -/
theorem add_apply (y : FVec Ideal S512x1024 .bf16) (h : S512x1024.ShapeCasts S1x512x1024) (p : Fin 512) (e : Fin 1024) :
    shapeCast S1x512x1024 y h (ix3 0 p e) = y (ix2 p e) :=
  shapeCast_apply y h (ix3 0 p e) (ix2 p e) (by
    rw [Shape.rowMajor_val_three, Shape.rowMajor_val_two]
    show p.val * 1024 + e.val = ((0 : Fin 1).val * 512 + p.val) * 1024 + e.val
    simp)

/-! ## The block the body stores, entry by entry -/

/-- The body's payload at (0, p, e): row p of the tile against column e of the transposed weights. -/
theorem k0_pay1_apply (x0 : Vec Ideal S1x512x1024 .f32) (x1 : Vec Ideal S1024x1024 .bf16) (p : Fin 512) (e : Fin 1024) :
    k0_pay1 (F := Ideal) x0 x1 (ix3 0 p e) = ∑ d : Fin 1024, x0 (ix3 0 p d) * x1 (ix2 d e) := by
  unfold k0_pay1
  rw [add_apply, truncf_apply, matmul0_apply]
  refine Finset.sum_congr rfl fun d _ => ?_
  rw [truncf_apply, drop_apply, shapeCast_self]

/-- The offsets of the body's three rectangles are zero. -/
theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output window's buffer, entry by entry: the tile's row p against column e of the
    transposed value weights. -/
theorem out0_2_apply (x0 : Vec Ideal S1x512x1024 .f32) (x1 : Vec Ideal S1024x1024 .bf16) (p : Fin 512) (e : Fin 1024) :
    Cert.KernelIdeal.Hand.out0_2 (F := Ideal) x0 x1 (ix3 0 p e) = ∑ d : Fin 1024, x0 (ix3 0 p d) * x1 (ix2 d e) := by
  unfold Cert.KernelIdeal.Hand.out0_2
  rw [View.canon_unit_zero hz3, View.ld_unit_zero (S := S1x512x1024) hz3, View.ld_unit_zero (S := S1024x1024) hz2]
  exact k0_pay1_apply x0 x1 p e

end Cert.KernelIdeal.Val
end
-- ==== Proof.Val.Final0.lean ====
/-
  The first kernel region's output array after the region, as ONE function of the arrays the region finds: entry
  (b, l, q) of the projected sequence is the sum over d of x(b, l, d) times entry (d, q) of the transposed value
  weights. Each grid point (b, k) writes back the 512 rows 512 k .. 512 k + 511 of batch entry b, all 1024 columns;
  the 32 points' blocks tile the array.
-/
import proofs.«126410_j30434138259751_1_alg».proof.Proof.Val.Pay0

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

-- the core's buffer contents when the region is entered
variable (V : (c : Dev nD) → (b : Ref sig .tc) → Buf (Elt Ideal) ((c : Thread nD τ).loc b))

/-- The projection, index by index: row (b, l) of x against column q of the transposed weights. -/
abbrev proj (a0 : S4x4096x1024.Idx → EReal) (a1 : S1024x1024.Idx → EReal) : S4x4096x1024.Idx → EReal :=
  fun i => ∑ d : Fin 1024, a0 (ix3 (i 0) (i 1) d) * a1 (ix2 d (i 2))

/-- The printed index maps, decided over the 32 grid points: point t is batch entry t / 8, row tile t % 8, for
    the tile of x and for the output alike; the weights' one block never moves. -/
theorem idx_facts0 : ∀ t : Fin cfg0.N,
    win0_2.index t (0 : Fin 3) = t.val / 8 ∧ win0_2.index t (1 : Fin 3) = t.val % 8 ∧ win0_2.index t (2 : Fin 3) = 0
    ∧ win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0 :=
  (by decide +kernel : ∀ t : Fin grid0.N, _)

/-- Every (batch entry, row tile) is some point's. -/
theorem idx_onto0 : ∀ (b : Fin 4) (k : Fin 8), ∃ t : Fin cfg0.N, win0_2.index t = ![b.val, k.val, 0] :=
  (by decide +kernel : ∀ (b : Fin 4) (k : Fin 8), ∃ t : Fin grid0.N, win0_2.index t = ![b.val, k.val, 0])

/-- An index of the array is in point t's block iff each coordinate is in the block's range on its axis. -/
theorem mem_blk0 (t : Fin cfg0.N) (i : S4x4096x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v4).slice (win0_2.rect t)).set ↔ _
  rw [View.set_slice_whole, Rect.mem_set_unit]
  exact Iff.rfl

/-- The tile of x at point t, entry (0, p, d): the array read where the tile's block puts that entry. -/
theorem xblk_apply (c : Dev nD) (t : Fin cfg0.N) (p : Fin 512) (d : Fin 1024) :
    Cert.KernelIdeal.Hand.iblk0 (F := Ideal) V c 0 t (ix3 0 p d)
      = (V c main_arg0 : S4x4096x1024.Idx → EReal) (((cfg0.win 0).blk t).view.emb (ix3 0 p d)) := by
  unfold Cert.KernelIdeal.Hand.iblk0
  rfl

/-- The weights' block at point t, entry (d, e): the array read where the (one, whole) block puts that entry. -/
theorem wblk_apply (c : Dev nD) (t : Fin cfg0.N) (d : Fin 1024) (e : Fin 1024) :
    Cert.KernelIdeal.Hand.iblk0 (F := Ideal) V c 1 t (ix2 d e)
      = (V c main_v1 : S1024x1024.Idx → EReal) (((cfg0.win 1).blk t).view.emb (ix2 d e)) := by
  unfold Cert.KernelIdeal.Hand.iblk0
  rfl

/-- WHAT POINT t WRITES BACK is block t of the projection of the arrays as the region finds them. -/
theorem flushed0_eq (c : Dev nD) (t : Fin cfg0.N) :
    (Cert.KernelIdeal.Hand.dat0 (F := Ideal) V c).flushed 2 t
      = ((cfg0.win 2).blk t).view.read (Elt Ideal) (proj (V c main_arg0) (V c main_v1)) := by
  show (cfg0.win 2).cut (grid0.coords t) ((Cert.KernelIdeal.Hand.dat0 (F := Ideal) V c).after 2 t) = _
  rw [Cert.KernelIdeal.Hand.after0_2]
  obtain ⟨h20, h21, h22, h00, h01, h02, h10, h11⟩ := idx_facts0 t
  funext j
  obtain ⟨z, p, e, rfl⟩ : ∃ (z : Fin 1) (p : Fin 512) (e : Fin 1024), j = ix3 z p e := ⟨j 0, j 1, j 2, eq_ix3 j⟩
  obtain rfl : z = 0 := Subsingleton.elim _ _
  show Cert.KernelIdeal.Hand.out0_2 (F := Ideal) (Cert.KernelIdeal.Hand.iblk0 V c 0 t) (Cert.KernelIdeal.Hand.iblk0 V c 1 t) (ix3 0 p e)
    = proj (V c main_arg0) (V c main_v1) (((cfg0.win 2).blk t).view.emb (ix3 0 p e))
  refine (out0_2_apply (Cert.KernelIdeal.Hand.iblk0 V c 0 t) (Cert.KernelIdeal.Hand.iblk0 V c 1 t) p e).trans ?_
  refine Finset.sum_congr rfl fun d _ => ?_
  rw [xblk_apply V c t p d, wblk_apply V c t d e]
  have hx : ((cfg0.win 0).blk t).view.emb (ix3 (0 : Fin 1) p d)
      = ix3 (((cfg0.win 2).blk t).view.emb (ix3 (0 : Fin 1) p e) 0) (((cfg0.win 2).blk t).view.emb (ix3 (0 : Fin 1) p e) 1) d := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 512 + 1 * p.val = win0_2.index t (1 : Fin 3) * 512 + 1 * p.val; omega
    | ⟨2, _⟩ => show win0_0.index t (2 : Fin 3) * 1024 + 1 * d.val = d.val; omega
  have hw : ((cfg0.win 1).blk t).view.emb (ix2 d e) = ix2 d (((cfg0.win 2).blk t).view.emb (ix3 (0 : Fin 1) p e) 2) := by
    funext a; apply Fin.ext
    match a with
    | ⟨0, _⟩ => show win0_1.index t (0 : Fin 2) * 1024 + 1 * d.val = d.val; omega
    | ⟨1, _⟩ => show win0_1.index t (1 : Fin 2) * 1024 + 1 * e.val = win0_2.index t (2 : Fin 3) * 1024 + 1 * e.val; omega
  rw [hx, hw]
  rfl

/-- The blocks tile the array: index (b, l, q) is in the block of the point of batch entry b and row tile l / 512. -/
theorem cover0 (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  obtain ⟨t, ht⟩ := idx_onto0 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE ARRAY after the region: the projection of the arrays the region finds (X the sequence, Wt the transposed
    value weights), at every index. -/
theorem final0 (c : Dev nD) (X : S4x4096x1024.Idx → EReal) (Wt : S1024x1024.Idx → EReal)
    (hX : V c main_arg0 = X) (hW : V c main_v1 = Wt) :
    (Cert.KernelIdeal.Hand.dat0 (F := Ideal) V c).arrAt 2 cfg0.N
      = (fun i : S4x4096x1024.Idx => ∑ d : Fin 1024, X (ix3 (i 0) (i 1) d) * Wt (ix2 d (i 2))) := by
  subst hX hW
  exact (Cert.KernelIdeal.Hand.dat0 (F := Ideal) V c).arrAt_eq_of_cover 2 (proj (V c main_arg0) (V c main_v1)) (fun t _ => flushed0_eq V c t) cover0

end Cert.KernelIdeal.Val
end
-- ==== Proof.Val.Pay1.lean ====
/-
  The second kernel region's arithmetic, read at one entry of the block it stores.

  For a row p of the tile and a channel q, the stored block holds the layer norm of row p of the mixture
      y(p, q') = Σ_{g < 9} logistic (Σ_d x(p, d) · W(d, g·1024 + q')) · s(r g, q'),
  where r g = 128 · (tile index) + off g + p is the row of the padded-sequence copy the g-th load reads at p.
  The steps: the gates (a product into the zero accumulator, then the logistic, entry by entry); the nine
  products added one after another from zero are the sum over g; the two lane sums are sums over the channel; the
  column casts and the broadcasts only move an entry to where it is read.
-/
import proofs.«126410_j30434138259751_1_alg».proof.Proof.KI.Common
import proofs.«126410_j30434138259751_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx

/-! ## Entries moved, not changed: the column cast and the two broadcasts -/

/-- A vector of 128 entries cast to one column reads, at (p, u), entry p. -/
theorem castCol_apply {α : Type} (v : S128.Idx → α) (p : Fin 128) (u : Fin 1) :
    shapeCast S128x1 v shapeCasts_S128_S128x1 (ix2 p u) = v (ix1 p) :=
  shapeCast_apply v shapeCasts_S128_S128x1 (ix2 p u) (ix1 p) (by
    have hu : u.val = 0 := by omega
    rw [Shape.rowMajor_val_one, Shape.rowMajor_val_two]
    show p.val = p.val * 1 + u.val
    rw [hu, Nat.mul_one, Nat.add_zero])

/-- One column broadcast along the rows reads, at (p, q), the column's entry p. -/
theorem bcastCol_apply {α : Type} (v : S128x1.Idx → α) (p : Fin 128) (q : Fin 1024) :
    broadcastTo S128x1024 v broadcasts_S128x1_S128x1024 (ix2 p q) = v (ix2 p (0 : Fin 1)) :=
  broadcastTo_apply v broadcasts_S128x1_S128x1024 (ix2 p q) (ix2 p (0 : Fin 1)) fun ax => by
    match ax with
    | ⟨0, _⟩ => rfl
    | ⟨1, _⟩ => rfl

/-- One row broadcast down the rows reads, at (p, q), the row's entry q. -/
theorem bcastRow_apply {α : Type} (v : S1x1024.Idx → α) (p : Fin 128) (q : Fin 1024) :
    broadcastTo S128x1024 v broadcasts_S1x1024_S128x1024 (ix2 p q) = v (ix2 (0 : Fin 1) q) :=
  broadcastTo_1b_ab_apply v broadcasts_S1x1024_S128x1024 p q

/-- A row cast to a plain vector and back is the row. -/
theorem castRow_roundtrip {α : Type} (v : S1x1024.Idx → α) :
    shapeCast S1x1024 (shapeCast S1024 v shapeCasts_S1x1024_S1024) shapeCasts_S1024_S1x1024 = v :=
  shapeCast_shapeCast v shapeCasts_S1x1024_S1024 shapeCasts_S1024_S1x1024

/-- The lane sum of a block, at row p: the sum over the channel. -/
theorem laneSum_apply (v : FVec Ideal S128x1024 .f32) (p : Fin 128) :
    multiReduction (F := Ideal) .add [1] S128 v 0x00000000#32 reduces_S128x1024_S128 (.inl rfl) rfl (ix1 p)
      = ∑ q : Fin 1024, v (ix2 p q) := by
  refine (Ideal.multiReduction_add_single v 0x00000000#32 reduces_S128x1024_S128 (.inl rfl) rfl (ix1 p)).trans ?_
  refine Finset.sum_congr rfl fun q _ => congrArg v ?_
  funext a
  match a with
  | ⟨0, _⟩ => rfl
  | ⟨1, _⟩ => rfl

/-! ## The gates: a product into the zero accumulator, then the logistic -/

/-- The product's left operand index keeps the output row … -/
theorem gdot_lhs_0 (i : S128x9216.Idx) (k : dot_S128x1024_S1024x9216_S128x9216_1_0_0_1_n_n.contr.Idx) :
    (dot_S128x1024_S1024x9216_S128x9216_1_0_0_1_n_n.lhsIdx i k 0).val = (i 0).val := by
  unfold DotDims.lhsIdx
  rw [dif_neg (show ¬(0 : Fin S128x1024.rank) ∈ dot_S128x1024_S1024x9216_S128x9216_1_0_0_1_n_n.lhsBatch by decide), dif_pos (show (0 : Fin S128x1024.rank) ∈ dot_S128x1024_S1024x9216_S128x9216_1_0_0_1_n_n.lhsNonContracting by decide)]
  rfl
/-- … and takes the contraction coordinate as its column. -/
theorem gdot_lhs_1 (i : S128x9216.Idx) (k : dot_S128x1024_S1024x9216_S128x9216_1_0_0_1_n_n.contr.Idx) :
    (dot_S128x1024_S1024x9216_S128x9216_1_0_0_1_n_n.lhsIdx i k 1).val = (k ⟨0, by decide⟩).val :=
  dot_S128x1024_S1024x9216_S128x9216_1_0_0_1_n_n.lhsIdx_val_of_single rfl i k
/-- The right operand index takes the contraction coordinate as its row … -/
theorem gdot_rhs_0 (i : S128x9216.Idx) (k : dot_S128x1024_S1024x9216_S128x9216_1_0_0_1_n_n.contr.Idx) :
    (dot_S128x1024_S1024x9216_S128x9216_1_0_0_1_n_n.rhsIdx i k 0).val = (k ⟨0, by decide⟩).val :=
  dot_S128x1024_S1024x9216_S128x9216_1_0_0_1_n_n.rhsIdx_val_of_single rfl i k
/-- … and keeps the output column. -/
theorem gdot_rhs_1 (i : S128x9216.Idx) (k : dot_S128x1024_S1024x9216_S128x9216_1_0_0_1_n_n.contr.Idx) :
    (dot_S128x1024_S1024x9216_S128x9216_1_0_0_1_n_n.rhsIdx i k 1).val = (i 1).val := by
  unfold DotDims.rhsIdx
  rw [dif_neg (show ¬(1 : Fin S1024x9216.rank) ∈ dot_S128x1024_S1024x9216_S128x9216_1_0_0_1_n_n.rhsBatch by decide), dif_pos (show (1 : Fin S1024x9216.rank) ∈ dot_S128x1024_S1024x9216_S128x9216_1_0_0_1_n_n.rhsNonContracting by decide)]
  rfl

/-- The product of a block of rows with the gate weights, into the zero accumulator, at (p, j):
    the sum over d of row p at d times the weights at (d, j). -/
theorem gdot_apply (a : FVec Ideal S128x1024 .bf16) (w : FVec Ideal S1024x9216 .bf16) (p : Fin 128) (j : Fin 9216) :
    matmul (F := Ideal) dot_S128x1024_S1024x9216_S128x9216_1_0_0_1_n_n none a w (constant (F := Ideal) S128x9216 .f32 0x00000000#32) (ix2 p j)
      = ∑ d : Fin 1024, a (ix2 p d) * w (ix2 d j) := by
  simp only [matmul]
  rw [Ideal.matmul_constant_zero_apply, ← Equiv.sum_comp (ValueIdx.contrEquiv1 dot_S128x1024_S1024x9216_S128x9216_1_0_0_1_n_n 1024 rfl rfl).symm]
  refine Finset.sum_congr rfl fun k _ => ?_
  have hk := ValueIdx.contrEquiv1_symm_val dot_S128x1024_S1024x9216_S128x9216_1_0_0_1_n_n 1024 rfl rfl k
  have el : dot_S128x1024_S1024x9216_S128x9216_1_0_0_1_n_n.lhsIdx (ix2 p j) ((ValueIdx.contrEquiv1 dot_S128x1024_S1024x9216_S128x9216_1_0_0_1_n_n 1024 rfl rfl).symm k) = ix2 p k := funext fun ax => Fin.ext (by
    match ax with
    | ⟨0, _⟩ => exact gdot_lhs_0 _ _
    | ⟨1, _⟩ => exact (gdot_lhs_1 _ _).trans hk)
  have er : dot_S128x1024_S1024x9216_S128x9216_1_0_0_1_n_n.rhsIdx (ix2 p j) ((ValueIdx.contrEquiv1 dot_S128x1024_S1024x9216_S128x9216_1_0_0_1_n_n 1024 rfl rfl).symm k) = ix2 k j := funext fun ax => Fin.ext (by
    match ax with
    | ⟨0, _⟩ => exact (gdot_rhs_0 _ _).trans hk
    | ⟨1, _⟩ => exact gdot_rhs_1 _ _)
  rw [el, er]

/-- The gates at (p, j): the logistic of row p of the tile against column j of the gate weights. -/
theorem gates_apply (x0 : Vec Ideal S1x128x1024 .f32) (s8 : Vec Ideal S1024x9216 .bf16) (p : Fin 128) (j : Fin 9216) :
    k1_pay2 (F := Ideal) x0 s8 (ix2 p j) = Ideal.logistic (∑ d : Fin 1024, x0 (ix3 0 p d) * s8 (ix2 d j)) := by
  unfold k1_pay2
  show Ideal.logistic (matmul (F := Ideal) dot_S128x1024_S1024x9216_S128x9216_1_0_0_1_n_n none _ s8 (constant (F := Ideal) S128x9216 .f32 0x00000000#32) (ix2 p j)) = _
  refine congrArg Ideal.logistic ((gdot_apply _ s8 p j).trans ?_)
  refine Finset.sum_congr rfl fun d _ => congrArg (· * s8 (ix2 d j)) ?_
  exact shapeCast_1ab_ab_apply x0 shapeCasts_S1x128x1024_S128x1024 p d

/-! ## The nine shifted copies, each weighted by its group of gate channels -/

open Cert.MixerSpec (gch off lnorm mean var c1024 ceps)

/-- The g-th group of 1024 gate channels, cut out of the 9216, at (p, q): channel g·1024 + q. -/
theorem gslice0 (v8 : FVec Ideal S128x9216 .f32) (p : Fin 128) (q : Fin 1024) :
    extractStridedSlice S128x1024 ![0, 0] v8 slices_S128x9216_o0_0_S128x1024 (ix2 p q) = v8 (ix2 p (gch 0 q)) :=
  slice2_axis1_apply 0 v8 slices_S128x9216_o0_0_S128x1024 p q (gch 0 q) rfl
theorem gslice1 (v8 : FVec Ideal S128x9216 .f32) (p : Fin 128) (q : Fin 1024) :
    extractStridedSlice S128x1024 ![0, 1024] v8 slices_S128x9216_o0_1024_S128x1024 (ix2 p q) = v8 (ix2 p (gch 1 q)) :=
  slice2_axis1_apply 1024 v8 slices_S128x9216_o0_1024_S128x1024 p q (gch 1 q) rfl
theorem gslice2 (v8 : FVec Ideal S128x9216 .f32) (p : Fin 128) (q : Fin 1024) :
    extractStridedSlice S128x1024 ![0, 2048] v8 slices_S128x9216_o0_2048_S128x1024 (ix2 p q) = v8 (ix2 p (gch 2 q)) :=
  slice2_axis1_apply 2048 v8 slices_S128x9216_o0_2048_S128x1024 p q (gch 2 q) rfl
theorem gslice3 (v8 : FVec Ideal S128x9216 .f32) (p : Fin 128) (q : Fin 1024) :
    extractStridedSlice S128x1024 ![0, 3072] v8 slices_S128x9216_o0_3072_S128x1024 (ix2 p q) = v8 (ix2 p (gch 3 q)) :=
  slice2_axis1_apply 3072 v8 slices_S128x9216_o0_3072_S128x1024 p q (gch 3 q) rfl
theorem gslice4 (v8 : FVec Ideal S128x9216 .f32) (p : Fin 128) (q : Fin 1024) :
    extractStridedSlice S128x1024 ![0, 4096] v8 slices_S128x9216_o0_4096_S128x1024 (ix2 p q) = v8 (ix2 p (gch 4 q)) :=
  slice2_axis1_apply 4096 v8 slices_S128x9216_o0_4096_S128x1024 p q (gch 4 q) rfl
theorem gslice5 (v8 : FVec Ideal S128x9216 .f32) (p : Fin 128) (q : Fin 1024) :
    extractStridedSlice S128x1024 ![0, 5120] v8 slices_S128x9216_o0_5120_S128x1024 (ix2 p q) = v8 (ix2 p (gch 5 q)) :=
  slice2_axis1_apply 5120 v8 slices_S128x9216_o0_5120_S128x1024 p q (gch 5 q) rfl
theorem gslice6 (v8 : FVec Ideal S128x9216 .f32) (p : Fin 128) (q : Fin 1024) :
    extractStridedSlice S128x1024 ![0, 6144] v8 slices_S128x9216_o0_6144_S128x1024 (ix2 p q) = v8 (ix2 p (gch 6 q)) :=
  slice2_axis1_apply 6144 v8 slices_S128x9216_o0_6144_S128x1024 p q (gch 6 q) rfl
theorem gslice7 (v8 : FVec Ideal S128x9216 .f32) (p : Fin 128) (q : Fin 1024) :
    extractStridedSlice S128x1024 ![0, 7168] v8 slices_S128x9216_o0_7168_S128x1024 (ix2 p q) = v8 (ix2 p (gch 7 q)) :=
  slice2_axis1_apply 7168 v8 slices_S128x9216_o0_7168_S128x1024 p q (gch 7 q) rfl
theorem gslice8 (v8 : FVec Ideal S128x9216 .f32) (p : Fin 128) (q : Fin 1024) :
    extractStridedSlice S128x1024 ![0, 8192] v8 slices_S128x9216_o0_8192_S128x1024 (ix2 p q) = v8 (ix2 p (gch 8 q)) :=
  slice2_axis1_apply 8192 v8 slices_S128x9216_o0_8192_S128x1024 p q (gch 8 q) rfl

/-- The first two weighted copies, added to zero. -/
theorem pay3_apply (x0 : Vec Ideal S1x128x1024 .f32) (s8 : Vec Ideal S1024x9216 .bf16) (v14 v23 : Vec Ideal S128x1024 .bf16)
    (p : Fin 128) (q : Fin 1024) :
    k1_pay3 (F := Ideal) x0 s8 v14 v23 (ix2 p q)
      = 0 + k1_pay2 (F := Ideal) x0 s8 (ix2 p (gch 0 q)) * v14 (ix2 p q) + k1_pay2 (F := Ideal) x0 s8 (ix2 p (gch 1 q)) * v23 (ix2 p q) := by
  unfold k1_pay3
  show Ideal.ofBits .f32 0x00000000#32
        + extractStridedSlice S128x1024 ![0, 0] (k1_pay2 (F := Ideal) x0 s8) slices_S128x9216_o0_0_S128x1024 (ix2 p q) * v14 (ix2 p q)
        + extractStridedSlice S128x1024 ![0, 1024] (k1_pay2 (F := Ideal) x0 s8) slices_S128x9216_o0_1024_S128x1024 (ix2 p q) * v23 (ix2 p q) = _
  rw [gslice0, gslice1, Ideal.ofBits_zero_f32]

/-- The third weighted copy. -/
theorem pay4_apply (x0 : Vec Ideal S1x128x1024 .f32) (s8 : Vec Ideal S1024x9216 .bf16) (v32 : Vec Ideal S128x1024 .bf16)
    (p : Fin 128) (q : Fin 1024) :
    k1_pay4 (F := Ideal) x0 s8 v32 (ix2 p q) = k1_pay2 (F := Ideal) x0 s8 (ix2 p (gch 2 q)) * v32 (ix2 p q) := by
  unfold k1_pay4
  show extractStridedSlice S128x1024 ![0, 2048] (k1_pay2 (F := Ideal) x0 s8) slices_S128x9216_o0_2048_S128x1024 (ix2 p q) * v32 (ix2 p q) = _
  rw [gslice2]

/-- The fourth to seventh weighted copies, added on. -/
theorem pay5_apply (v8 : FVec Ideal S128x9216 .f32) (v27 v35 : FVec Ideal S128x1024 .f32) (v41 v50 v59 v68 : Vec Ideal S128x1024 .bf16)
    (p : Fin 128) (q : Fin 1024) :
    k1_pay5 (F := Ideal) v8 v27 v35 v41 v50 v59 v68 (ix2 p q)
      = v27 (ix2 p q) + v35 (ix2 p q) + v8 (ix2 p (gch 3 q)) * v41 (ix2 p q) + v8 (ix2 p (gch 4 q)) * v50 (ix2 p q)
          + v8 (ix2 p (gch 5 q)) * v59 (ix2 p q) + v8 (ix2 p (gch 6 q)) * v68 (ix2 p q) := by
  unfold k1_pay5
  show v27 (ix2 p q) + v35 (ix2 p q)
        + extractStridedSlice S128x1024 ![0, 3072] v8 slices_S128x9216_o0_3072_S128x1024 (ix2 p q) * v41 (ix2 p q)
        + extractStridedSlice S128x1024 ![0, 4096] v8 slices_S128x9216_o0_4096_S128x1024 (ix2 p q) * v50 (ix2 p q)
        + extractStridedSlice S128x1024 ![0, 5120] v8 slices_S128x9216_o0_5120_S128x1024 (ix2 p q) * v59 (ix2 p q)
        + extractStridedSlice S128x1024 ![0, 6144] v8 slices_S128x9216_o0_6144_S128x1024 (ix2 p q) * v68 (ix2 p q) = _
  rw [gslice3, gslice4, gslice5, gslice6]

/-- What the g-th load reads at (p, q): the copy's row 128 · tile + c + p, where c is the load's constant offset. -/
theorem rows_apply (i : grid1.Coords) (g : Fin 9) (c : ℕ) (hoff : k1_off2 i (k1_off2_at g) = ![128 * (i 1).val + c, 0])
    (s9 : Vec Ideal S4160x1024 .bf16) (p : Fin 128) (q : Fin 1024) (r : Fin 4160) (hr : r.val = 128 * (i 1).val + c + p.val) :
    rows (F := Ideal) i g s9 (ix2 p q) = s9 (ix2 r q) := by
  show s9 ((r1s i g).idx (ix2 p q)) = s9 (ix2 r q)
  refine congrArg s9 (funext fun a => Fin.ext ?_)
  match a with
  | ⟨0, _⟩ =>
    show k1_off2 i (k1_off2_at g) 0 + 1 * p.val = r.val
    rw [hoff, hr]
    show 128 * (i 1).val + c + 1 * p.val = 128 * (i 1).val + c + p.val
    omega
  | ⟨1, _⟩ =>
    show k1_off2 i (k1_off2_at g) 1 + 1 * q.val = q.val
    rw [hoff]
    show 0 + 1 * q.val = q.val
    omega

/-- Nine terms added one after another from zero are their sum. -/
theorem sum9 (a : Fin 9 → EReal) :
    0 + a 0 + a 1 + a 2 + a 3 + a 4 + a 5 + a 6 + a 7 + a 8 = ∑ g : Fin 9, a g := by
  rw [Fin.sum_univ_castSucc, Fin.sum_univ_eight, zero_add]
  rfl

/-! ## The layer norm of each row of the block -/

/-- The block of mixtures: the first seven weighted copies' sum with the last two added on. -/
def mixBlock (v8 : FVec Ideal S128x9216 .f32) (v72 : FVec Ideal S128x1024 .f32) (v77 v86 : Vec Ideal S128x1024 .bf16) :
    FVec Ideal S128x1024 .f32 :=
  addf (addf v72 (mulf (extractStridedSlice S128x1024 ![0, 7168] v8 slices_S128x9216_o0_7168_S128x1024) (extf .f32 v77 bitsLt_bf16_f32)))
    (mulf (extractStridedSlice S128x1024 ![0, 8192] v8 slices_S128x9216_o0_8192_S128x1024) (extf .f32 v86 bitsLt_bf16_f32))

theorem mixBlock_apply (v8 : FVec Ideal S128x9216 .f32) (v72 : FVec Ideal S128x1024 .f32) (v77 v86 : Vec Ideal S128x1024 .bf16)
    (p : Fin 128) (q : Fin 1024) :
    mixBlock v8 v72 v77 v86 (ix2 p q)
      = v72 (ix2 p q) + v8 (ix2 p (gch 7 q)) * v77 (ix2 p q) + v8 (ix2 p (gch 8 q)) * v86 (ix2 p q) := by
  show v72 (ix2 p q)
        + extractStridedSlice S128x1024 ![0, 7168] v8 slices_S128x9216_o0_7168_S128x1024 (ix2 p q) * v77 (ix2 p q)
        + extractStridedSlice S128x1024 ![0, 8192] v8 slices_S128x9216_o0_8192_S128x1024 (ix2 p q) * v86 (ix2 p q) = _
  rw [gslice7, gslice8]

/-- The rows' means, as one column: each row's lane sum over the word 1024. -/
def meanCol (y : FVec Ideal S128x1024 .f32) : FVec Ideal S128x1 .f32 :=
  divf (shapeCast S128x1 (multiReduction (F := Ideal) .add [1] S128 y 0x00000000#32 reduces_S128x1024_S128 (.inl rfl) rfl) shapeCasts_S128_S128x1)
    (broadcast S128x1 (Scalar.ofBits .f32 0x44800000#32))

theorem meanCol_apply (y : FVec Ideal S128x1024 .f32) (p : Fin 128) (u : Fin 1) :
    meanCol y (ix2 p u) = mean (fun q' => y (ix2 p q')) := by
  show Ideal.div (shapeCast S128x1 (multiReduction (F := Ideal) .add [1] S128 y 0x00000000#32 reduces_S128x1024_S128 (.inl rfl) rfl) shapeCasts_S128_S128x1 (ix2 p u))
      (Ideal.ofBits .f32 0x44800000#32) = _
  rw [castCol_apply, laneSum_apply]
  rfl

/-- Each entry less its row's mean. -/
def centred (y : FVec Ideal S128x1024 .f32) : FVec Ideal S128x1024 .f32 :=
  subf y (broadcastTo S128x1024 (meanCol y) broadcasts_S128x1_S128x1024)

theorem centred_apply (y : FVec Ideal S128x1024 .f32) (p : Fin 128) (q : Fin 1024) :
    centred y (ix2 p q) = y (ix2 p q) - mean (fun q' => y (ix2 p q')) := by
  show y (ix2 p q) - broadcastTo S128x1024 (meanCol y) broadcasts_S128x1_S128x1024 (ix2 p q) = _
  rw [bcastCol_apply, meanCol_apply]

/-- The rows' variances, as one column: the lane sum of the squared deviations over the word 1024. -/
def varCol (y : FVec Ideal S128x1024 .f32) : FVec Ideal S128x1 .f32 :=
  divf (shapeCast S128x1 (multiReduction (F := Ideal) .add [1] S128 (mulf (centred y) (centred y)) 0x00000000#32 reduces_S128x1024_S128 (.inl rfl) rfl) shapeCasts_S128_S128x1)
    (broadcast S128x1 (Scalar.ofBits .f32 0x44800000#32))

theorem varCol_apply (y : FVec Ideal S128x1024 .f32) (p : Fin 128) (u : Fin 1) :
    varCol y (ix2 p u) = var (fun q' => y (ix2 p q')) := by
  show Ideal.div (shapeCast S128x1 (multiReduction (F := Ideal) .add [1] S128 (mulf (centred y) (centred y)) 0x00000000#32 reduces_S128x1024_S128 (.inl rfl) rfl) shapeCasts_S128_S128x1 (ix2 p u))
      (Ideal.ofBits .f32 0x44800000#32) = _
  rw [castCol_apply, laneSum_apply]
  refine congrArg (fun s => Ideal.div s c1024) (Finset.sum_congr rfl fun q' _ => ?_)
  show centred y (ix2 p q') * centred y (ix2 p q') = _
  rw [centred_apply]

/-- The block normalised row by row, scaled by one row and shifted by another. -/
def lnBlock (y : FVec Ideal S128x1024 .f32) (v109 v114 : Vec Ideal S1x1024 .f32) : FVec Ideal S128x1024 .f32 :=
  addf
    (mulf
      (mulf (centred y)
        (broadcastTo S128x1024 (rsqrt (addf (varCol y) (broadcast S128x1 (Scalar.ofBits .f32 0x3727C5AC#32)))) broadcasts_S128x1_S128x1024))
      (broadcastTo S128x1024 (shapeCast S1x1024 (shapeCast S1024 v109 shapeCasts_S1x1024_S1024) shapeCasts_S1024_S1x1024) broadcasts_S1x1024_S128x1024))
    (broadcastTo S128x1024 (shapeCast S1x1024 (shapeCast S1024 v114 shapeCasts_S1x1024_S1024) shapeCasts_S1024_S1x1024) broadcasts_S1x1024_S128x1024)

theorem lnBlock_apply (y : FVec Ideal S128x1024 .f32) (v109 v114 : Vec Ideal S1x1024 .f32) (p : Fin 128) (q : Fin 1024) :
    lnBlock y v109 v114 (ix2 p q)
      = lnorm (fun q' => y (ix2 p q')) (fun q' => v109 (ix2 (0 : Fin 1) q')) (fun q' => v114 (ix2 (0 : Fin 1) q')) q := by
  show centred y (ix2 p q)
        * broadcastTo S128x1024 (rsqrt (addf (varCol y) (broadcast S128x1 (Scalar.ofBits .f32 0x3727C5AC#32)))) broadcasts_S128x1_S128x1024 (ix2 p q)
        * broadcastTo S128x1024 (shapeCast S1x1024 (shapeCast S1024 v109 shapeCasts_S1x1024_S1024) shapeCasts_S1024_S1x1024) broadcasts_S1x1024_S128x1024 (ix2 p q)
      + broadcastTo S128x1024 (shapeCast S1x1024 (shapeCast S1024 v114 shapeCasts_S1x1024_S1024) shapeCasts_S1024_S1x1024) broadcasts_S1x1024_S128x1024 (ix2 p q) = _
  rw [castRow_roundtrip, castRow_roundtrip, bcastRow_apply, bcastRow_apply, bcastCol_apply, centred_apply]
  show _ * Ideal.rsqrt (varCol y (ix2 p (0 : Fin 1)) + Ideal.ofBits .f32 0x3727C5AC#32) * _ + _ = _
  rw [varCol_apply]
  rfl

/-- The last payload is the layer norm of the block of mixtures. -/
theorem pay6_eq (v8 : FVec Ideal S128x9216 .f32) (v72 : FVec Ideal S128x1024 .f32) (v77 v86 : Vec Ideal S128x1024 .bf16)
    (v109 v114 : Vec Ideal S1x1024 .f32) :
    k1_pay6 (F := Ideal) v8 v72 v77 v86 v109 v114 = lnBlock (mixBlock v8 v72 v77 v86) v109 v114 := rfl

/-! ## The stored block at one entry -/

/-- The block stored at tile i, at row p and channel q: the layer norm of row p of the mixture of the nine rows
    r g = 128 · tile + off g + p of the padded-sequence copy, each weighted by its gate. -/
theorem out1_apply (i : grid1.Coords) (x0 : Vec Ideal S1x128x1024 .f32) (s8 : Vec Ideal S1024x9216 .bf16) (s9 : Vec Ideal S4160x1024 .bf16)
    (x5 x6 : Vec Ideal S1x1024 .f32) (p : Fin 128) (q : Fin 1024) (r : Fin 9 → Fin 4160)
    (hr : ∀ g, (r g).val = 128 * (i 1).val + Cert.MixerSpec.off g + p.val) :
    Cert.KernelIdeal.Hand.out1 (F := Ideal) i x0 s8 s9 x5 x6 (ix3 0 p q)
      = Cert.MixerSpec.lnorm
          (fun q' => ∑ g : Fin 9, Ideal.logistic (∑ d : Fin 1024, x0 (ix3 0 p d) * s8 (ix2 d (Cert.MixerSpec.gch g q'))) * s9 (ix2 (r g) q'))
          (fun q' => x5 (ix2 0 q')) (fun q' => x6 (ix2 0 q')) q := by
  unfold out1 k1_pay1
  refine (shapeCast_ab_1ab_apply _ shapeCasts_S128x1024_S1x128x1024 (0 : Fin 1) p q).trans ?_
  rw [pay6_eq]
  refine (lnBlock_apply _ x5 x6 p q).trans ?_
  refine congrArg (fun y => lnorm y _ _ q) (funext fun q' => ?_)
  rw [mixBlock_apply, pay5_apply, pay3_apply, pay4_apply,
    rows_apply i 0 32 (k1_off2_eq_0 i) s9 p q' (r 0) (hr 0),
    rows_apply i 1 0 (k1_off2_eq_1 i) s9 p q' (r 1) (hr 1),
    rows_apply i 2 16 (k1_off2_eq_2 i) s9 p q' (r 2) (hr 2),
    rows_apply i 3 28 (k1_off2_eq_3 i) s9 p q' (r 3) (hr 3),
    rows_apply i 4 31 (k1_off2_eq_4 i) s9 p q' (r 4) (hr 4),
    rows_apply i 5 33 (k1_off2_eq_5 i) s9 p q' (r 5) (hr 5),
    rows_apply i 6 36 (k1_off2_eq_6 i) s9 p q' (r 6) (hr 6),
    rows_apply i 7 48 (k1_off2_eq_7 i) s9 p q' (r 7) (hr 7),
    rows_apply i 8 64 (k1_off2_eq_8 i) s9 p q' (r 8) (hr 8)]
  simp only [gates_apply]
  exact sum9 fun g => Ideal.logistic (∑ d : Fin 1024, x0 (ix3 0 p d) * s8 (ix2 d (gch g q'))) * s9 (ix2 (r g) q')

end Cert.KernelIdeal.Val
end
-- ==== Proof.Val.Final1.lean ====
/-
  From the blocks the second kernel region writes back to the whole output array.

  The region's grid has 4 x 32 points; point t works on batch entry b = t / 32 and on the tile lt = t % 32 of 128
  rows of the sequence. What it writes back is the block (b, lt, 0) of ONE function of the arrays the region finds:
  at (b, l, q) the layer norm of the row
      y(q') = Σ_{g < 9} logistic (Σ_d x(b, l, d) · W(d, g·1024 + q')) · s(b, l + off g, q'),
  with s the padded projected sequence, scaled and shifted by the two rows. Every index (b, l, q) lies in the block
  of the point b·32 + l / 128, so after the run the output array is that function.
-/
import proofs.«126410_j30434138259751_1_alg».proof.Proof.KI.Region1
import proofs.«126410_j30434138259751_1_alg».proof.Proof.Val.Pay1

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

-- the core's buffer contents when the region is entered
variable (V : (c : Dev nD) → (b : Ref sig .tc) → Buf (Elt Ideal) ((c : Thread nD τ).loc b))

/-- Row l + off g of the padded sequence: the row the g-th shifted copy reads at position l. -/
def padRow (l : Fin 4096) (g : Fin 9) : Fin 4160 :=
  ⟨l.val + Cert.MixerSpec.off g, by have := Cert.MixerSpec.off_le g; have := l.isLt; omega⟩

/-- The printed index maps and the grid's coordinates, decided once over the 128 points: point t is batch entry t / 32
    and tile t % 32; the x and output blocks sit at (t / 32, t % 32, 0), the scale and shift rows at (0, 0). -/
theorem idx_facts1 : ∀ t : Fin cfg1.N,
    win1_3.index t (0 : Fin 3) = t.val / 32 ∧ win1_3.index t (1 : Fin 3) = t.val % 32 ∧ win1_3.index t (2 : Fin 3) = 0
    ∧ win1_0.index t (0 : Fin 3) = t.val / 32 ∧ win1_0.index t (1 : Fin 3) = t.val % 32 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ (grid1.coords t 0).val = t.val / 32 ∧ (grid1.coords t 1).val = t.val % 32 :=
  (by decide +kernel : ∀ t : Fin grid1.N, _)

/-- Every block index (b, k, 0) is some point's. -/
theorem idx_onto1 : ∀ (b : Fin 4) (k : Fin 32), ∃ t : Fin cfg1.N, win1_3.index t = ![b.val, k.val, 0] :=
  (by decide +kernel : ∀ (b : Fin 4) (k : Fin 32), ∃ t : Fin grid1.N, win1_3.index t = ![b.val, k.val, 0])

/-- The layer norm of each row of the gated mixture, index by index, of: the sequence x, the transposed gate weights
    w, the padded projected sequence s, and the scale and shift rows. -/
def mixOut (x : S4x4096x1024.Idx → EReal) (w : S1024x9216.Idx → EReal) (s : S4x4160x1024.Idx → EReal)
    (γ β : S1x1024.Idx → EReal) : S4x4096x1024.Idx → EReal := fun i =>
  Cert.MixerSpec.lnorm
    (fun q' => ∑ g : Fin 9, Ideal.logistic (∑ d : Fin 1024, x (ix3 (i 0) (i 1) d) * w (ix2 d (Cert.MixerSpec.gch g q')))
        * s (ix3 (i 0) (padRow (i 1) g) q'))
    (fun q' => γ (ix2 0 q')) (fun q' => β (ix2 0 q')) (i 2)

/-- What the output array ends holding: that function of the arrays the region finds. -/
def G1 (c : Dev nD) : S4x4096x1024.Idx → EReal :=
  mixOut (V c main_arg0) (V c main_v3) (V c main_v7) (V c main_v8) (V c main_v9)

/-- The layer norm at equal rows, equal scale and shift rows and equal channels. -/
theorem lnorm_congr {r r' γ γ' β β' : Fin 1024 → EReal} {q q' : Fin 1024} (hr : r = r') (hγ : γ = γ') (hβ : β = β') (hq : q = q') :
    Cert.MixerSpec.lnorm r γ β q = Cert.MixerSpec.lnorm r' γ' β' q' := by
  subst hr hγ hβ hq; rfl

/-- Row p, channel d of the x block at point t is x at batch entry t / 32, row 128 · (t % 32) + p. -/
theorem xblk1_apply (c : Dev nD) (t : Fin cfg1.N) (p : Fin 128) (d : Fin 1024) (b : Fin 4) (l : Fin 4096)
    (hb : b.val = t.val / 32) (hl : l.val = 128 * (t.val % 32) + p.val) :
    iblk1 (F := Ideal) V c 0 t (ix3 (0 : Fin 1) p d) = (V c main_arg0 : S4x4096x1024.Idx → EReal) (ix3 b l d) := by
  obtain ⟨e30, e31, e32, e00, e01, e02, e10, e11, e20, e21, ec0, ec1⟩ := idx_facts1 t
  unfold iblk1
  show (V c main_arg0 : S4x4096x1024.Idx → EReal) (((cfg1.win 0).blk t).view.emb (ix3 (0 : Fin 1) p d)) = _
  refine congrArg _ (funext fun a => Fin.ext ?_)
  match a with
  | ⟨0, _⟩ => show win1_0.index t (0 : Fin 3) * 1 + 1 * 0 = b.val; omega
  | ⟨1, _⟩ => show win1_0.index t (1 : Fin 3) * 128 + 1 * p.val = l.val; omega
  | ⟨2, _⟩ => show win1_0.index t (2 : Fin 3) * 1024 + 1 * d.val = d.val; omega

/-- Channel q' of the scale row's block is the scale row's entry (0, q'), at every point, -/
theorem gblk_apply (c : Dev nD) (t : Fin cfg1.N) (q' : Fin 1024) :
    iblk1 (F := Ideal) V c 1 t (ix2 (0 : Fin 1) q') = (V c main_v8 : S1x1024.Idx → EReal) (ix2 (0 : Fin 1) q') := by
  obtain ⟨e30, e31, e32, e00, e01, e02, e10, e11, e20, e21, ec0, ec1⟩ := idx_facts1 t
  unfold iblk1
  show (V c main_v8 : S1x1024.Idx → EReal) (((cfg1.win 1).blk t).view.emb (ix2 (0 : Fin 1) q')) = _
  refine congrArg _ (funext fun a => Fin.ext ?_)
  match a with
  | ⟨0, _⟩ => show win1_1.index t (0 : Fin 2) * 1 + 1 * 0 = 0; omega
  | ⟨1, _⟩ => show win1_1.index t (1 : Fin 2) * 1024 + 1 * q'.val = q'.val; omega

/-- and the same for the shift row. -/
theorem bblk_apply (c : Dev nD) (t : Fin cfg1.N) (q' : Fin 1024) :
    iblk1 (F := Ideal) V c 2 t (ix2 (0 : Fin 1) q') = (V c main_v9 : S1x1024.Idx → EReal) (ix2 (0 : Fin 1) q') := by
  obtain ⟨e30, e31, e32, e00, e01, e02, e10, e11, e20, e21, ec0, ec1⟩ := idx_facts1 t
  unfold iblk1
  show (V c main_v9 : S1x1024.Idx → EReal) (((cfg1.win 2).blk t).view.emb (ix2 (0 : Fin 1) q')) = _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q'.val = q'.val; omega

/-- The gate weights the body copies are the array's contents, entry by entry. -/
theorem gw_apply (c : Dev nD) (y : S1024x9216.Idx) : G3 (F := Ideal) V c y = (V c main_v3 : S1024x9216.Idx → EReal) y := rfl

/-- Row r, channel q' of the batch entry the body copies is the padded sequence at (b, r, q'). -/
theorem seq_apply (c : Dev nD) (i : grid1.Coords) (r : Fin 4160) (q' : Fin 1024) (b : Fin 4) (hb : b.val = (i 0).val) :
    p7 (F := Ideal) (bOf i) (X7 V c) (ix2 r q') = (V c main_v7 : S4x4160x1024.Idx → EReal) (ix3 b r q') := by
  unfold p7 X7
  show (V c main_v7 : S4x4160x1024.Idx → EReal) (ix3 (bOf i) r q') = _
  refine congrArg _ (funext fun a => Fin.ext ?_)
  match a with
  | ⟨0, _⟩ => show (i 0).val = b.val; omega
  | ⟨1, _⟩ => rfl
  | ⟨2, _⟩ => rfl

/-- WHAT POINT t WRITES BACK is block t of that function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [Hand.after1_3]
  unfold Hand.outsAt1
  funext j
  show out1 (F := Ideal) (grid1.coords t) (iblk1 V c 0 t) (G3 V c) (p7 (bOf (grid1.coords t)) (X7 V c)) (iblk1 V c 1 t) (iblk1 V c 2 t) ((cfg1.win 3).xinj (grid1.coords t) j)
      = G1 V c (((cfg1.win 3).blk t).view.emb j)
  obtain ⟨e30, e31, e32, e00, e01, e02, e10, e11, e20, e21, ec0, ec1⟩ := idx_facts1 t
  have hj0 : (j 0).val < 1 := (j 0).isLt
  have hj1 : (j 1).val < 128 := (j 1).isLt
  have hj2 : (j 2).val < 1024 := (j 2).isLt
  have ht : t.val < 128 := Nat.lt_of_lt_of_eq t.isLt N_1
  -- the entry inside the block, and the entry of the array it is
  have hx : (cfg1.win 3).xinj (grid1.coords t) j = ix3 (0 : Fin 1) (⟨(j 1).val, hj1⟩ : Fin 128) (⟨(j 2).val, hj2⟩ : Fin 1024) := by
    funext a
    match a with
    | ⟨0, _⟩ => exact Fin.ext (by show (j 0).val = 0; omega)
    | ⟨1, _⟩ => rfl
    | ⟨2, _⟩ => rfl
  have hE : ((cfg1.win 3).blk t).view.emb j
      = ix3 (⟨t.val / 32, by omega⟩ : Fin 4) (⟨128 * (t.val % 32) + (j 1).val, by omega⟩ : Fin 4096) (⟨(j 2).val, hj2⟩ : Fin 1024) := by
    funext a
    apply Fin.ext
    match a with
    | ⟨0, _⟩ => show win1_3.index t (0 : Fin 3) * 1 + 1 * (j 0).val = t.val / 32; omega
    | ⟨1, _⟩ => show win1_3.index t (1 : Fin 3) * 128 + 1 * (j 1).val = 128 * (t.val % 32) + (j 1).val; omega
    | ⟨2, _⟩ => show win1_3.index t (2 : Fin 3) * 1024 + 1 * (j 2).val = (j 2).val; omega
  rw [hx, hE]
  refine (out1_apply (grid1.coords t) (iblk1 V c 0 t) (G3 V c) (p7 (bOf (grid1.coords t)) (X7 V c)) (iblk1 V c 1 t) (iblk1 V c 2 t)
    (⟨(j 1).val, hj1⟩ : Fin 128) (⟨(j 2).val, hj2⟩ : Fin 1024)
    (fun g => ⟨128 * (grid1.coords t 1).val + Cert.MixerSpec.off g + (j 1).val, by have := Cert.MixerSpec.off_le g; omega⟩)
    (fun g => rfl)).trans ?_
  unfold G1 mixOut
  refine lnorm_congr (funext fun q' => Finset.sum_congr rfl fun g _ => ?_) (funext fun q' => gblk_apply V c t q')
    (funext fun q' => bblk_apply V c t q') rfl
  refine congrArg₂ (· * ·) (congrArg Ideal.logistic (Finset.sum_congr rfl fun d _ => ?_)) ?_
  · rw [gw_apply]
    exact congrArg (· * _) (xblk1_apply V c t _ d _ _ rfl rfl)
  · refine (seq_apply V c (grid1.coords t) _ q' (⟨t.val / 32, by omega⟩ : Fin 4) ec0.symm).trans ?_
    refine congrArg _ (funext fun a => Fin.ext ?_)
    match a with
    | ⟨0, _⟩ => rfl
    | ⟨1, _⟩ => show 128 * (grid1.coords t 1).val + Cert.MixerSpec.off g + (j 1).val = 128 * (t.val % 32) + (j 1).val + Cert.MixerSpec.off g; omega
    | ⟨2, _⟩ => rfl

/-- An index of the array is in point t's block iff each coordinate is in the block's range on its axis. -/
theorem mem_blk1 (t : Fin cfg1.N) (i : S4x4096x1024.Idx) :
    i ∈ ((cfg1.win 3).blk t).view.set ↔ ∀ a : Fin 3, win1_3.index t a * S1x128x1024.size a ≤ (i a).val ∧ (i a).val < win1_3.index t a * S1x128x1024.size a + S1x128x1024.size a := by
  show i ∈ ((View.whole main_v10).slice (win1_3.rect t)).set ↔ _
  rw [View.set_slice_whole, Rect.mem_set_unit]
  exact Iff.rfl

/-- EVERY index (b, l, q) is covered: by the block of the point whose block index is (b, l / 128, 0). -/
theorem covered1 (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  obtain ⟨t, ht⟩ := idx_onto1 ⟨(i 0).val, hi0⟩ ⟨(i 1).val / 128, by omega⟩
  have q0 : win1_3.index t (0 : Fin 3) = (i 0).val := congrFun ht 0
  have q1 : win1_3.index t (1 : Fin 3) = (i 1).val / 128 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 1024 ≤ (i 2).val ∧ (i 2).val < win1_3.index t (2 : Fin 3) * 1024 + 1024; omega

/-- THE OUTPUT ARRAY after the region: the layer norm of each row of the gated mixture of the arrays it found. -/
theorem final1_mix (c : Dev nD) :
    (dat1 (F := Ideal) V c).arrAt 3 cfg1.N = mixOut (V c main_arg0) (V c main_v3) (V c main_v7) (V c main_v8) (V c main_v9) :=
  (dat1 (F := Ideal) V c).arrAt_eq_of_cover 3 (G1 V c) (fun t _ => flushed1_eq V c t) covered1

/-- The same with the five arrays named. -/
theorem final1 (c : Dev nD)
    (X : S4x4096x1024.Idx → EReal) (G : S1024x9216.Idx → EReal) (P : S4x4160x1024.Idx → EReal) (γ β : S1x1024.Idx → EReal)
    (hX : V c main_arg0 = X) (hG : V c main_v3 = G) (hP : V c main_v7 = P) (hγ : V c main_v8 = γ) (hβ : V c main_v9 = β) :
    (Cert.KernelIdeal.Hand.dat1 (F := Ideal) V c).arrAt 3 cfg1.N
      = (fun i : S4x4096x1024.Idx => Cert.MixerSpec.lnorm
          (fun q' => ∑ g : Fin 9, Ideal.logistic (∑ d : Fin 1024, X (ix3 (i 0) (i 1) d) * G (ix2 d (Cert.MixerSpec.gch g q'))) * P (ix3 (i 0) (padRow (i 1) g) q'))
          (fun q' => γ (ix2 0 q')) (fun q' => β (ix2 0 q')) (i 2)) := by
  subst hX hG hP hγ hβ
  exact final1_mix V c

end Cert.KernelIdeal.Val
end
-- ==== Proof.Val.Host.lean ====
/-
  The host operations of the program, read index by index over the extended reals, for an arbitrary valuation of
  the buffers.

  The first stretch transposes the value weights and the gate weights (the format change that follows each
  transpose is the identity on extended reals): entry (d, e) of the result is entry (e, d) of the argument.
  The second stretch pads the projected sequence circularly by 32 rows on each side — rows 4064..4095, then the
  whole sequence, then rows 0..31, laid end to end along the row axis —, so that row p of the padded sequence is
  row (p + 4064) mod 4096 of the sequence; and it reshapes the scale and shift vectors to one-row matrices.
  A buffer that a stretch does not write keeps its contents.
-/
import proofs.«126410_j30434138259751_1_alg».proof.Proof.Gen.KernelIdeal.Regions
import proofs.«126410_j30434138259751_1_alg».proof.Proof.Spec
import Idealize.ShloMosaic.Lib.ValueLayout
import Idealize.ShloMosaic.Lib.Pipeline.Value
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## The first stretch: the two transposes -/

/-- The transposed value weights, as the operations' term over the valuation. -/
theorem hostOps0_v1_term :
    (StableHlo.after (hostOps0 (F := Ideal)) W (Proc.devRef .tc main_v1) : S1024x1024.Idx → EReal)
      = truncf (F := Ideal) .bf16 (transpose S1024x1024 [1, 0] (W (Proc.devRef .tc main_arg2) : S1024x1024.Idx → EReal)
          transposes_S1024x1024_S1024x1024_1_0) bitsLt_bf16_f32 := by
  show StableHlo.after hostOps0 _ (Proc.devRef .tc main_v1) = _
  after_results

/-- Entry (d, e) of the transposed value weights is entry (e, d) of the value weights. -/
theorem hostOps0_v1 (d e : Fin 1024) :
    (StableHlo.after (hostOps0 (F := Ideal)) W (Proc.devRef .tc main_v1) : S1024x1024.Idx → EReal) (ix2 d e)
      = (W (Proc.devRef .tc main_arg2) : S1024x1024.Idx → EReal) (ix2 e d) := by
  rw [hostOps0_v1_term W]
  exact transpose_ix2_apply (W (Proc.devRef .tc main_arg2) : S1024x1024.Idx → EReal) transposes_S1024x1024_S1024x1024_1_0 d e

/-- The transposed gate weights, as the operations' term over the valuation. -/
theorem hostOps0_v3_term :
    (StableHlo.after (hostOps0 (F := Ideal)) W (Proc.devRef .tc main_v3) : S1024x9216.Idx → EReal)
      = truncf (F := Ideal) .bf16 (transpose S1024x9216 [1, 0] (W (Proc.devRef .tc main_arg1) : S9216x1024.Idx → EReal)
          transposes_S9216x1024_S1024x9216_1_0) bitsLt_bf16_f32 := by
  show StableHlo.after hostOps0 _ (Proc.devRef .tc main_v3) = _
  after_results

/-- Entry (d, j) of the transposed gate weights is entry (j, d) of the gate weights. -/
theorem hostOps0_v3 (d : Fin 1024) (j : Fin 9216) :
    (StableHlo.after (hostOps0 (F := Ideal)) W (Proc.devRef .tc main_v3) : S1024x9216.Idx → EReal) (ix2 d j)
      = (W (Proc.devRef .tc main_arg1) : S9216x1024.Idx → EReal) (ix2 j d) := by
  rw [hostOps0_v3_term W]
  exact transpose_ix2_apply (W (Proc.devRef .tc main_arg1) : S9216x1024.Idx → EReal) transposes_S9216x1024_S1024x9216_1_0 d j

/-- A buffer the first stretch does not write keeps its contents. -/
theorem hostOps0_keep (r : Ref sig .tc) (h : r ∉ hostOps0_W) :
    StableHlo.after (hostOps0 (F := Ideal)) W (Proc.devRef .tc r) = W (Proc.devRef .tc r) :=
  StableHlo.after_of_writes_sub hostOps0 W hostOps0_writes h

/-! ## The second stretch: the circular padding and the two reshapes -/

/-- A buffer the second stretch does not write keeps its contents. -/
theorem hostOps1_keep (r : Ref sig .tc) (h : r ∉ hostOps1_W) :
    StableHlo.after (hostOps1 (F := Ideal)) W (Proc.devRef .tc r) = W (Proc.devRef .tc r) :=
  StableHlo.after_of_writes_sub hostOps1 W hostOps1_writes h

/-- The scale vector as a one-row matrix, as the operations' term over the valuation. -/
theorem hostOps1_v8_term :
    (StableHlo.after (hostOps1 (F := Ideal)) W (Proc.devRef .tc main_v8) : S1x1024.Idx → EReal)
      = shapeCast S1x1024 (W (Proc.devRef .tc main_arg3) : S1024.Idx → EReal) shapeCasts_S1024_S1x1024 := by
  show StableHlo.after hostOps1 _ (Proc.devRef .tc main_v8) = _
  after_results
  rfl

/-- Entry (0, q) of the scale row is entry q of the scale vector. -/
theorem hostOps1_v8 (q : Fin 1024) :
    (StableHlo.after (hostOps1 (F := Ideal)) W (Proc.devRef .tc main_v8) : S1x1024.Idx → EReal) (ix2 0 q)
      = (W (Proc.devRef .tc main_arg3) : S1024.Idx → EReal) (ix1 q) := by
  rw [hostOps1_v8_term W]
  exact shapeCast_a_1a_apply _ _ 0 q

/-- The shift vector as a one-row matrix, as the operations' term over the valuation. -/
theorem hostOps1_v9_term :
    (StableHlo.after (hostOps1 (F := Ideal)) W (Proc.devRef .tc main_v9) : S1x1024.Idx → EReal)
      = shapeCast S1x1024 (W (Proc.devRef .tc main_arg4) : S1024.Idx → EReal) shapeCasts_S1024_S1x1024 := by
  show StableHlo.after hostOps1 _ (Proc.devRef .tc main_v9) = _
  after_results
  rfl

/-- Entry (0, q) of the shift row is entry q of the shift vector. -/
theorem hostOps1_v9 (q : Fin 1024) :
    (StableHlo.after (hostOps1 (F := Ideal)) W (Proc.devRef .tc main_v9) : S1x1024.Idx → EReal) (ix2 0 q)
      = (W (Proc.devRef .tc main_arg4) : S1024.Idx → EReal) (ix1 q) := by
  rw [hostOps1_v9_term W]
  exact shapeCast_a_1a_apply _ _ 0 q

/-- The three pieces of the padded sequence, in order along the row axis: the last 32 rows, the whole sequence, the
    first 32 rows. -/
abbrev padPieces (X : S4x4096x1024.Idx → EReal) : List ((s : Shape) × (s.Idx → EReal)) :=
  [⟨S4x32x1024, extractStridedSlice S4x32x1024 ![0, 4064, 0] X slices_S4x4096x1024_S4x32x1024_0_4064_0⟩,
   ⟨S4x4096x1024, X⟩,
   ⟨S4x32x1024, extractStridedSlice S4x32x1024 ![0, 0, 0] X slices_S4x4096x1024_S4x32x1024_0_0_0⟩]

/-- Off the row axis a piece's index has the padded index's coordinates. -/
theorem pad_off_axis (b : Fin 4) (p : Fin 4160) (q : Fin 1024) {n : ℕ} (r : Fin n) (hr : (3 : ℕ) = 3) :
    ∀ a : Fin 3, a.cast hr ≠ (1 : Fin 3) →
      ((ix3 b r q : (⟨3, ![4, n, 1024]⟩ : Shape).Idx) a).val = ((ix3 b p q : S4x4160x1024.Idx) (a.cast hr)).val
  | ⟨0, _⟩, _ => rfl
  | ⟨1, _⟩, h => absurd rfl h
  | ⟨2, _⟩, _ => rfl

/-- Row p of the three pieces laid end to end is row (p + 4064) mod 4096 of the sequence: for p < 32 it is row p of
    the first piece, row p + 4064; for 32 ≤ p < 4128 row p − 32 of the sequence; from 4128 on row p − 4128 of the last
    piece, which is row p − 4128 of the sequence. -/
theorem pad_apply (X : S4x4096x1024.Idx → EReal) (b : Fin 4) (p : Fin 4160) (q : Fin 1024) :
    concatenate S4x4160x1024 1 (padPieces X) concatenates_S4x32x1024_S4x4096x1024_S4x32x1024_S4x4160x1024_d1 (ix3 b p q)
      = X (ix3 b (Cert.MixerSpec.unpad p.val) q) := by
  have hp := p.isLt
  by_cases h1 : p.val < 32
  · refine (concatenate_apply_piece (t := S4x4160x1024) 1 (padPieces X)
      concatenates_S4x32x1024_S4x4096x1024_S4x32x1024_S4x4160x1024_d1 (ix3 b p q) 0 (show (0 : ℕ) < 3 by omega) S4x32x1024 _ rfl rfl 0 rfl
      (ix3 b (⟨p.val, h1⟩ : Fin 32) q) (pad_off_axis b p q _ rfl) (Nat.zero_add _)).trans ?_
    exact slice3_axis1_apply 4064 X _ b ⟨p.val, h1⟩ q (Cert.MixerSpec.unpad p.val)
      (by show (p.val + 4064) % 4096 = 4064 + p.val; omega)
  · by_cases h2 : p.val < 4128
    · refine (concatenate_apply_piece (t := S4x4160x1024) 1 (padPieces X)
        concatenates_S4x32x1024_S4x4096x1024_S4x32x1024_S4x4160x1024_d1 (ix3 b p q) 1 (show (1 : ℕ) < 3 by omega) S4x4096x1024 _ rfl rfl 32 rfl
        (ix3 b (⟨p.val - 32, by omega⟩ : Fin 4096) q) (pad_off_axis b p q _ rfl) (by show 32 + (p.val - 32) = p.val; omega)).trans ?_
      have e : (⟨p.val - 32, by omega⟩ : Fin 4096) = Cert.MixerSpec.unpad p.val :=
        Fin.ext (by show p.val - 32 = (p.val + 4064) % 4096; omega)
      rw [e]
    · refine (concatenate_apply_piece (t := S4x4160x1024) 1 (padPieces X)
        concatenates_S4x32x1024_S4x4096x1024_S4x32x1024_S4x4160x1024_d1 (ix3 b p q) 2 (show (2 : ℕ) < 3 by omega) S4x32x1024 _ rfl rfl 4128 rfl
        (ix3 b (⟨p.val - 4128, by omega⟩ : Fin 32) q) (pad_off_axis b p q _ rfl) (by show 4128 + (p.val - 4128) = p.val; omega)).trans ?_
      exact slice3_axis1_apply 0 X _ b ⟨p.val - 4128, by omega⟩ q (Cert.MixerSpec.unpad p.val)
        (by show (p.val + 4064) % 4096 = 0 + (p.val - 4128); omega)

/-- The padded sequence, as the operations' term over the valuation. -/
theorem hostOps1_v7_term :
    (StableHlo.after (hostOps1 (F := Ideal)) W (Proc.devRef .tc main_v7) : S4x4160x1024.Idx → EReal)
      = concatenate S4x4160x1024 1 (padPieces (W (Proc.devRef .tc main_v4) : S4x4096x1024.Idx → EReal))
          concatenates_S4x32x1024_S4x4096x1024_S4x32x1024_S4x4160x1024_d1 := by
  show StableHlo.after hostOps1 _ (Proc.devRef .tc main_v7) = _
  after_results
  dsimp only [Matrix.cons_val]
  repeat (first
    | rw [StableHlo.unary_result]
    | (rw [StableHlo.unary_result_ne]; rotate_left; decide))

/-- Row p of the padded sequence is row (p + 4064) mod 4096 of the projected sequence. -/
theorem hostOps1_v7 (b : Fin 4) (p : Fin 4160) (q : Fin 1024) :
    (StableHlo.after (hostOps1 (F := Ideal)) W (Proc.devRef .tc main_v7) : S4x4160x1024.Idx → EReal) (ix3 b p q)
      = (W (Proc.devRef .tc main_v4) : S4x4096x1024.Idx → EReal) (ix3 b (Cert.MixerSpec.unpad p.val) q) := by
  rw [hostOps1_v7_term W]
  exact pad_apply _ b p q

end Cert.KernelIdeal.Val

end
-- ==== Proof.Val.Glue.lean ====
/-
  The idealized kernel program's result, read as the mixer's function of the arguments.

  After the run the result array holds what the second region's write-backs leave: the layer norm of the gated mixture,
  over the arrays that region finds — x itself, the transposed gate weights, the circularly padded projected sequence,
  the scale and shift rows. Each of those is a host operation's (or the first region's) function of the arguments:
  the transposes read entry (j, d) for (d, j); row p of the padded sequence is row (p + 4064) mod 4096 of the first
  region's result, which is the projection Σ_d x(b,l,d) · Wv(e,d). Substituting, the result is `MixerSpec.out`.
-/
import proofs.«126410_j30434138259751_1_alg».proof.Proof.KI.Frame
import proofs.«126410_j30434138259751_1_alg».proof.Proof.Val.Final0
import proofs.«126410_j30434138259751_1_alg».proof.Proof.Val.Final1
import proofs.«126410_j30434138259751_1_alg».proof.Proof.Val.Host

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments, and the arrays the regions find, named at their literal types -/

abbrev aX (c : Dev nD) : S4x4096x1024.Idx → EReal := m ((c : Thread nD τ).loc main_arg0)
abbrev aG (c : Dev nD) : S9216x1024.Idx → EReal := m ((c : Thread nD τ).loc main_arg1)
abbrev aW (c : Dev nD) : S1024x1024.Idx → EReal := m ((c : Thread nD τ).loc main_arg2)
abbrev aγ (c : Dev nD) : S1024.Idx → EReal := m ((c : Thread nD τ).loc main_arg3)
abbrev aβ (c : Dev nD) : S1024.Idx → EReal := m ((c : Thread nD τ).loc main_arg4)
/-- The transposed value weights as the first region finds them. -/
abbrev e1 (c : Dev nD) : S1024x1024.Idx → EReal := V1 (F := Ideal) m ρ c main_v1
/-- The transposed gate weights, the padded projected sequence, the scale and shift rows as the second region finds them. -/
abbrev e3 (c : Dev nD) : S1024x9216.Idx → EReal := V3 (F := Ideal) m ρ c main_v3
abbrev e7 (c : Dev nD) : S4x4160x1024.Idx → EReal := V3 (F := Ideal) m ρ c main_v7
abbrev e8 (c : Dev nD) : S1x1024.Idx → EReal := V3 (F := Ideal) m ρ c main_v8
abbrev e9 (c : Dev nD) : S1x1024.Idx → EReal := V3 (F := Ideal) m ρ c main_v9
/-- The first region's result as the second stretch finds it. -/
abbrev e4 (c : Dev nD) : S4x4096x1024.Idx → EReal := W2 (F := Ideal) m ρ c (Proc.devRef .tc main_v4)

theorem V1_arg0 (c : Dev nD) : V1 (F := Ideal) m ρ c main_arg0 = aX m c :=
  hostOps0_keep (W0 m ρ c) main_arg0 (by decide)

theorem e1_apply (c : Dev nD) (d e : Fin 1024) : e1 m ρ c (ix2 d e) = aW m c (ix2 e d) :=
  hostOps0_v1 (W0 m ρ c) d e

/-- The first region's result: the projection. -/
theorem e4_apply (c : Dev nD) (b : Fin 4) (l : Fin 4096) (e : Fin 1024) :
    e4 m ρ c (ix3 b l e) = Cert.MixerSpec.proj (aX m c) (aW m c) b l e := by
  have h : e4 m ρ c = (fun i : S4x4096x1024.Idx => ∑ d : Fin 1024, aX m c (ix3 (i 0) (i 1) d) * e1 m ρ c (ix2 d (i 2))) :=
    (W2_arr (F := Ideal) m ρ c 2).trans (final0 (V1 m ρ) c (aX m c) (e1 m ρ c) (V1_arg0 m ρ c) rfl)
  rw [h]
  show (∑ d : Fin 1024, aX m c (ix3 b l d) * e1 m ρ c (ix2 d e)) = ∑ d : Fin 1024, aX m c (ix3 b l d) * aW m c (ix2 e d)
  exact Finset.sum_congr rfl fun d _ => congrArg (aX m c (ix3 b l d) * ·) (e1_apply m ρ c d e)

theorem V3_arg0 (c : Dev nD) : V3 (F := Ideal) m ρ c main_arg0 = aX m c := by
  show StableHlo.after hostOps1 (W2 m ρ c) (Proc.devRef .tc main_arg0) = _
  rw [hostOps1_keep (W2 m ρ c) main_arg0 (by decide)]
  exact (W2_arr m ρ c 0).trans ((((dat0 (V1 m ρ) c).arrAt_in 0 rfl _).trans (A_eq0 (V1 m ρ) c 0)).trans (V1_arg0 m ρ c))

theorem e3_apply (c : Dev nD) (d : Fin 1024) (j : Fin 9216) : e3 m ρ c (ix2 d j) = aG m c (ix2 j d) := by
  show (StableHlo.after hostOps1 (W2 m ρ c) (Proc.devRef .tc main_v3) : S1024x9216.Idx → EReal) (ix2 d j) = _
  rw [hostOps1_keep (W2 m ρ c) main_v3 (by decide), W2_of_ne m ρ c main_v3 (by decide)]
  exact hostOps0_v3 (W0 m ρ c) d j

theorem e7_apply (c : Dev nD) (b : Fin 4) (p : Fin 4160) (q : Fin 1024) :
    e7 m ρ c (ix3 b p q) = Cert.MixerSpec.proj (aX m c) (aW m c) b (Cert.MixerSpec.unpad p.val) q := by
  show (StableHlo.after hostOps1 (W2 m ρ c) (Proc.devRef .tc main_v7) : S4x4160x1024.Idx → EReal) (ix3 b p q) = _
  rw [hostOps1_v7 (W2 m ρ c) b p q]
  exact e4_apply m ρ c b _ q

theorem e8_apply (c : Dev nD) (q : Fin 1024) : e8 m ρ c (ix2 0 q) = aγ m c (ix1 q) := by
  show (StableHlo.after hostOps1 (W2 m ρ c) (Proc.devRef .tc main_v8) : S1x1024.Idx → EReal) (ix2 0 q) = _
  rw [hostOps1_v8 (W2 m ρ c) q, W2_of_ne m ρ c main_arg3 (by decide)]
  exact congrFun (hostOps0_keep (W0 m ρ c) main_arg3 (by decide)) (ix1 q)

theorem e9_apply (c : Dev nD) (q : Fin 1024) : e9 m ρ c (ix2 0 q) = aβ m c (ix1 q) := by
  show (StableHlo.after hostOps1 (W2 m ρ c) (Proc.devRef .tc main_v9) : S1x1024.Idx → EReal) (ix2 0 q) = _
  rw [hostOps1_v9 (W2 m ρ c) q, W2_of_ne m ρ c main_arg4 (by decide)]
  exact congrFun (hostOps0_keep (W0 m ρ c) main_arg4 (by decide)) (ix1 q)

/-! ## The result -/

/-- The result array after the run is the mixer's function of the arguments. -/
theorem result_eq (c : Dev nD) :
    W4 (F := Ideal) m ρ c (Proc.devRef .tc main_v10) = Cert.MixerSpec.out (aX m c) (aG m c) (aW m c) (aγ m c) (aβ m c) := by
  refine ((W4_main_v10 (F := Ideal) m ρ c).trans (final1 (V3 m ρ) c (aX m c) (e3 m ρ c) (e7 m ρ c) (e8 m ρ c) (e9 m ρ c) (V3_arg0 m ρ c) rfl rfl rfl rfl)).trans ?_
  funext i
  obtain ⟨b, l, q, rfl⟩ : ∃ (b : Fin 4) (l : Fin 4096) (q : Fin 1024), i = ix3 b l q := ⟨i 0, i 1, i 2, eq_ix3 i⟩
  show Cert.MixerSpec.lnorm
      (fun q' => ∑ g : Fin 9, Ideal.logistic (∑ d : Fin 1024, aX m c (ix3 b l d) * e3 m ρ c (ix2 d (Cert.MixerSpec.gch g q'))) * e7 m ρ c (ix3 b (padRow l g) q'))
      (fun q' => e8 m ρ c (ix2 0 q')) (fun q' => e9 m ρ c (ix2 0 q')) q
    = Cert.MixerSpec.lnorm (fun q' => Cert.MixerSpec.mix (aX m c) (aG m c) (aW m c) b l q') (fun q' => aγ m c (ix1 q')) (fun q' => aβ m c (ix1 q')) q
  have hrow : (fun q' => ∑ g : Fin 9, Ideal.logistic (∑ d : Fin 1024, aX m c (ix3 b l d) * e3 m ρ c (ix2 d (Cert.MixerSpec.gch g q'))) * e7 m ρ c (ix3 b (padRow l g) q'))
      = fun q' => Cert.MixerSpec.mix (aX m c) (aG m c) (aW m c) b l q' := by
    funext q'
    unfold Cert.MixerSpec.mix Cert.MixerSpec.gate
    refine Finset.sum_congr rfl fun g _ => ?_
    rw [e7_apply m ρ c b (padRow l g) q']
    refine congrArg₂ (· * ·) (congrArg Ideal.logistic (Finset.sum_congr rfl fun d _ => ?_)) rfl
    exact congrArg (aX m c (ix3 b l d) * ·) (e3_apply m ρ c d (Cert.MixerSpec.gch g q'))
  have hγ : (fun q' => e8 m ρ c (ix2 0 q')) = fun q' => aγ m c (ix1 q') := funext fun q' => e8_apply m ρ c q'
  have hβ : (fun q' => e9 m ρ c (ix2 0 q')) = fun q' => aβ m c (ix1 q') := funext fun q' => e9_apply m ρ c q'
  rw [hrow, hγ, hβ]

/-- The idealized kernel program's run, with its result named: every weakly fair execution terminates, the result array
    holds the mixer's function of the arguments, and the arguments are unchanged. -/
theorem run_value : θ_run (defs (F := Ideal)) (onTc (τ := τ) (main (F := Ideal))) ⟨m, fun _ => 0, ρ⟩ (fun r => ∀ c : Dev nD,
      r.2.mem ((c.tc : Thread nD τ).loc main_v10) = Cert.MixerSpec.out (aX m c) (aG m c) (aW m c) (aγ m c) (aβ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v10 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all (F := Ideal) m ρ)

end Cert.KernelIdeal.Val

end
-- ==== Proof.RefValue.lean ====
/-
  The reference program's result, index by index, is the gated shift mixer of the specification.

  The reference projects the sequence once, v = x · Wvᵀ, rolls the projected sequence along its position axis by the
  eight shifts (each roll written as two slices laid end to end: the last n₁ rows in front of the first n₂ rows, so that
  row l of the rolled array is row (l + n₂) mod 4096), stacks v and the eight rolled copies along a new axis of extent 9,
  multiplies the stack by the logistic gates regrouped from 9·1024 channels into 9 groups of 1024, sums over the nine
  groups, and layer-normalizes each row. Read at (b, l, g, q) the stack is v at row (l + off g + 4064) mod 4096, the
  regrouped gates are gate channel g·1024 + q, and the sum over g is the specification's mixture; the row statistics
  and the final scaling are the specification's, operation for operation. Sums from a zero initial value lose the zero;
  the only algebra used is commutativity of the product of a gate and a projected entry.
-/
import proofs.«126410_j30434138259751_1_alg».proof.Proof.Gen.ReferenceIdeal.Read
import proofs.«126410_j30434138259751_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.MixerSpec

/-- The activations, the gate weights, the value weights and a channel vector, as the reference program types them. -/
abbrev TX : Type := (⟨S4x4096x1024, .f32⟩ : BufTy).Contents (Elt Ideal)
abbrev TG : Type := (⟨S9216x1024, .f32⟩ : BufTy).Contents (Elt Ideal)
abbrev TW : Type := (⟨S1024x1024, .f32⟩ : BufTy).Contents (Elt Ideal)
abbrev TV : Type := (⟨S1024, .f32⟩ : BufTy).Contents (Elt Ideal)

/-- The projected sequence at (b, l, e): row (b, l) of the activations against row e of the value weights. -/
theorem v0_at (x0 : TX) (x2 : TW) (b : Fin 4) (l : Fin 4096) (e : Fin 1024) :
    val_main_v0 (F := Ideal) x0 x2 (ix3 b l e) = proj x0 x2 b l e := by
  rw [val_main_v0_apply]
  unfold proj
  refine Finset.sum_congr rfl fun k _ => ?_
  have e1 : lidx_main_v0 (ix3 b l e) k = ix3 b l k := funext fun a => by
    match a with | ⟨0, _⟩ => rfl | ⟨1, _⟩ => rfl | ⟨2, _⟩ => rfl
  have e2 : ridx_main_v0 (ix3 b l e) k = ix2 e k := funext fun a => by
    match a with | ⟨0, _⟩ => rfl | ⟨1, _⟩ => rfl
  rw [e1, e2]

/-- A roll of the sequence axis written as two slices laid end to end: the last n₁ rows first, then the first n₂ rows.
    Row l of the result is row (l + n₂) mod 4096 of the operand. -/
theorem roll_at (n₁ n₂ : Nat) (h12 : n₁ + n₂ = 4096) (y : S4x4096x1024.Idx → EReal)
    (hs1 : S4x4096x1024.Slices ![0, n₂, 0] (⟨3, ![4, n₁, 1024]⟩ : Shape))
    (hs2 : S4x4096x1024.Slices ![0, 0, 0] (⟨3, ![4, n₂, 1024]⟩ : Shape))
    (hc : Shape.Concatenates [(⟨3, ![4, n₁, 1024]⟩ : Shape), (⟨3, ![4, n₂, 1024]⟩ : Shape)] S4x4096x1024 1)
    (b : Fin 4) (l : Fin 4096) (q : Fin 1024) :
    concatenate S4x4096x1024 1
        [⟨(⟨3, ![4, n₁, 1024]⟩ : Shape), extractStridedSlice (⟨3, ![4, n₁, 1024]⟩ : Shape) ![0, n₂, 0] y hs1⟩,
         ⟨(⟨3, ![4, n₂, 1024]⟩ : Shape), extractStridedSlice (⟨3, ![4, n₂, 1024]⟩ : Shape) ![0, 0, 0] y hs2⟩] hc (ix3 b l q)
      = y (ix3 b (⟨(l.val + n₂) % 4096, Nat.mod_lt _ (by norm_num)⟩ : Fin 4096) q) := by
  by_cases hl : l.val < n₁
  · refine (concatenate_pair_apply_left (s₁ := (⟨3, ![4, n₁, 1024]⟩ : Shape)) (s₂ := (⟨3, ![4, n₂, 1024]⟩ : Shape))
      (1 : Fin 3) _ _ hc (ix3 b l q) rfl (ix3 b (⟨l.val, hl⟩ : Fin n₁) q)
      (fun a => by match a with | ⟨0, _⟩ => rfl | ⟨1, _⟩ => rfl | ⟨2, _⟩ => rfl)).trans ?_
    refine extractStridedSlice_apply _ y hs1 _ _ (fun a => ?_)
    match a with
    | ⟨0, _⟩ => show b.val = 0 + b.val; omega
    | ⟨1, _⟩ => show (l.val + n₂) % 4096 = n₂ + l.val; omega
    | ⟨2, _⟩ => show q.val = 0 + q.val; omega
  · have hl2 : l.val - n₁ < n₂ := by have := l.isLt; omega
    refine (concatenate_pair_apply_right (s₁ := (⟨3, ![4, n₁, 1024]⟩ : Shape)) (s₂ := (⟨3, ![4, n₂, 1024]⟩ : Shape))
      (1 : Fin 3) _ _ hc (ix3 b l q) rfl rfl (ix3 b (⟨l.val - n₁, hl2⟩ : Fin n₂) q)
      (fun a ha => by match a with | ⟨0, _⟩ => rfl | ⟨1, _⟩ => exact absurd rfl ha | ⟨2, _⟩ => rfl)
      (by show (l.val - n₁) + n₁ = l.val; omega)).trans ?_
    refine extractStridedSlice_apply _ y hs2 _ _ (fun a => ?_)
    match a with
    | ⟨0, _⟩ => show b.val = 0 + b.val; omega
    | ⟨1, _⟩ => show (l.val + n₂) % 4096 = 0 + (l.val - n₁); have := l.isLt; omega
    | ⟨2, _⟩ => show q.val = 0 + q.val; omega

/-- The first rolled copy: row l is row (l + 4064) mod 4096 of the projected sequence. -/
theorem v1_at (x0 : TX) (x2 : TW) (b : Fin 4) (l : Fin 4096) (q : Fin 1024) :
    val_main_v1 (F := Ideal) x0 x2 (ix3 b l q) = val_main_v0 (F := Ideal) x0 x2 (ix3 b (unpad (l.val + 0)) q) := by
  unfold val_main_v1 val_main_call0_v0 val_main_call0_v1
  generalize val_main_v0 (F := Ideal) x0 x2 = y
  exact roll_at 32 4064 rfl y _ _ _ b l q

/-- The second rolled copy: row l is row (l + 4080) mod 4096 of the projected sequence. -/
theorem v2_at (x0 : TX) (x2 : TW) (b : Fin 4) (l : Fin 4096) (q : Fin 1024) :
    val_main_v2 (F := Ideal) x0 x2 (ix3 b l q) = val_main_v0 (F := Ideal) x0 x2 (ix3 b (unpad (l.val + 16)) q) := by
  unfold val_main_v2 val_main_call1_v0 val_main_call1_v1
  generalize val_main_v0 (F := Ideal) x0 x2 = y
  refine (roll_at 16 4080 rfl y _ _ _ b l q).trans (congrArg y ?_)
  exact congrArg (fun r : Fin 4096 => ix3 b r q) (Fin.ext (by show (l.val + 4080) % 4096 = (l.val + 16 + 4064) % 4096; omega))

/-- The third rolled copy: row l is row (l + 4092) mod 4096 of the projected sequence. -/
theorem v3_at (x0 : TX) (x2 : TW) (b : Fin 4) (l : Fin 4096) (q : Fin 1024) :
    val_main_v3 (F := Ideal) x0 x2 (ix3 b l q) = val_main_v0 (F := Ideal) x0 x2 (ix3 b (unpad (l.val + 28)) q) := by
  unfold val_main_v3 val_main_call2_v0 val_main_call2_v1
  generalize val_main_v0 (F := Ideal) x0 x2 = y
  refine (roll_at 4 4092 rfl y _ _ _ b l q).trans (congrArg y ?_)
  exact congrArg (fun r : Fin 4096 => ix3 b r q) (Fin.ext (by show (l.val + 4092) % 4096 = (l.val + 28 + 4064) % 4096; omega))

/-- The fourth rolled copy: row l is row (l + 4095) mod 4096 of the projected sequence. -/
theorem v4_at (x0 : TX) (x2 : TW) (b : Fin 4) (l : Fin 4096) (q : Fin 1024) :
    val_main_v4 (F := Ideal) x0 x2 (ix3 b l q) = val_main_v0 (F := Ideal) x0 x2 (ix3 b (unpad (l.val + 31)) q) := by
  unfold val_main_v4 val_main_call3_v0 val_main_call3_v1
  generalize val_main_v0 (F := Ideal) x0 x2 = y
  refine (roll_at 1 4095 rfl y _ _ _ b l q).trans (congrArg y ?_)
  exact congrArg (fun r : Fin 4096 => ix3 b r q) (Fin.ext (by show (l.val + 4095) % 4096 = (l.val + 31 + 4064) % 4096; omega))

/-- The fifth rolled copy: row l is row (l + 1) mod 4096 of the projected sequence. -/
theorem v5_at (x0 : TX) (x2 : TW) (b : Fin 4) (l : Fin 4096) (q : Fin 1024) :
    val_main_v5 (F := Ideal) x0 x2 (ix3 b l q) = val_main_v0 (F := Ideal) x0 x2 (ix3 b (unpad (l.val + 33)) q) := by
  unfold val_main_v5 val_main_call4_v0 val_main_call4_v1
  generalize val_main_v0 (F := Ideal) x0 x2 = y
  refine (roll_at 4095 1 rfl y _ _ _ b l q).trans (congrArg y ?_)
  exact congrArg (fun r : Fin 4096 => ix3 b r q) (Fin.ext (by show (l.val + 1) % 4096 = (l.val + 33 + 4064) % 4096; omega))

/-- The sixth rolled copy: row l is row (l + 4) mod 4096 of the projected sequence. -/
theorem v6_at (x0 : TX) (x2 : TW) (b : Fin 4) (l : Fin 4096) (q : Fin 1024) :
    val_main_v6 (F := Ideal) x0 x2 (ix3 b l q) = val_main_v0 (F := Ideal) x0 x2 (ix3 b (unpad (l.val + 36)) q) := by
  unfold val_main_v6 val_main_call5_v0 val_main_call5_v1
  generalize val_main_v0 (F := Ideal) x0 x2 = y
  refine (roll_at 4092 4 rfl y _ _ _ b l q).trans (congrArg y ?_)
  exact congrArg (fun r : Fin 4096 => ix3 b r q) (Fin.ext (by show (l.val + 4) % 4096 = (l.val + 36 + 4064) % 4096; omega))

/-- The seventh rolled copy: row l is row (l + 16) mod 4096 of the projected sequence. -/
theorem v7_at (x0 : TX) (x2 : TW) (b : Fin 4) (l : Fin 4096) (q : Fin 1024) :
    val_main_v7 (F := Ideal) x0 x2 (ix3 b l q) = val_main_v0 (F := Ideal) x0 x2 (ix3 b (unpad (l.val + 48)) q) := by
  unfold val_main_v7 val_main_call6_v0 val_main_call6_v1
  generalize val_main_v0 (F := Ideal) x0 x2 = y
  refine (roll_at 4080 16 rfl y _ _ _ b l q).trans (congrArg y ?_)
  exact congrArg (fun r : Fin 4096 => ix3 b r q) (Fin.ext (by show (l.val + 16) % 4096 = (l.val + 48 + 4064) % 4096; omega))

/-- The eighth rolled copy: row l is row (l + 32) mod 4096 of the projected sequence. -/
theorem v8_at (x0 : TX) (x2 : TW) (b : Fin 4) (l : Fin 4096) (q : Fin 1024) :
    val_main_v8 (F := Ideal) x0 x2 (ix3 b l q) = val_main_v0 (F := Ideal) x0 x2 (ix3 b (unpad (l.val + 64)) q) := by
  unfold val_main_v8 val_main_call7_v0 val_main_call7_v1
  generalize val_main_v0 (F := Ideal) x0 x2 = y
  refine (roll_at 4064 32 rfl y _ _ _ b l q).trans (congrArg y ?_)
  exact congrArg (fun r : Fin 4096 => ix3 b r q) (Fin.ext (by show (l.val + 32) % 4096 = (l.val + 64 + 4064) % 4096; omega))

/-- Nine arrays of one unit-extent shape stacked along the third axis: entry (b, l, g, q) is the g-th array at (b, l, 0, q). -/
theorem stack_at (p : Fin 9 → S4x4096x1x1024.Idx → EReal)
    (hc : Shape.Concatenates [S4x4096x1x1024, S4x4096x1x1024, S4x4096x1x1024, S4x4096x1x1024, S4x4096x1x1024, S4x4096x1x1024, S4x4096x1x1024, S4x4096x1x1024, S4x4096x1x1024] S4x4096x9x1024 2)
    (b : Fin 4) (l : Fin 4096) (g : Fin 9) (q : Fin 1024) :
    concatenate S4x4096x9x1024 2 [⟨S4x4096x1x1024, p 0⟩, ⟨S4x4096x1x1024, p 1⟩, ⟨S4x4096x1x1024, p 2⟩, ⟨S4x4096x1x1024, p 3⟩, ⟨S4x4096x1x1024, p 4⟩, ⟨S4x4096x1x1024, p 5⟩, ⟨S4x4096x1x1024, p 6⟩, ⟨S4x4096x1x1024, p 7⟩, ⟨S4x4096x1x1024, p 8⟩] hc (ix4 b l g q)
      = p g (ix4 b l (0 : Fin 1) q) :=
  concatenate_ofFn_unit_apply (t := S4x4096x9x1024) (s₁ := S4x4096x1x1024) (2 : Fin 4) p hc rfl rfl
    (ix4 b l g q : S4x4096x9x1024.Idx) g rfl (ix4 b l (0 : Fin 1) q : S4x4096x1x1024.Idx)
    (fun a ha => by match a with | ⟨0, _⟩ => rfl | ⟨1, _⟩ => rfl | ⟨2, _⟩ => exact absurd rfl ha | ⟨3, _⟩ => rfl)

theorem idx9 (b : Fin 4) (l : Fin 4096) (q : Fin 1024) : idx_main_v9 (ix4 b l (0 : Fin 1) q) = ix3 b l q :=
  funext fun a => by match a with | ⟨0, _⟩ => rfl | ⟨1, _⟩ => rfl | ⟨2, _⟩ => rfl
theorem idx10 (b : Fin 4) (l : Fin 4096) (q : Fin 1024) : idx_main_v10 (ix4 b l (0 : Fin 1) q) = ix3 b l q :=
  funext fun a => by match a with | ⟨0, _⟩ => rfl | ⟨1, _⟩ => rfl | ⟨2, _⟩ => rfl
theorem idx11 (b : Fin 4) (l : Fin 4096) (q : Fin 1024) : idx_main_v11 (ix4 b l (0 : Fin 1) q) = ix3 b l q :=
  funext fun a => by match a with | ⟨0, _⟩ => rfl | ⟨1, _⟩ => rfl | ⟨2, _⟩ => rfl
theorem idx12 (b : Fin 4) (l : Fin 4096) (q : Fin 1024) : idx_main_v12 (ix4 b l (0 : Fin 1) q) = ix3 b l q :=
  funext fun a => by match a with | ⟨0, _⟩ => rfl | ⟨1, _⟩ => rfl | ⟨2, _⟩ => rfl
theorem idx13 (b : Fin 4) (l : Fin 4096) (q : Fin 1024) : idx_main_v13 (ix4 b l (0 : Fin 1) q) = ix3 b l q :=
  funext fun a => by match a with | ⟨0, _⟩ => rfl | ⟨1, _⟩ => rfl | ⟨2, _⟩ => rfl
theorem idx14 (b : Fin 4) (l : Fin 4096) (q : Fin 1024) : idx_main_v14 (ix4 b l (0 : Fin 1) q) = ix3 b l q :=
  funext fun a => by match a with | ⟨0, _⟩ => rfl | ⟨1, _⟩ => rfl | ⟨2, _⟩ => rfl
theorem idx15 (b : Fin 4) (l : Fin 4096) (q : Fin 1024) : idx_main_v15 (ix4 b l (0 : Fin 1) q) = ix3 b l q :=
  funext fun a => by match a with | ⟨0, _⟩ => rfl | ⟨1, _⟩ => rfl | ⟨2, _⟩ => rfl
theorem idx16 (b : Fin 4) (l : Fin 4096) (q : Fin 1024) : idx_main_v16 (ix4 b l (0 : Fin 1) q) = ix3 b l q :=
  funext fun a => by match a with | ⟨0, _⟩ => rfl | ⟨1, _⟩ => rfl | ⟨2, _⟩ => rfl
theorem idx17 (b : Fin 4) (l : Fin 4096) (q : Fin 1024) : idx_main_v17 (ix4 b l (0 : Fin 1) q) = ix3 b l q :=
  funext fun a => by match a with | ⟨0, _⟩ => rfl | ⟨1, _⟩ => rfl | ⟨2, _⟩ => rfl

/-- The stack of the projected sequence and its eight rolled copies: entry (b, l, g, q) is the projected sequence at
    row (l + off g + 4064) mod 4096, that is, at row l shifted by the g-th shift, circularly. -/
theorem v18_at (x0 : TX) (x2 : TW) (b : Fin 4) (l : Fin 4096) (g : Fin 9) (q : Fin 1024) :
    val_main_v18 (F := Ideal) x0 x2 (ix4 b l g q) = proj x0 x2 b (unpad (l.val + off g)) q := by
  unfold val_main_v18
  refine (stack_at ![val_main_v9 (F := Ideal) x0 x2, val_main_v10 (F := Ideal) x0 x2, val_main_v11 (F := Ideal) x0 x2,
    val_main_v12 (F := Ideal) x0 x2, val_main_v13 (F := Ideal) x0 x2, val_main_v14 (F := Ideal) x0 x2,
    val_main_v15 (F := Ideal) x0 x2, val_main_v16 (F := Ideal) x0 x2, val_main_v17 (F := Ideal) x0 x2] _ b l g q).trans ?_
  rw [← v0_at]
  match g with
  | ⟨0, _⟩ =>
    show val_main_v9 (F := Ideal) x0 x2 (ix4 b l (0 : Fin 1) q) = val_main_v0 (F := Ideal) x0 x2 (ix3 b (unpad (l.val + 32)) q)
    rw [val_main_v9_apply, idx9]
    exact congrArg (fun r : Fin 4096 => val_main_v0 (F := Ideal) x0 x2 (ix3 b r q))
      (Fin.ext (by show l.val = (l.val + 32 + 4064) % 4096; have := l.isLt; omega))
  | ⟨1, _⟩ =>
    show val_main_v10 (F := Ideal) x0 x2 (ix4 b l (0 : Fin 1) q) = val_main_v0 (F := Ideal) x0 x2 (ix3 b (unpad (l.val + 0)) q)
    rw [val_main_v10_apply, idx10]
    exact v1_at x0 x2 b l q
  | ⟨2, _⟩ =>
    show val_main_v11 (F := Ideal) x0 x2 (ix4 b l (0 : Fin 1) q) = val_main_v0 (F := Ideal) x0 x2 (ix3 b (unpad (l.val + 16)) q)
    rw [val_main_v11_apply, idx11]
    exact v2_at x0 x2 b l q
  | ⟨3, _⟩ =>
    show val_main_v12 (F := Ideal) x0 x2 (ix4 b l (0 : Fin 1) q) = val_main_v0 (F := Ideal) x0 x2 (ix3 b (unpad (l.val + 28)) q)
    rw [val_main_v12_apply, idx12]
    exact v3_at x0 x2 b l q
  | ⟨4, _⟩ =>
    show val_main_v13 (F := Ideal) x0 x2 (ix4 b l (0 : Fin 1) q) = val_main_v0 (F := Ideal) x0 x2 (ix3 b (unpad (l.val + 31)) q)
    rw [val_main_v13_apply, idx13]
    exact v4_at x0 x2 b l q
  | ⟨5, _⟩ =>
    show val_main_v14 (F := Ideal) x0 x2 (ix4 b l (0 : Fin 1) q) = val_main_v0 (F := Ideal) x0 x2 (ix3 b (unpad (l.val + 33)) q)
    rw [val_main_v14_apply, idx14]
    exact v5_at x0 x2 b l q
  | ⟨6, _⟩ =>
    show val_main_v15 (F := Ideal) x0 x2 (ix4 b l (0 : Fin 1) q) = val_main_v0 (F := Ideal) x0 x2 (ix3 b (unpad (l.val + 36)) q)
    rw [val_main_v15_apply, idx15]
    exact v6_at x0 x2 b l q
  | ⟨7, _⟩ =>
    show val_main_v16 (F := Ideal) x0 x2 (ix4 b l (0 : Fin 1) q) = val_main_v0 (F := Ideal) x0 x2 (ix3 b (unpad (l.val + 48)) q)
    rw [val_main_v16_apply, idx16]
    exact v7_at x0 x2 b l q
  | ⟨8, _⟩ =>
    show val_main_v17 (F := Ideal) x0 x2 (ix4 b l (0 : Fin 1) q) = val_main_v0 (F := Ideal) x0 x2 (ix3 b (unpad (l.val + 64)) q)
    rw [val_main_v17_apply, idx17]
    exact v8_at x0 x2 b l q

/-- The gate pre-activations at (b, l, j): row (b, l) of the activations against row j of the gate weights. -/
theorem v19_at (x0 : TX) (x1 : TG) (b : Fin 4) (l : Fin 4096) (j : Fin 9216) :
    val_main_v19 (F := Ideal) x0 x1 (ix3 b l j) = ∑ d : Fin 1024, x0 (ix3 b l d) * x1 (ix2 j d) := by
  rw [val_main_v19_apply]
  refine Finset.sum_congr rfl fun k _ => ?_
  have e1 : lidx_main_v19 (ix3 b l j) k = ix3 b l k := funext fun a => by
    match a with | ⟨0, _⟩ => rfl | ⟨1, _⟩ => rfl | ⟨2, _⟩ => rfl
  have e2 : ridx_main_v19 (ix3 b l j) k = ix2 j k := funext fun a => by
    match a with | ⟨0, _⟩ => rfl | ⟨1, _⟩ => rfl
  rw [e1, e2]

/-- The gates at (b, l, j): one over one plus the exponential of the negated pre-activation, which is the logistic. -/
theorem v25_at (x0 : TX) (x1 : TG) (b : Fin 4) (l : Fin 4096) (j : Fin 9216) :
    val_main_v25 (F := Ideal) x0 x1 (ix3 b l j) = gate x0 x1 b l j := by
  rw [val_main_v25_apply, val_main_v24_apply, val_main_cst_0_apply, val_main_v23_apply, val_main_v22_apply,
    val_main_cst_apply, val_main_v21_apply, val_main_v20_apply, v19_at]
  show Ideal.div (Ideal.ofBits .f32 0x3F800000#32)
      (Ideal.ofBits .f32 0x3F800000#32 + Ideal.exp (-(∑ d : Fin 1024, x0 (ix3 b l d) * x1 (ix2 j d)))) = _
  rw [Ideal.ofBits_one_f32]
  rfl

/-- The gates regrouped as nine groups of 1024 channels: entry (b, l, g, q) is gate channel g · 1024 + q. -/
theorem v26_at (x0 : TX) (x1 : TG) (b : Fin 4) (l : Fin 4096) (g : Fin 9) (q : Fin 1024) :
    val_main_v26 (F := Ideal) x0 x1 (ix4 b l g q) = gate x0 x1 b l (gch g q) := by
  rw [val_main_v26_apply, ← v25_at]
  refine congrArg _ (funext fun a => Fin.ext ?_)
  have hb := b.isLt; have hl := l.isLt; have hg := g.isLt; have hq := q.isLt
  match a with
  | ⟨0, _⟩ => show (((b.val * 4096 + l.val) * 9 + g.val) * 1024 + q.val) / 37748736 = b.val; omega
  | ⟨1, _⟩ => show (((b.val * 4096 + l.val) * 9 + g.val) * 1024 + q.val) / 9216 % 4096 = l.val; omega
  | ⟨2, _⟩ => show (((b.val * 4096 + l.val) * 9 + g.val) * 1024 + q.val) % 9216 = g.val * 1024 + q.val; omega

theorem idx28 (b : Fin 4) (l : Fin 4096) (q : Fin 1024) (k : Fin 9) : idx_main_v28 (ix3 b l q) k = ix4 b l k q :=
  funext fun a => by match a with | ⟨0, _⟩ => rfl | ⟨1, _⟩ => rfl | ⟨2, _⟩ => rfl | ⟨3, _⟩ => rfl

/-- The sum over the nine groups of the stacked copies times their gates is the mixture. -/
theorem v28_at (x0 : TX) (x1 : TG) (x2 : TW) (b : Fin 4) (l : Fin 4096) (q : Fin 1024) :
    val_main_v28 (F := Ideal) x0 x1 x2 (ix3 b l q) = mix x0 x1 x2 b l q := by
  rw [val_main_v28_apply, val_main_cst_1_apply, Ideal.ofBits_def, Ideal.ofBits_zero_f32, zero_add]
  unfold mix
  refine Finset.sum_congr rfl fun g _ => ?_
  rw [idx28, val_main_v27_apply, v18_at, v26_at, Ideal.mulf_def]
  exact mul_comm _ _

theorem idx29 (b : Fin 4) (l : Fin 4096) (k : Fin 1024) : idx_main_v29 (ix2 b l) k = ix3 b l k :=
  funext fun a => by match a with | ⟨0, _⟩ => rfl | ⟨1, _⟩ => rfl | ⟨2, _⟩ => rfl
theorem idx36 (b : Fin 4) (l : Fin 4096) (k : Fin 1024) : idx_main_v36 (ix2 b l) k = ix3 b l k :=
  funext fun a => by match a with | ⟨0, _⟩ => rfl | ⟨1, _⟩ => rfl | ⟨2, _⟩ => rfl
theorem idx30 (b : Fin 4) (l : Fin 4096) (z : Fin 1) : idx_main_v30 (ix3 b l z) = ix2 b l :=
  funext fun a => by match a with | ⟨0, _⟩ => rfl | ⟨1, _⟩ => rfl
theorem idx37 (b : Fin 4) (l : Fin 4096) (z : Fin 1) : idx_main_v37 (ix3 b l z) = ix2 b l :=
  funext fun a => by match a with | ⟨0, _⟩ => rfl | ⟨1, _⟩ => rfl
theorem idx33 (b : Fin 4) (l : Fin 4096) (q : Fin 1024) : idx_main_v33 (ix3 b l q) = ix3 b l (⟨0, Nat.one_pos⟩ : Fin 1) :=
  funext fun a => by match a with | ⟨0, _⟩ => rfl | ⟨1, _⟩ => rfl | ⟨2, _⟩ => rfl
theorem idx40 (b : Fin 4) (l : Fin 4096) (q : Fin 1024) : idx_main_v40 (ix3 b l q) = ix3 b l (⟨0, Nat.one_pos⟩ : Fin 1) :=
  funext fun a => by match a with | ⟨0, _⟩ => rfl | ⟨1, _⟩ => rfl | ⟨2, _⟩ => rfl
theorem idx45 (b : Fin 4) (l : Fin 4096) (q : Fin 1024) : idx_main_v45 (ix3 b l q) = ix3 b l (⟨0, Nat.one_pos⟩ : Fin 1) :=
  funext fun a => by match a with | ⟨0, _⟩ => rfl | ⟨1, _⟩ => rfl | ⟨2, _⟩ => rfl
theorem idx4748 (b : Fin 4) (l : Fin 4096) (q : Fin 1024) : idx_main_v47 (idx_main_v48 (ix3 b l q)) = ix1 q :=
  funext fun a => by match a with | ⟨0, _⟩ => rfl
theorem idx5051 (b : Fin 4) (l : Fin 4096) (q : Fin 1024) : idx_main_v50 (idx_main_v51 (ix3 b l q)) = ix1 q :=
  funext fun a => by match a with | ⟨0, _⟩ => rfl

/-- The row sums of the mixture. -/
theorem v29_at (x0 : TX) (x1 : TG) (x2 : TW) (b : Fin 4) (l : Fin 4096) :
    val_main_v29 (F := Ideal) x0 x1 x2 (ix2 b l) = ∑ q : Fin 1024, mix x0 x1 x2 b l q := by
  rw [val_main_v29_apply, val_main_cst_2_apply, Ideal.ofBits_def, Ideal.ofBits_zero_f32, zero_add]
  refine Finset.sum_congr rfl fun k _ => ?_
  rw [idx29, v28_at]

/-- The row means of the mixture: the row sum divided by the word 1024.0. -/
theorem v32_at (x0 : TX) (x1 : TG) (x2 : TW) (b : Fin 4) (l : Fin 4096) (z : Fin 1) :
    val_main_v32 (F := Ideal) x0 x1 x2 (ix3 b l z) = mean (fun q => mix x0 x1 x2 b l q) := by
  rw [val_main_v32_apply, val_main_v30_apply, idx30, v29_at, val_main_v31_apply, val_main_cst_3_apply]
  rfl

/-- The deviations from the row mean (the copy that is squared). -/
theorem v34_at (x0 : TX) (x1 : TG) (x2 : TW) (b : Fin 4) (l : Fin 4096) (q : Fin 1024) :
    val_main_v34 (F := Ideal) x0 x1 x2 (ix3 b l q)
      = mix x0 x1 x2 b l q - mean (fun q => mix x0 x1 x2 b l q) := by
  rw [val_main_v34_apply, v28_at, val_main_v33_apply, idx33, v32_at, Ideal.subf_def]

/-- The deviations from the row mean (the copy that is scaled). -/
theorem v41_at (x0 : TX) (x1 : TG) (x2 : TW) (b : Fin 4) (l : Fin 4096) (q : Fin 1024) :
    val_main_v41 (F := Ideal) x0 x1 x2 (ix3 b l q)
      = mix x0 x1 x2 b l q - mean (fun q => mix x0 x1 x2 b l q) := by
  rw [val_main_v41_apply, v28_at, val_main_v40_apply, idx40, v32_at, Ideal.subf_def]

/-- The row sums of the squared deviations. -/
theorem v36_at (x0 : TX) (x1 : TG) (x2 : TW) (b : Fin 4) (l : Fin 4096) :
    val_main_v36 (F := Ideal) x0 x1 x2 (ix2 b l)
      = ∑ q : Fin 1024, (mix x0 x1 x2 b l q - mean (fun q => mix x0 x1 x2 b l q))
          * (mix x0 x1 x2 b l q - mean (fun q => mix x0 x1 x2 b l q)) := by
  rw [val_main_v36_apply, val_main_cst_4_apply, Ideal.ofBits_def, Ideal.ofBits_zero_f32, zero_add]
  refine Finset.sum_congr rfl fun k _ => ?_
  rw [idx36, val_main_v35_apply, v34_at, Ideal.mulf_def]

/-- The row variances of the mixture. -/
theorem v39_at (x0 : TX) (x1 : TG) (x2 : TW) (b : Fin 4) (l : Fin 4096) (z : Fin 1) :
    val_main_v39 (F := Ideal) x0 x1 x2 (ix3 b l z) = var (fun q => mix x0 x1 x2 b l q) := by
  rw [val_main_v39_apply, val_main_v37_apply, idx37, v36_at, val_main_v38_apply, val_main_cst_5_apply]
  rfl

/-- The reciprocal square root of the variance plus the offset. -/
theorem v44_at (x0 : TX) (x1 : TG) (x2 : TW) (b : Fin 4) (l : Fin 4096) (z : Fin 1) :
    val_main_v44 (F := Ideal) x0 x1 x2 (ix3 b l z) = Ideal.rsqrt (var (fun q => mix x0 x1 x2 b l q) + ceps) := by
  rw [val_main_v44_apply, val_main_v43_apply, v39_at, val_main_v42_apply, val_main_cst_6_apply]
  rfl

/-- The reference's last value at (b, l, q): the layer norm of row (b, l) of the mixture at channel q. -/
theorem v52_at (x0 : TX) (x1 : TG) (x2 : TW) (x3 x4 : TV) (b : Fin 4) (l : Fin 4096) (q : Fin 1024) :
    val_main_v52 (F := Ideal) x0 x1 x2 x3 x4 (ix3 b l q)
      = lnorm (fun q => mix x0 x1 x2 b l q) (fun q => x3 (ix1 q)) (fun q => x4 (ix1 q)) q := by
  rw [val_main_v52_apply, val_main_v49_apply, val_main_v46_apply, v41_at, val_main_v45_apply, idx45, v44_at,
    val_main_v48_apply, val_main_v47_apply, idx4748, val_main_v51_apply, val_main_v50_apply, idx5051]
  rfl

/-- The reference program's result is the specification's function of the five arguments. -/
theorem result_eq (m : (ℓ : Loc nD τ sig) → Buf (Elt Ideal) ℓ) (c : Dev nD) :
    Cert.ReferenceIdeal.Value.res_main_v52 (F := Ideal) m c
      = Cert.MixerSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v52_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  funext i
  obtain ⟨b, l, q, rfl⟩ : ∃ (b : Fin 4) (l : Fin 4096) (q : Fin 1024), i = ix3 b l q := ⟨i 0, i 1, i 2, eq_ix3 i⟩
  exact v52_at x0 x1 x2 x3 x4 b l q

end Cert.ReferenceIdeal.RefValue

end
-- ==== Proof.lean ====
/-
  The gated shift mixer: a two-kernel program against its jnp reference, equal over the extended reals.

  The kernel program projects x once (x · Wvᵀ, first kernel), pads the projected sequence circularly by 32 rows on each
  side, and in a second kernel computes, tile by tile, the nine gates logistic(x · Wgᵀ), the gate-weighted sum of the
  nine shifted row windows of the padded sequence, and the layer norm of each row. The reference rolls the projected
  sequence eight times, stacks the nine copies, multiplies by the reshaped gates, sums and normalizes. Row l + 32 + s of
  the padded sequence is row (l + s) mod 4096 of the sequence, which is what a roll by -s reads; a finite sum in the
  extended reals does not depend on its order; a change of float format is the identity there; the kernel's logistic is
  the reference's 1 / (1 + exp(-z)). So both are `MixerSpec.out` of the arguments, index by index (Proof/Spec.lean).

  The frames: the reference's is its run with the result dropped; each kernel program's is its run through the two host
  stretches and the two regions (Proof/KI/Frame.lean for the idealized text, Proof/KB/Frame.lean for the word-level
  one), the second region's scratch buffers carried from the first tile of a batch entry, which fills them by two
  copies it waits for, to the entry's later tiles. The idealization rewrote nothing, so `preserves` is trivial.
-/
import proofs.«126410_j30434138259751_1_alg».proof.Defs
import proofs.«126410_j30434138259751_1_alg».proof.Proof.Gen.Kernel
import proofs.«126410_j30434138259751_1_alg».proof.Proof.Gen.KernelIdeal
import proofs.«126410_j30434138259751_1_alg».proof.Proof.Gen.ReferenceIdeal
import proofs.«126410_j30434138259751_1_alg».proof.Proof.Gen.ReferenceIdeal.Run
import proofs.«126410_j30434138259751_1_alg».proof.Proof.Gen.ReferenceIdeal.Read
import proofs.«126410_j30434138259751_1_alg».proof.Proof.Gen.Pre_finite_inputs
import proofs.«126410_j30434138259751_1_alg».proof.Proof.KB.Frame
import proofs.«126410_j30434138259751_1_alg».proof.Proof.KI.Frame
import proofs.«126410_j30434138259751_1_alg».proof.Proof.Val.Glue
import proofs.«126410_j30434138259751_1_alg».proof.Proof.RefValue

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the mixer's function of arguments that agree. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
